-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_2)) (v2 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_2) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x512 : Shape := ⟨2, ![256, 512]⟩
abbrev S1x512 : Shape := ⟨2, ![1, 512]⟩
abbrev S512x512 : Shape := ⟨2, ![512, 512]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bitsLt_bf16_f32 : FTy.bits .bf16 < FTy.bits .f32
  bcast_S_S4096x4096 : S_.BroadcastsInDim S4096x4096 (![] : Fin 0 → Fin S4096x4096.rank)
  reducesTo_S4096x4096_S_d0_1 : S4096x4096.ReducesTo [0, 1] S_
  bcast_S_S256x512 : S_.BroadcastsInDim S256x512 (![] : Fin 0 → Fin S256x512.rank)
  reducesTo_S256x512_S_d0_1 : S256x512.ReducesTo [0, 1] S_
  bcast_S_S1x512 : S_.BroadcastsInDim S1x512 (![] : Fin 0 → Fin S1x512.rank)
  reducesTo_S1x512_S_d0_1 : S1x512.ReducesTo [0, 1] S_
  bcast_S_S512x512 : S_.BroadcastsInDim S512x512 (![] : Fin 0 → Fin S512x512.rank)
  reducesTo_S512x512_S_d0_1 : S512x512.ReducesTo [0, 1] S_

variable [Facts]

def fn_part2 {F : FTy → Type} [FloatOps F] (main_v29 : IVec S_ 1) (main_v33 : IVec S_ 1) : IVec S_ 1 :=
  let main_v34 : IVec S_ 1 := andi main_v29 main_v33
  main_v34

def fn_part1 {F : FTy → Type} [FloatOps F] (main_arg4 : FVec F S1x512 .f32) (main_arg5 : FVec F S512x512 .f32) (main_arg6 : FVec F S1x512 .f32) (main_v14 : IVec S_ 1) (main_v15 : FVec F S256x512 .f32) (main_v16 : FVec F S256x512 .f32) : IVec S_ 1 :=
  let main_v17 : IVec S256x512 1 := cmpf .olt main_v15 main_v16
  let main_c_5 : IVec S_ 1 := constantI S_ 1 1#1
  let main_v18 : IVec S_ 1 := (fun x v => Host.reduce IntOp.andi x v reducesTo_S256x512_S_d0_1 h_S_) main_v17 main_c_5
  let main_v19 : IVec S_ 1 := andi main_v14 main_v18
  let main_v20 : FVec F S1x512 .f32 := Host.absf main_arg4
  let main_cst_6 : FVec F S_ .f32 := constant S_ .f32 0x7F800000#32
  let main_v21 : FVec F S1x512 .f32 := broadcastInDim S1x512 ![] bcast_S_S1x512 main_cst_6
  let main_v22 : IVec S1x512 1 := cmpf .olt main_v20 main_v21
  let main_c_7 : IVec S_ 1 := constantI S_ 1 1#1
  let main_v23 : IVec S_ 1 := (fun x v => Host.reduce IntOp.andi x v reducesTo_S1x512_S_d0_1 h_S_) main_v22 main_c_7
  let main_v24 : IVec S_ 1 := andi main_v19 main_v23
  let main_v25 : FVec F S512x512 .f32 := Host.absf main_arg5
  let main_cst_8 : FVec F S_ .f32 := constant S_ .f32 0x7F800000#32
  let main_v26 : FVec F S512x512 .f32 := broadcastInDim S512x512 ![] bcast_S_S512x512 main_cst_8
  let main_v27 : IVec S512x512 1 := cmpf .olt main_v25 main_v26
  let main_c_9 : IVec S_ 1 := constantI S_ 1 1#1
  let main_v28 : IVec S_ 1 := (fun x v => Host.reduce IntOp.andi x v reducesTo_S512x512_S_d0_1 h_S_) main_v27 main_c_9
  let main_v29 : IVec S_ 1 := andi main_v24 main_v28
  let main_v30 : FVec F S1x512 .f32 := Host.absf main_arg6
  let main_cst_10 : FVec F S_ .f32 := constant S_ .f32 0x7F800000#32
  let main_v31 : FVec F S1x512 .f32 := broadcastInDim S1x512 ![] bcast_S_S1x512 main_cst_10
  let main_v32 : IVec S1x512 1 := cmpf .olt main_v30 main_v31
  let main_c_11 : IVec S_ 1 := constantI S_ 1 1#1
  let main_v33 : IVec S_ 1 := (fun x v => Host.reduce IntOp.andi x v reducesTo_S1x512_S_d0_1 h_S_) main_v32 main_c_11
  fn_part2 (F := F) main_v29 main_v33

def fn {F : FTy → Type} [FloatOps F] (main_arg0 : FVec F S4096x256 .f32) (main_arg1 : FVec F S4096x256 .f32) (main_arg2 : FVec F S4096x4096 .bf16) (main_arg3 : FVec F S256x512 .f32) (main_arg4 : FVec F S1x512 .f32) (main_arg5 : FVec F S512x512 .f32) (main_arg6 : FVec F S1x512 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x4096 .f32 := (extf .f32 · bitsLt_bf16_f32) main_arg2
  let main_v10 : FVec F S4096x4096 .f32 := Host.absf main_v9
  let main_cst_2 : FVec F S_ .f32 := constant S_ .f32 0x7F800000#32
  let main_v11 : FVec F S4096x4096 .f32 := broadcastInDim S4096x4096 ![] bcast_S_S4096x4096 main_cst_2
  let main_v12 : IVec S4096x4096 1 := cmpf .olt main_v10 main_v11
  let main_c_3 : IVec S_ 1 := constantI S_ 1 1#1
  let main_v13 : IVec S_ 1 := (fun x v => Host.reduce IntOp.andi x v reducesTo_S4096x4096_S_d0_1 h_S_) main_v12 main_c_3
  let main_v14 : IVec S_ 1 := andi main_v8 main_v13
  let main_v15 : FVec F S256x512 .f32 := Host.absf main_arg3
  let main_cst_4 : FVec F S_ .f32 := constant S_ .f32 0x7F800000#32
  let main_v16 : FVec F S256x512 .f32 := broadcastInDim S256x512 ![] bcast_S_S256x512 main_cst_4
  fn_part1 (F := F) main_arg4 main_arg5 main_arg6 main_v14 main_v15 main_v16
-- ==== Kernel.lean ====
abbrev S4096x256 : Shape := ⟨2, ![4096, 256]⟩
abbrev S4096x4096 : Shape := ⟨2, ![4096, 4096]⟩
abbrev S256x512 : Shape := ⟨2, ![256, 512]⟩
abbrev S1x512 : Shape := ⟨2, ![1, 512]⟩
abbrev S512x512 : Shape := ⟨2, ![512, 512]⟩
abbrev S4096x512 : Shape := ⟨2, ![4096, 512]⟩
abbrev S1024x256 : Shape := ⟨2, ![1024, 256]⟩
abbrev S2048x1024 : Shape := ⟨2, ![2048, 1024]⟩
abbrev S2048x512 : Shape := ⟨2, ![2048, 512]⟩
abbrev S8x512 : Shape := ⟨2, ![8, 512]⟩
abbrev S1024x512 : Shape := ⟨2, ![1024, 512]⟩
abbrev S2048x256 : Shape := ⟨2, ![2048, 256]⟩
abbrev S512 : Shape := ⟨1, ![512]⟩

abbrev nBuf : Space → Nat
  | .hbm => 10
  | .vmem => 18
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x4096, .bf16⟩
  | .hbm, ⟨3, _⟩ => ⟨S256x512, .f32⟩
  | .hbm, ⟨4, _⟩ => ⟨S1x512, .f32⟩
  | .hbm, ⟨5, _⟩ => ⟨S512x512, .f32⟩
  | .hbm, ⟨6, _⟩ => ⟨S1x512, .f32⟩
  | .hbm, ⟨7, _⟩ => ⟨S4096x512, .f32⟩
  | .hbm, ⟨8, _⟩ => ⟨S4096x512, .f32⟩
  | .hbm, ⟨9, _⟩ => ⟨S1x512, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S256x512, .f32⟩
  | .local _ .vmem, ⟨5, _⟩ => ⟨S1x512, .f32⟩
  | .local _ .vmem, ⟨6, _⟩ => ⟨S2048x1024, .bf16⟩
  | .local _ .vmem, ⟨7, _⟩ => ⟨S2048x1024, .bf16⟩
  | .local _ .vmem, ⟨8, _⟩ => ⟨S512x512, .f32⟩
  | .local _ .vmem, ⟨9, _⟩ => ⟨S1x512, .f32⟩
  | .local _ .vmem, ⟨10, _⟩ => ⟨S2048x512, .f32⟩
  | .local _ .vmem, ⟨11, _⟩ => ⟨S2048x512, .f32⟩
  | .local _ .vmem, ⟨12, _⟩ => ⟨S2048x512, .f32⟩
  | .local _ .vmem, ⟨13, _⟩ => ⟨S2048x512, .f32⟩
  | .local _ .vmem, ⟨14, _⟩ => ⟨S1x512, .f32⟩
  | .local _ .vmem, ⟨15, _⟩ => ⟨S4096x512, .bf16⟩
  | .local _ .vmem, ⟨16, _⟩ => ⟨S2048x512, .f32⟩
  | .local _ .vmem, ⟨17, _⟩ => ⟨S8x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c1024_i32_13 : BitVec 32 := 1024#32
  let v27 : BitVec 32 := Scalar.muli arg1 c1024_i32_13
  let v30 : Index := Scalar.indexCast v27
  let c0_16 : Index := 0#32
  ![v30.toNat, 0]
def k0_off2 (i : grid0.Coords) : Fin 2 → Nat :=
  let arg1 : BitVec 32 := BitVec.ofNat 32 (i 1).val
  let c1024_i32_13 : BitVec 32 := 1024#32
  let v27 : BitVec 32 := Scalar.muli arg1 c1024_i32_13
  let v36 : Index := Scalar.indexCast v27
  let c256 : Index := 256#32
  ![v36.toNat, 256]
def k0_off3 (i : grid0.Coords) : Fin 2 → Nat :=
  let arg1 : BitVec 32 := BitVec.ofNat 32 (i 1).val
  let c1024_i32 : BitVec 32 := 1024#32
  let v9 : BitVec 32 := Scalar.muli arg1 c1024_i32
  let v10 : Index := Scalar.indexCast v9
  let c0_5 : Index := 0#32
  ![v10.toNat, 0]
def k0_cond5 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_10 : BitVec 32 := 0#32
  let v21 : BitVec 1 := Scalar.cmpi .ne v20 c0_i32_10
  v21

def k0_cond6 (i : grid0.Coords) : BitVec 1 :=
  let arg0 : BitVec 32 := BitVec.ofNat 32 (i 0).val
  let c1_i32 : BitVec 32 := 1#32
  let v22 : BitVec 1 := Scalar.cmpi .eq arg0 c1_i32
  let arg1 : BitVec 32 := BitVec.ofNat 32 (i 1).val
  let c3_i32_11 : BitVec 32 := 3#32
  let v23 : BitVec 1 := Scalar.cmpi .eq arg1 c3_i32_11
  let v24 : BitVec 1 := Scalar.andi v22 v23
  let v25 : BitVec 32 := Scalar.extui v24
  let c0_i32_12 : BitVec 32 := 0#32
  let v26 : BitVec 1 := Scalar.cmpi .ne v25 c0_i32_12
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  shapeCasts_S1024x256_S1024x256 : S1024x256.ShapeCasts S1024x256
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S2048x1024_S2048x1024_0_0 : ∀ a, (![0, 0] : Fin 2 → Nat) a + S2048x1024.size a ≤ S2048x1024.size a
  h_S2048x1024 : 0 < S2048x1024.numel
  h_S1024x512 : 0 < S1024x512.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  slices_S2048x512_o0_0_S2048x256 : S2048x512.Slices ![0, 0] S2048x256
  broadcasts_S1x512_S2048x512 : S1x512.Broadcasts S2048x512
  slices_S2048x512_o0_256_S2048x256 : S2048x512.Slices ![0, 256] S2048x256
  reduces_S2048x512_S512 : S2048x512.Reduces [0] S512
  shapeCasts_S512_S1x512 : S512.ShapeCasts S1x512
  shapeCasts_S1x512_S1x512 : S1x512.ShapeCasts S1x512
  broadcasts_S1x512_S8x512 : S1x512.Broadcasts S8x512
  reduces_S8x512_S512 : S8x512.Reduces [0] S512
  inb_S512x512_S512x512_0_0 : ∀ a, (![0, 0] : Fin 2 → Nat) a + S512x512.size a ≤ S512x512.size a
  h_S512x512 : 0 < S512x512.numel
  dot_S2048x1024_S1024x512_S2048x512_1_0_0_1_n_n_wf : DotDims.WF S2048x1024 S1024x512 S2048x512 [1] [0] [0] [1] [] []
  dot_S2048x256_S256x512_S2048x512_1_0_0_1_n_n_wf : DotDims.WF S2048x256 S256x512 S2048x512 [1] [0] [0] [1] [] []
  dot_S1x512_S512x512_S1x512_1_1_0_0_n_n_wf : DotDims.WF S1x512 S512x512 S1x512 [1] [1] [0] [0] [] []
  hrank0 : 0 < grid0.rank
  k0_off1_inb : ∀ i : grid0.Coords, ∀ (k0_h1 : k0_cond1 i = 1#1), ∀ a, (k0_off1 i) a + S1024x256.size a ≤ S4096x512.size a
  k0_off1_packedbf16 : ∀ i : grid0.Coords, ∀ (k0_h1 : k0_cond1 i = 1#1), (Rect.unit (s := S4096x512) (k0_off1 i) S1024x256.size (k0_off1_inb i k0_h1)).PackedRows (EltTy.packing .bf16)
  k0_off2_inb : ∀ i : grid0.Coords, ∀ (k0_h1 : k0_cond1 i = 1#1), ∀ a, (k0_off2 i) a + S1024x256.size a ≤ S4096x512.size a
  k0_off2_packedbf16 : ∀ i : grid0.Coords, ∀ (k0_h1 : k0_cond1 i = 1#1), (Rect.unit (s := S4096x512) (k0_off2 i) S1024x256.size (k0_off2_inb i k0_h1)).PackedRows (EltTy.packing .bf16)
  k0_off3_inb : ∀ i : grid0.Coords, ∀ a, (k0_off3 i) a + S1024x512.size a ≤ S4096x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x256.size a
  hwx0_1 : ∀ i : grid0.Coords, EltTy.bits .f32 = 32 ∨ (Rect.block (s := S4096x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S4096x4096.size a
  hwx0_4 : ∀ i : grid0.Coords, EltTy.bits .bf16 = 32 ∨ (Rect.block (s := S4096x4096) S2048x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x512.size a ≤ S4096x512.size a
  hwx0_7 : ∀ i : grid0.Coords, EltTy.bits .f32 = 32 ∨ (Rect.block (s := S4096x512) S2048x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x512.size a ≤ S4096x512.size a
  hwx0_8 : ∀ i : grid0.Coords, EltTy.bits .f32 = 32 ∨ (Rect.block (s := S4096x512) S2048x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)

variable [Facts₀]

def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S1x512_S512x512_S1x512_1_1_0_0_n_n : DotDims S1x512 S512x512 S1x512 where
  lhsContracting := [1]
  rhsContracting := [1]
  lhsNonContracting := [0]
  rhsNonContracting := [0]
  lhsBatch := []
  rhsBatch := []
  wf := dot_S1x512_S512x512_S1x512_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S2048x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S2048x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S2048x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_2) S1x512.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun i => !(k0_cond5 i == 1#1) | 8 => fun i => !(k0_cond5 i == 1#1) | 9 => fun i => !(k0_cond6 i == 1#1) | ⟨_ + 10, h⟩ => absurd h (Nat.not_lt.2 (Nat.le_add_left _ _))

class Facts : Prop extends Facts₀ where

variable [Facts]
-- ==== ReferenceIdeal.lean ====
abbrev S4096x256 : Shape := ⟨2, ![4096, 256]⟩
abbrev S4096x4096 : Shape := ⟨2, ![4096, 4096]⟩
abbrev S256x512 : Shape := ⟨2, ![256, 512]⟩
abbrev S1x512 : Shape := ⟨2, ![1, 512]⟩
abbrev S512x512 : Shape := ⟨2, ![512, 512]⟩
abbrev S_ : Shape := ⟨0, ![]⟩
abbrev S8192x256 : Shape := ⟨2, ![8192, 256]⟩
abbrev S1x1024 : Shape := ⟨2, ![1, 1024]⟩
abbrev S4096x1024 : Shape := ⟨2, ![4096, 1024]⟩
abbrev S1024x256 : Shape := ⟨2, ![1024, 256]⟩
abbrev S1024x512 : Shape := ⟨2, ![1024, 512]⟩
abbrev S64x512 : Shape := ⟨2, ![64, 512]⟩
abbrev S512x2048 : Shape := ⟨2, ![512, 2048]⟩
abbrev S2048x1024 : Shape := ⟨2, ![2048, 1024]⟩
abbrev S512x1024 : Shape := ⟨2, ![512, 1024]⟩
abbrev S8x512 : Shape := ⟨2, ![8, 512]⟩
abbrev S512 : Shape := ⟨1, ![512]⟩
abbrev S4096x512 : Shape := ⟨2, ![4096, 512]⟩

abbrev nBuf : Space → Nat
  | .hbm => 37
  | .vmem => 18
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x4096, .bf16⟩
  | .hbm, ⟨3, _⟩ => ⟨S256x512, .f32⟩
  | .hbm, ⟨4, _⟩ => ⟨S1x512, .f32⟩
  | .hbm, ⟨5, _⟩ => ⟨S512x512, .f32⟩
  | .hbm, ⟨6, _⟩ => ⟨S1x512, .f32⟩
  | .hbm, ⟨7, _⟩ => ⟨S_, .i32⟩
  | .hbm, ⟨8, _⟩ => ⟨S_, .f32⟩
  | .hbm, ⟨9, _⟩ => ⟨S4096x256, .f32⟩
  | .hbm, ⟨10, _⟩ => ⟨S4096x256, .bf16⟩
  | .hbm, ⟨11, _⟩ => ⟨S_, .i32⟩
  | .hbm, ⟨12, _⟩ => ⟨S_, .f32⟩
  | .hbm, ⟨13, _⟩ => ⟨S4096x256, .f32⟩
  | .hbm, ⟨14, _⟩ => ⟨S4096x256, .bf16⟩
  | .hbm, ⟨15, _⟩ => ⟨S8192x256, .bf16⟩
  | .hbm, ⟨16, _⟩ => ⟨S_, .i32⟩
  | .hbm, ⟨17, _⟩ => ⟨S_, .f32⟩
  | .hbm, ⟨18, _⟩ => ⟨S256x512, .f32⟩
  | .hbm, ⟨19, _⟩ => ⟨S256x512, .bf16⟩
  | .hbm, ⟨20, _⟩ => ⟨S_, .i32⟩
  | .hbm, ⟨21, _⟩ => ⟨S_, .f32⟩
  | .hbm, ⟨22, _⟩ => ⟨S1x512, .f32⟩
  | .hbm, ⟨23, _⟩ => ⟨S1x1024, .f32⟩
  | .hbm, ⟨24, _⟩ => ⟨S512x512, .f32⟩
  | .hbm, ⟨25, _⟩ => ⟨S_, .i32⟩
  | .hbm, ⟨26, _⟩ => ⟨S_, .f32⟩
  | .hbm, ⟨27, _⟩ => ⟨S512x512, .f32⟩
  | .hbm, ⟨28, _⟩ => ⟨S_, .i32⟩
  | .hbm, ⟨29, _⟩ => ⟨S_, .f32⟩
  | .hbm, ⟨30, _⟩ => ⟨S1x512, .f32⟩
  | .hbm, ⟨31, _⟩ => ⟨S4096x1024, .bf16⟩
  | .hbm, ⟨32, _⟩ => ⟨S4096x1024, .f32⟩
  | .hbm, ⟨33, _⟩ => ⟨S64x512, .f32⟩
  | .hbm, ⟨34, _⟩ => ⟨S1x512, .f32⟩
  | .hbm, ⟨35, _⟩ => ⟨S4096x512, .f32⟩
  | .hbm, ⟨36, _⟩ => ⟨S4096x512, .f32⟩
  | .local _ .vmem, ⟨0, _⟩ => ⟨S1024x256, .bf16⟩
  | .local _ .vmem, ⟨1, _⟩ => ⟨S1024x256, .bf16⟩
  | .local _ .vmem, ⟨2, _⟩ => ⟨S256x512, .bf16⟩
  | .local _ .vmem, ⟨3, _⟩ => ⟨S1024x512, .bf16⟩
  | .local _ .vmem, ⟨4, _⟩ => ⟨S1024x512, .bf16⟩
  | .local _ .vmem, ⟨5, _⟩ => ⟨S512x2048, .bf16⟩
  | .local _ .vmem, ⟨6, _⟩ => ⟨S512x2048, .bf16⟩
  | .local _ .vmem, ⟨7, _⟩ => ⟨S2048x1024, .bf16⟩
  | .local _ .vmem, ⟨8, _⟩ => ⟨S2048x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S8x512, .f32⟩
  | .local _ .vmem, ⟨13, _⟩ => ⟨S8x512, .f32⟩
  | .local _ .vmem, ⟨14, _⟩ => ⟨S64x512, .f32⟩
  | .local _ .vmem, ⟨15, _⟩ => ⟨S512x512, .f32⟩
  | .local _ .vmem, ⟨16, _⟩ => ⟨S1x512, .f32⟩
  | .local _ .vmem, ⟨17, _⟩ => ⟨S1x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_call2_v0 : Ref sig .tc := ⟨.hbm, 17, rfl⟩
abbrev main_v5 : Ref sig .tc := ⟨.hbm, 18, rfl⟩
abbrev main_v6 : Ref sig .tc := ⟨.hbm, 19, rfl⟩
abbrev main_c_2 : Ref sig .tc := ⟨.hbm, 20, rfl⟩
abbrev main_call3_v0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_3 : Ref sig .tc := ⟨.hbm, 25, rfl⟩
abbrev main_call4_v0 : Ref sig .tc := ⟨.hbm, 26, rfl⟩
abbrev main_v10 : Ref sig .tc := ⟨.hbm, 27, rfl⟩
abbrev main_c_4 : Ref sig .tc := ⟨.hbm, 28, rfl⟩
abbrev main_call5_v0 : Ref sig .tc := ⟨.hbm, 29, rfl⟩
abbrev main_v11 : Ref sig .tc := ⟨.hbm, 30, rfl⟩
abbrev main_v12 : Ref sig .tc := ⟨.hbm, 31, rfl⟩
abbrev main_v13_0 : Ref sig .tc := ⟨.hbm, 32, rfl⟩
abbrev main_v13_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem1_0 : DmaSem sig := 15
abbrev cc2_sem2_0 : DmaSem sig := 16
abbrev cc2_sem3_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 2], ![false, false]⟩

def k1_cond2 (i : grid1.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S8x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  pads_S4096x256_S4096x256_000_000 : S4096x256.Pads (![0, 0] : Fin 2 → Nat) ![0, 0] ![0, 0] S4096x256
  h_S_ : 0 < S_.numel
  bitsLt_bf16_f32 : FTy.bits .bf16 < FTy.bits .f32
  concatenates_S4096x256_S4096x256_S8192x256_d0 : Shape.Concatenates [S4096x256, S4096x256] S8192x256 0
  pads_S256x512_S256x512_000_000 : S256x512.Pads (![0, 0] : Fin 2 → Nat) ![0, 0] ![0, 0] S256x512
  pads_S1x512_S1x512_000_000 : S1x512.Pads (![0, 0] : Fin 2 → Nat) ![0, 0] ![0, 0] S1x512
  concatenates_S1x512_S1x512_S1x1024_d1 : Shape.Concatenates [S1x512, S1x512] S1x1024 1
  transposes_S512x512_S512x512_1_0 : S512x512.Transposes [1, 0] S512x512
  pads_S512x512_S512x512_000_000 : S512x512.Pads (![0, 0] : Fin 2 → Nat) ![0, 0] ![0, 0] S512x512
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  iota_S512x1024_d0_w32 : S512x1024.Iotas .tc 32 [0]
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x2048_S512x2048_0_0 : ∀ a, (![0, 0] : Fin 2 → Nat) a + S512x2048.size a ≤ S512x2048.size a
  h_S512x2048 : 0 < S512x2048.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  slices_S512x1024_o0_0_S512x512 : S512x1024.Slices ![0, 0] S512x512
  reduces_S512x512_S512 : S512x512.Reduces [0] S512
  shapeCasts_S512_S1x512 : S512.ShapeCasts S1x512
  shapeCasts_S1x512_S1x512 : S1x512.ShapeCasts S1x512
  broadcasts_S1x512_S8x512 : S1x512.Broadcasts S8x512
  inb_S8x512_S8x512_0_0 : ∀ a, (![0, 0] : Fin 2 → Nat) a + S8x512.size a ≤ S8x512.size a
  h_S8x512 : 0 < S8x512.numel
  inb_S64x512_S64x512_0_0 : ∀ a, (![0, 0] : Fin 2 → Nat) a + S64x512.size a ≤ S64x512.size a
  h_S64x512 : 0 < S64x512.numel
  shapeCasts_S64x512_S64x512 : S64x512.ShapeCasts S64x512
  reduces_S64x512_S512 : S64x512.Reduces [0] S512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  slices_S4096x1024_S4096x512_0_0 : S4096x1024.Slices ![0, 0] S4096x512
  slices_S4096x1024_S4096x512_0_512 : S4096x1024.Slices ![0, 512] S4096x512
  dot_S1024x256_S256x512_S1024x512_1_0_0_1_n_n_wf : DotDims.WF S1024x256 S256x512 S1024x512 [1] [0] [0] [1] [] []
  dot_S512x2048_S2048x1024_S512x1024_1_0_0_1_n_n_wf : DotDims.WF S512x2048 S2048x1024 S512x1024 [1] [0] [0] [1] [] []
  dot_S1x512_S512x512_S1x512_1_0_0_1_n_n_wf : DotDims.WF S1x512 S512x512 S1x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x1024.size a
  hwx0_2 : ∀ i : grid0.Coords, EltTy.bits .bf16 = 32 ∨ (Rect.block (s := S4096x1024) S1024x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x4096.size a
  hwx1_0 : ∀ i : grid1.Coords, EltTy.bits .bf16 = 32 ∨ (Rect.block (s := S4096x4096) S512x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S4096x1024.size a
  hwx1_1 : ∀ i : grid1.Coords, EltTy.bits .bf16 = 32 ∨ (Rect.block (s := S4096x1024) S2048x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x1024.size a
  hwx1_3 : ∀ i : grid1.Coords, EltTy.bits .f32 = 32 ∨ (Rect.block (s := S4096x1024) S512x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x512.size a ≤ S64x512.size a
  hwx1_4 : ∀ i : grid1.Coords, EltTy.bits .f32 = 32 ∨ (Rect.block (s := S64x512) S8x512.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x512.size a ≤ S64x512.size a
  hwx2_0 : ∀ i : grid2.Coords, EltTy.bits .f32 = 32 ∨ (Rect.block (s := S64x512) S64x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S1x512_S512x512_S1x512_1_0_0_1_n_n : DotDims S1x512 S512x512 S1x512 where
  lhsContracting := [1]
  rhsContracting := [0]
  lhsNonContracting := [0]
  rhsNonContracting := [1]
  lhsBatch := []
  rhsBatch := []
  wf := dot_S1x512_S512x512_S1x512_1_0_0_1_n_n_wf

abbrev win0_0 : Pipeline.Window sig grid0 :=
  Pipeline.Window.ofSpec (Memref.whole main_v4) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13_0) S512x1024.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13_1) S8x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v13_1) S64x512.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v10) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S1x512.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== Proof.Staged.lean ====
/-
  Two stores that together fill one chunk of rows of a table of 4096 × 512: the left 256 columns, then the right 256
  columns, of the 1024 rows starting at row `o`. Read back, the chunk is the two stored blocks side by side; every row
  outside the chunk is as it was.
-/
import Idealize.ShloMosaic.Lib.Pipeline.Value
import Idealize.ShloMosaic.Lib.Pipeline.FrameBody
import Idealize.ShloMosaic.Lib.WritesUnit
import Idealize.ShloMosaic.Lib.ValueIdx

set_option maxRecDepth 16384

noncomputable section

namespace Cert.Staged

open Idealize.ShloMosaic Idealize.ShloMosaic.ValueIdx

abbrev T : Shape := ⟨2, ![4096, 512]⟩
abbrev Hf : Shape := ⟨2, ![1024, 256]⟩
abbrev Ck : Shape := ⟨2, ![1024, 512]⟩

variable {Val : EltTy → Type} {e : EltTy}

/-- Two blocks of 1024 × 256 side by side: columns below 256 from the first, the others from the second. -/
def sideBySide (w1 w2 : Hf.Idx → Val e) : Ck.Idx → Val e :=
  fun j => if h : (j 1).val < 256 then w1 (ix2 (⟨(j 0).val, idx2_lt0 j⟩ : Fin 1024) (⟨(j 1).val, h⟩ : Fin 256))
    else w2 (ix2 (⟨(j 0).val, idx2_lt0 j⟩ : Fin 1024) (⟨(j 1).val - 256, by have := idx2_lt1 j; omega⟩ : Fin 256))

variable {sig : RefSig} {κ : Kind} {sp : Space} (v : View sig κ sp T e) (f : v.ty.Contents Val)

/-- The two stores, the later one first: right half, then left half. -/
abbrev twoPieces {off1 off2 : Fin 2 → ℕ} (inb1 : ∀ a, off1 a + Hf.size a ≤ T.size a) (inb2 : ∀ a, off2 a + Hf.size a ≤ T.size a)
    (w1 w2 : Hf.Idx → Val e) : List (View.Piece Val T e) :=
  [⟨Rect.unit (s := T) off2 Hf.size inb2, w2⟩, ⟨Rect.unit (s := T) off1 Hf.size inb1, w1⟩]

/-- The table's element at row `o + j 0`, column `j 1` reads, after the two stores, the side-by-side block at `j`: a
column below 256 misses the later store on the column axis and sits in the earlier one; any other column sits in the
later store at column minus 256. -/
private theorem read_at {off1 off2 : Fin 2 → ℕ} (o : ℕ) (h1 : off1 = ![o, 0]) (h2 : off2 = ![o, 256])
    (inb1 : ∀ a, off1 a + Hf.size a ≤ T.size a) (inb2 : ∀ a, off2 a + Hf.size a ≤ T.size a)
    (w1 w2 : Hf.Idx → Val e) (y : T.Idx) (j : Ck.Idx)
    (hy0 : (y 0).val = o + (j 0).val) (hy1 : (y 1).val = (j 1).val) :
    v.read Val (v.writes Val f (twoPieces inb1 inb2 w1 w2)) y = sideBySide w1 w2 j := by
  unfold sideBySide
  by_cases h : (j 1).val < 256
  · rw [dif_pos h]
    refine (View.read_writes_cons_unit_of_not_mem v f inb2 w2 _ y h2 (1 : Fin 2) (Or.inl ?_)).trans ?_
    · show (y 1).val < 256
      omega
    · exact View.read_writes_cons_unit_of_mem v f inb1 w1 [] y _ h1
        (Fin.forall_fin_two.mpr ⟨hy0, by
          show (y 1).val = 0 + (j 1).val
          omega⟩)
  · rw [dif_neg h]
    have hj1 := idx2_lt1 j
    exact View.read_writes_cons_unit_of_mem v f inb2 w2 _ y _ h2
      (Fin.forall_fin_two.mpr ⟨hy0, by
        show (y 1).val = 256 + ((j 1).val - 256)
        omega⟩)

/-- The chunk reads as the two blocks side by side. -/
theorem read_chunk {off1 off2 off3 : Fin 2 → ℕ} (o : ℕ) (h1 : off1 = ![o, 0]) (h2 : off2 = ![o, 256]) (h3 : off3 = ![o, 0])
    (inb1 : ∀ a, off1 a + Hf.size a ≤ T.size a) (inb2 : ∀ a, off2 a + Hf.size a ≤ T.size a) (inb3 : ∀ a, off3 a + Ck.size a ≤ T.size a)
    (w1 w2 : Hf.Idx → Val e) :
    View.ld (v.read Val (v.writes Val f (twoPieces inb1 inb2 w1 w2))) (Rect.unit (s := T) off3 Ck.size inb3) = sideBySide w1 w2 := by
  subst h3
  funext j
  exact read_at v f o h1 h2 inb1 inb2 w1 w2 _ j
    (by show o + 1 * (j 0).val = o + (j 0).val
        rw [Nat.one_mul])
    (by show 0 + 1 * (j 1).val = (j 1).val
        rw [Nat.one_mul, Nat.zero_add])

/-- A row outside the chunk is as it was. -/
theorem read_outside {off1 off2 : Fin 2 → ℕ} (o : ℕ) (h1 : off1 = ![o, 0]) (h2 : off2 = ![o, 256])
    (inb1 : ∀ a, off1 a + Hf.size a ≤ T.size a) (inb2 : ∀ a, off2 a + Hf.size a ≤ T.size a)
    (w1 w2 : Hf.Idx → Val e) (y : T.Idx) (hy : (y 0).val < o ∨ o + 1024 ≤ (y 0).val) :
    v.read Val (v.writes Val f (twoPieces inb1 inb2 w1 w2)) y = v.read Val f y := by
  refine (View.read_writes_cons_unit_of_not_mem v f inb2 w2 _ y h2 (0 : Fin 2) ?_).trans
    ((View.read_writes_cons_unit_of_not_mem v f inb1 w1 [] y h1 (0 : Fin 2) ?_).trans ?_)
  · show (y 0).val < o ∨ o + 1024 ≤ (y 0).val
    exact hy
  · show (y 0).val < o ∨ o + 1024 ≤ (y 0).val
    exact hy
  · rw [View.writes_nil]

/-- A load of the chunk that the two stores cover reads the two blocks side by side. -/
theorem readCov_chunk [∀ e, Nonempty (Val e)] {off1 off2 off3 : Fin 2 → ℕ} (o : ℕ) (h1 : off1 = ![o, 0]) (h2 : off2 = ![o, 256]) (h3 : off3 = ![o, 0])
    (inb1 : ∀ a, off1 a + Hf.size a ≤ T.size a) (inb2 : ∀ a, off2 a + Hf.size a ≤ T.size a) (inb3 : ∀ a, off3 a + Ck.size a ≤ T.size a)
    (w1 w2 : Hf.Idx → Val e) :
    v.readCov (twoPieces inb1 inb2 w1 w2) (Rect.unit (s := T) off3 Ck.size inb3).toLoadRect = sideBySide w1 w2 := by
  subst h3
  rw [View.readCov_eq_canon']
  funext j
  refine (View.read_writes_junk_apply_eq_canon v _ (twoPieces inb1 inb2 w1 w2)).symm.trans ?_
  exact read_at v v.junk o h1 h2 inb1 inb2 w1 w2 _ j
    (by show o + 1 * (j 0).val = o + (j 0).val
        rw [Nat.one_mul])
    (by show 0 + 1 * (j 1).val = (j 1).val
        rw [Nat.one_mul, Nat.zero_add])

end Cert.Staged

end
-- ==== Proof.KbCommon.lean ====
/-
  Names shared by the hand modules about the one kernel: its six branch conditions as propositions over the grid
  coordinates with their closed forms over the eight points (two row bands of the adjacency times four chunks of its
  columns), the row at which a chunk of the staged feature table starts, the staging and scratch memrefs, the region
  invariant spelt over the three scratch buffers, where the three result windows are idle, and what one store through a
  buffer's whole rectangle leaves in it.
-/
import proofs.«126669_g2000106255353042_pallasbulk_995_17_alg».proof.Proof.Gen.Kernel.Frame
import proofs.«126669_g2000106255353042_pallasbulk_995_17_alg».proof.Proof.Gen.Kernel.Skeleton
import Idealize.ShloMosaic.Lib.Pipeline.Value
import Idealize.ShloMosaic.Lib.WritesUnit
import proofs.«126669_g2000106255353042_pallasbulk_995_17_alg».proof.Proof.Staged

set_option maxRecDepth 16384

noncomputable section

namespace Cert.Kernel.Body
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-- The six branch conditions of the body, over the grid coordinates: first band; first band and first chunk;
    first chunk; a later chunk; last chunk; last band and last chunk. -/
abbrev c1 (i : grid0.Coords) : Prop := k0_cond1 i = 1#1
abbrev c2 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
abbrev c3 (i : grid0.Coords) : Prop := (Scalar.cmpi .ne (Scalar.extui (Scalar.cmpi .eq (BitVec.ofNat 32 (i 1).val) 0#32)) 0#32) = 1#1
abbrev c4 (i : grid0.Coords) : Prop := (Scalar.cmpi .ne (Scalar.extui (Scalar.cmpi .ne (BitVec.ofNat 32 (i 1).val) 0#32)) 0#32) = 1#1
abbrev c5 (i : grid0.Coords) : Prop := k0_cond5 i = 1#1
abbrev c6 (i : grid0.Coords) : Prop := k0_cond6 i = 1#1

/-- First band: the points 0 to 3. -/
theorem hc1 : ∀ t : Fin cfg0.N, c1 (grid0.coords t) ↔ t.val < 4 :=
  (by decide +kernel : ∀ t : Fin grid0.N, c1 (grid0.coords t) ↔ t.val < 4)
/-- First band and first chunk: point 0. -/
theorem hc2 : ∀ t : Fin cfg0.N, c2 (grid0.coords t) ↔ t.val = 0 :=
  (by decide +kernel : ∀ t : Fin grid0.N, c2 (grid0.coords t) ↔ t.val = 0)
/-- First chunk of a band. -/
theorem hc3 : ∀ t : Fin cfg0.N, c3 (grid0.coords t) ↔ t.val % 4 = 0 :=
  (by decide +kernel : ∀ t : Fin grid0.N, c3 (grid0.coords t) ↔ t.val % 4 = 0)
/-- A later chunk of a band. -/
theorem hc4 : ∀ t : Fin cfg0.N, c4 (grid0.coords t) ↔ ¬ t.val % 4 = 0 :=
  (by decide +kernel : ∀ t : Fin grid0.N, c4 (grid0.coords t) ↔ ¬ t.val % 4 = 0)
/-- Last chunk of a band. -/
theorem hc5 : ∀ t : Fin cfg0.N, c5 (grid0.coords t) ↔ t.val % 4 = 3 :=
  (by decide +kernel : ∀ t : Fin grid0.N, c5 (grid0.coords t) ↔ t.val % 4 = 3)
/-- Last chunk of the last band: point 7. -/
theorem hc6 : ∀ t : Fin cfg0.N, c6 (grid0.coords t) ↔ t.val = 7 :=
  (by decide +kernel : ∀ t : Fin grid0.N, c6 (grid0.coords t) ↔ t.val = 7)

/-- The row of the staged feature table at which the point's chunk starts: 1024 times the chunk's number. -/
def rowOff (i : grid0.Coords) : ℕ := (Scalar.indexCast (Scalar.muli (BitVec.ofNat 32 (i 1).val) 1024#32)).toNat
theorem off1_eq (i : grid0.Coords) : k0_off1 i = ![rowOff i, 0] := rfl
theorem off2_eq (i : grid0.Coords) : k0_off2 i = ![rowOff i, 256] := rfl
theorem off3_eq (i : grid0.Coords) : k0_off3 i = ![rowOff i, 0] := rfl
theorem rowOff_at : ∀ t : Fin cfg0.N, rowOff (grid0.coords t) = 1024 * (t.val % 4) :=
  (by decide +kernel : ∀ t : Fin grid0.N, rowOff (grid0.coords t) = 1024 * (t.val % 4))

/-- Each window's current staging memref at point `t`, spelt as the pipeline passes it, and its wholeness. -/
abbrev ms0 (t : Fin cfg0.N) : Memref sig .tc .vmem S1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x1024 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S2048x512 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S2048x512 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x512 .f32 := win0_9.stage (cfg0.slots t 9)
abbrev hs9 (t : Fin cfg0.N) : (ms9 t).IsWhole := hstage0_9 ((cfg0.slots t 9).cast nbuf0_9)
/-- The three scratch operands: the staged feature table, the band's accumulator, the column sums. -/
abbrev scX : Memref sig .tc .vmem S4096x512 .bf16 := Memref.whole cc0_scratch0
abbrev scT : Memref sig .tc .vmem S2048x512 .f32 := Memref.whole cc0_scratch1
abbrev scC : Memref sig .tc .vmem S8x512 .f32 := Memref.whole cc0_scratch2

/-- The region invariant the launch hands over, with the scratch operands as memrefs owned at some contents. -/
theorem PhiA_eq (c : Dev nD) :
    (Pipeline.ΦA spec0 c : sProp 𝕄)
      = iprop(iprop((∃ d, owns (c : Thread nD τ) scX fullShare d) ∗ (∃ d, owns (c : Thread nD τ) scT fullShare d) ∗ (∃ d, owns (c : Thread nD τ) scC fullShare d)) ∗ (∃ r, prngReg c r)) := by
  unfold Pipeline.ΦA; rw [scopedRest0_eq]; simp only [scX, scT, scC, owns_whole]; try rfl

/-! ## The staged feature table -/

/-- What one chunk of the staged table holds once its point has run: the point's block of `x` and its block of the
    corrupted `x`, each narrowed to bf16, side by side. -/
abbrev stagedBlk (x0 x1 : Vec F S1024x256 .f32) : S1024x512.Idx → Elt F .bf16 :=
  Cert.Staged.sideBySide (Val := Elt F) (e := .bf16) (k0_pay1 x0) (k0_pay2 x1)
/-- The chunk of the table `xs` at the point's rows. -/
abbrev chunkAt (i : grid0.Coords) (xs : S4096x512.Idx → Elt F .bf16) : S1024x512.Idx → Elt F .bf16 :=
  View.ld xs (Rect.unit (s := S4096x512) (k0_off3 i) S1024x512.size (k0_off3_inb i))
/-- One staging step: the point's chunk of the new table is `b`, every other row is as in the old table. -/
def StagedStep (i : grid0.Coords) (xs xs' : S4096x512.Idx → Elt F .bf16) (b : S1024x512.Idx → Elt F .bf16) : Prop :=
  chunkAt i xs' = b ∧ ∀ y : S4096x512.Idx, ((y 0).val < rowOff i ∨ rowOff i + 1024 ≤ (y 0).val) → xs' y = xs y

/-! ## Where the windows are idle -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
/-- The two encoded bands are stored at a band's last chunk only: idle and not written back elsewhere. -/
theorem idle7 : ∀ t : Fin cfg0.N, ¬ t.val % 4 = 3 → cfg0.idle 7 (grid0.coords t) = true := by decide +kernel
theorem noFlush7 : ∀ t : Fin cfg0.N, ¬ t.val % 4 = 3 → (cfg0.win 7).flush t = false := by decide +kernel
theorem live7 : ∀ t : Fin cfg0.N, t.val % 4 = 3 → cfg0.idle 7 (grid0.coords t) = false := by decide +kernel
theorem idle8 : ∀ t : Fin cfg0.N, ¬ t.val % 4 = 3 → cfg0.idle 8 (grid0.coords t) = true := by decide +kernel
theorem noFlush8 : ∀ t : Fin cfg0.N, ¬ t.val % 4 = 3 → (cfg0.win 8).flush t = false := by decide +kernel
theorem live8 : ∀ t : Fin cfg0.N, t.val % 4 = 3 → cfg0.idle 8 (grid0.coords t) = false := by decide +kernel
/-- The summary readout is stored at the last point only. -/
theorem idle9 : ∀ t : Fin cfg0.N, ¬ t.val = 7 → cfg0.idle 9 (grid0.coords t) = true := by decide +kernel
theorem noFlush9 : ∀ t : Fin cfg0.N, ¬ t.val = 7 → (cfg0.win 9).flush t = false := by decide +kernel
theorem live9 : ∀ t : Fin cfg0.N, t.val = 7 → cfg0.idle 9 (grid0.coords t) = false := by decide +kernel

/-! ## One store through the whole rectangle -/

/-- The offsets of a rank-2 buffer's whole rectangle are zero on both axes. -/
theorem hz2 : (![0, 0] : Fin 2 → ℕ) = fun _ => 0 := by
  funext a; match a with | ⟨0, _⟩ => rfl | ⟨1, _⟩ => rfl

/-- A buffer stored once through the rectangle of all its indices reads as the stored value, whatever it held. -/
theorem read_whole_store {S : Shape} {e : EltTy} (M : Memref sig .tc .vmem S e) (f : M.view.ty.Contents (Elt F))
    {off : Fin S.rank → Nat} (hz : off = fun _ => 0) (inb : ∀ a, off a + S.size a ≤ S.size a) (w : S.Idx → Elt F e) :
    M.view.read (Elt F) (M.view.writes (Elt F) f [(⟨Rect.unit off S.size inb, w⟩ : View.Piece (Elt F) S e)]) = w :=
  (View.read_writes_eq_canon M.view f _ (fun y => ⟨_, List.mem_singleton_self _, View.mem_set_unit_zero hz inb y⟩)).trans
    (View.canon_unit_zero hz inb w)

end Cert.Kernel.Body

end
-- ==== Proof.KbRunA.lean ====
import proofs.«126669_g2000106255353042_pallasbulk_995_17_alg».proof.Proof.KbCommon

set_option maxRecDepth 16384

noncomputable section

namespace Cert.Kernel.Body
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

set_option maxHeartbeats 4000000 in
/-- The body at the first point (first band, first chunk): it stages the chunk, zeroes the column sums and starts the
    band's accumulator at the chunk's product. The table and both scratch accumulators may hold anything before. -/
theorem runA (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2048x1024 .bf16) (harg6 : arg6.IsWhole) (arg7 : Memref sig .tc .vmem S512x512 .f32) (harg7 : arg7.IsWhole) (arg8 : Memref sig .tc .vmem S1x512 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S1x512 .f32) (harg11 : arg11.IsWhole) (arg12 : Memref sig .tc .vmem S4096x512 .bf16) (harg12 : arg12.IsWhole) (arg13 : Memref sig .tc .vmem S2048x512 .f32) (harg13 : arg13.IsWhole) (arg14 : Memref sig .tc .vmem S8x512 .f32) (harg14 : arg14.IsWhole)
    (h1 : c1 i) (h2 : c2 i) (h3 : c3 i) (h4 : ¬c4 i) (h5 : ¬c5 i) (h6 : ¬c6 i)
    (x0 x1 : Vec F S1024x256 .f32) (av : Vec F S2048x1024 .bf16) (xs : S4096x512.Idx → Elt F .bf16)
    (E : Set ℕ) (K : PUnit → sProp 𝕄) :
    iprop(owns (c : Thread nD τ) arg2 fullShare x0 ∗ owns (c : Thread nD τ) arg3 fullShare x1 ∗ owns (c : Thread nD τ) arg6 fullShare av
        ∗ owns (c : Thread nD τ) arg12 fullShare xs ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg6 fullShare av
            ∗ (∃ xs', owns (c : Thread nD τ) arg12 fullShare xs' ∗ ⌜StagedStep i xs xs' (stagedBlk x0 x1)⌝)
            ∗ owns (c : Thread nD τ) arg13 fullShare (k0_pay5 av (stagedBlk x0 x1)) ∗ owns (c : Thread nD τ) arg14 fullShare (k0_pay3 (F := F))) -∗ K ⟨⟩))
      ⊢ wp frame (wpE (defs₀ (F := F)) Variants.none c none) E (cc0__dgi_body i arg2 harg2 arg3 harg3 arg4 harg4 arg5 harg5 arg6 harg6 arg7 harg7 arg8 harg8 arg9 harg9 arg10 harg10 arg11 harg11 arg12 harg12 arg13 harg13 arg14 harg14) K := by
  simp only [cc0__dgi_body_eq_skeleton]; unfold cc0__dgi_body_skel
  unfold owns
  iintro ⟨⟨%f0, %hf0, H0⟩, ⟨%f1, %hf1, H1⟩, ⟨%f4, %hf4, H4⟩, ⟨%fs0, %hfs0, HS0⟩, ⟨%ds1, %fs1, -, HS1⟩, ⟨%ds2, %fs2, -, HS2⟩, Hk⟩
  obtain rfl := harg2.eq_unread hf0; obtain rfl := harg3.eq_unread hf1; obtain rfl := harg6.eq_unread hf4
  obtain rfl := harg12.eq_unread hfs0
  sl_exec (disch := first | exact h1 | exact h2 | exact h3 | exact h4 | exact h5 | exact h6)
  sl_step
  sl_unfold_run_names
  simp only [View.readAt_eq_ld, harg2.read_unread, harg3.read_unread, harg4.read_unread, harg5.read_unread, harg6.read_unread, harg7.read_unread, harg8.read_unread, harg12.read_unread, harg13.read_unread, harg14.read_unread, View.ld_unit_zero (S := S1024x256) hz2, View.ld_unit_zero (S := S2048x1024) hz2, View.ld_unit_zero (S := S256x512) hz2, View.ld_unit_zero (S := S1x512) hz2, View.ld_unit_zero (S := S512x512) hz2, View.ld_unit_zero (S := S2048x512) hz2, View.ld_unit_zero (S := S8x512) hz2]
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg6.read_unread _
    iexact H4
  isplitl [HS0]
  · iexists _
    isplitl [HS0]
    · iexists _; isplitr
      swap; · iexact HS0
      ipureintro; rfl
    ipureintro
    exact ⟨Cert.Staged.read_chunk arg12.view _ (rowOff i) (off1_eq i) (off2_eq i) (off3_eq i) _ _ _ _ _,
      fun y hy => (Cert.Staged.read_outside arg12.view _ (rowOff i) (off1_eq i) (off2_eq i) _ _ _ _ y hy).trans (congrFun (harg12.read_unread xs) y)⟩
  isplitl [HS1]
  · iexists _; isplitr
    swap; · iexact HS1
    ipureintro
    exact (read_whole_store arg13 _ hz2 _ _).trans
      (congrArg (k0_pay5 av) (Cert.Staged.readCov_chunk arg12.view (rowOff i) (off1_eq i) (off2_eq i) (off3_eq i) _ _ _ _ _))
  iexists _; isplitr
  swap; · iexact HS2
  ipureintro
  exact read_whole_store arg14 _ hz2 _ _

end Cert.Kernel.Body
end
-- ==== Proof.KbRunB.lean ====
import proofs.«126669_g2000106255353042_pallasbulk_995_17_alg».proof.Proof.KbCommon

set_option maxRecDepth 16384

noncomputable section

namespace Cert.Kernel.Body
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

set_option maxHeartbeats 4000000 in
/-- The body at a later chunk of the first band that is not the last: it stages the chunk and adds the chunk's product to the band's accumulator `ts`. -/
theorem runB (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2048x1024 .bf16) (harg6 : arg6.IsWhole) (arg7 : Memref sig .tc .vmem S512x512 .f32) (harg7 : arg7.IsWhole) (arg8 : Memref sig .tc .vmem S1x512 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S1x512 .f32) (harg11 : arg11.IsWhole) (arg12 : Memref sig .tc .vmem S4096x512 .bf16) (harg12 : arg12.IsWhole) (arg13 : Memref sig .tc .vmem S2048x512 .f32) (harg13 : arg13.IsWhole) (arg14 : Memref sig .tc .vmem S8x512 .f32) (harg14 : arg14.IsWhole)
    (h1 : c1 i) (h2 : ¬c2 i) (h3 : ¬c3 i) (h4 : c4 i) (h5 : ¬c5 i) (h6 : ¬c6 i)
    (x0 x1 : Vec F S1024x256 .f32) (av : Vec F S2048x1024 .bf16) (xs : S4096x512.Idx → Elt F .bf16) (ts : Vec F S2048x512 .f32)
    (E : Set ℕ) (K : PUnit → sProp 𝕄) :
    iprop(owns (c : Thread nD τ) arg2 fullShare x0
        ∗ owns (c : Thread nD τ) arg3 fullShare x1
        ∗ owns (c : Thread nD τ) arg6 fullShare av
        ∗ owns (c : Thread nD τ) arg12 fullShare xs
        ∗ owns (c : Thread nD τ) arg13 fullShare ts
        ∗ (iprop(owns (c : Thread nD τ) arg2 fullShare x0
            ∗ owns (c : Thread nD τ) arg3 fullShare x1
            ∗ owns (c : Thread nD τ) arg6 fullShare av
            ∗ (∃ xs', owns (c : Thread nD τ) arg12 fullShare xs' ∗ ⌜StagedStep i xs xs' (stagedBlk x0 x1)⌝)
            ∗ owns (c : Thread nD τ) arg13 fullShare (k0_pay6 av (stagedBlk x0 x1) ts)) -∗ K ⟨⟩))
      ⊢ wp frame (wpE (defs₀ (F := F)) Variants.none c none) E (cc0__dgi_body i arg2 harg2 arg3 harg3 arg4 harg4 arg5 harg5 arg6 harg6 arg7 harg7 arg8 harg8 arg9 harg9 arg10 harg10 arg11 harg11 arg12 harg12 arg13 harg13 arg14 harg14) K := by
  simp only [cc0__dgi_body_eq_skeleton]; unfold cc0__dgi_body_skel
  unfold owns
  iintro ⟨⟨%f0, %hf0, H0⟩, ⟨%f1, %hf1, H1⟩, ⟨%f4, %hf4, H4⟩, ⟨%fs0, %hfs0, HS0⟩, ⟨%fs1, %hfs1, HS1⟩, Hk⟩
  obtain rfl := harg2.eq_unread hf0; obtain rfl := harg3.eq_unread hf1; obtain rfl := harg6.eq_unread hf4
  obtain rfl := harg12.eq_unread hfs0; obtain rfl := harg13.eq_unread hfs1
  sl_exec (disch := first | exact h1 | exact h2 | exact h3 | exact h4 | exact h5 | exact h6)
  sl_step
  sl_unfold_run_names
  simp only [View.readAt_eq_ld, harg2.read_unread, harg3.read_unread, harg4.read_unread, harg5.read_unread, harg6.read_unread, harg7.read_unread, harg8.read_unread, harg12.read_unread, harg13.read_unread, harg14.read_unread, View.ld_unit_zero (S := S1024x256) hz2, View.ld_unit_zero (S := S2048x1024) hz2, View.ld_unit_zero (S := S256x512) hz2, View.ld_unit_zero (S := S1x512) hz2, View.ld_unit_zero (S := S512x512) hz2, View.ld_unit_zero (S := S2048x512) hz2, View.ld_unit_zero (S := S8x512) hz2]
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg6.read_unread _
    iexact H4
  isplitl [HS0]
  · iexists _
    isplitl [HS0]
    · iexists _; isplitr
      swap; · iexact HS0
      ipureintro; rfl
    ipureintro
    exact ⟨Cert.Staged.read_chunk arg12.view _ (rowOff i) (off1_eq i) (off2_eq i) (off3_eq i) _ _ _ _ _,
      fun y hy => (Cert.Staged.read_outside arg12.view _ (rowOff i) (off1_eq i) (off2_eq i) _ _ _ _ y hy).trans (congrFun (harg12.read_unread xs) y)⟩
  iexists _; isplitr
  swap; · iexact HS1
  ipureintro
  exact (read_whole_store arg13 _ hz2 _ _).trans
    (congrArg (fun b => k0_pay6 av b ts) (Cert.Staged.readCov_chunk arg12.view (rowOff i) (off1_eq i) (off2_eq i) (off3_eq i) _ _ _ _ _))

end Cert.Kernel.Body
end
-- ==== Proof.KbRunC.lean ====
import proofs.«126669_g2000106255353042_pallasbulk_995_17_alg».proof.Proof.KbCommon

set_option maxRecDepth 16384

noncomputable section

namespace Cert.Kernel.Body
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

set_option maxHeartbeats 4000000 in
/-- The body at the last chunk of the first band: it stages the chunk, completes the accumulator, encodes the band into the two result windows and adds the band's column sums to `cs`. -/
theorem runC (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2048x1024 .bf16) (harg6 : arg6.IsWhole) (arg7 : Memref sig .tc .vmem S512x512 .f32) (harg7 : arg7.IsWhole) (arg8 : Memref sig .tc .vmem S1x512 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S1x512 .f32) (harg11 : arg11.IsWhole) (arg12 : Memref sig .tc .vmem S4096x512 .bf16) (harg12 : arg12.IsWhole) (arg13 : Memref sig .tc .vmem S2048x512 .f32) (harg13 : arg13.IsWhole) (arg14 : Memref sig .tc .vmem S8x512 .f32) (harg14 : arg14.IsWhole)
    (h1 : c1 i) (h2 : ¬c2 i) (h3 : ¬c3 i) (h4 : c4 i) (h5 : c5 i) (h6 : ¬c6 i)
    (x0 x1 : Vec F S1024x256 .f32) (av : Vec F S2048x1024 .bf16) (xs : S4096x512.Idx → Elt F .bf16) (ts : Vec F S2048x512 .f32) (cs : Vec F S8x512 .f32) (wv : Vec F S256x512 .f32) (bv : Vec F S1x512 .f32)
    (E : Set ℕ) (K : PUnit → sProp 𝕄) :
    iprop(owns (c : Thread nD τ) arg2 fullShare x0
        ∗ owns (c : Thread nD τ) arg3 fullShare x1
        ∗ owns (c : Thread nD τ) arg6 fullShare av
        ∗ owns (c : Thread nD τ) arg4 fullShare wv
        ∗ owns (c : Thread nD τ) arg5 fullShare bv
        ∗ owns (c : Thread nD τ) arg12 fullShare xs
        ∗ owns (c : Thread nD τ) arg13 fullShare ts
        ∗ owns (c : Thread nD τ) arg14 fullShare cs
        ∗ (∃ d, owns (c : Thread nD τ) arg9 fullShare d)
        ∗ (∃ d, owns (c : Thread nD τ) arg10 fullShare d)
        ∗ (iprop(owns (c : Thread nD τ) arg2 fullShare x0
            ∗ owns (c : Thread nD τ) arg3 fullShare x1
            ∗ owns (c : Thread nD τ) arg6 fullShare av
            ∗ owns (c : Thread nD τ) arg4 fullShare wv
            ∗ owns (c : Thread nD τ) arg5 fullShare bv
            ∗ (∃ xs', owns (c : Thread nD τ) arg12 fullShare xs' ∗ ⌜StagedStep i xs xs' (stagedBlk x0 x1)⌝)
            ∗ owns (c : Thread nD τ) arg13 fullShare (k0_pay6 av (stagedBlk x0 x1) ts)
            ∗ owns (c : Thread nD τ) arg14 fullShare (k0_pay9 (k0_pay6 av (stagedBlk x0 x1) ts) wv bv cs)
            ∗ owns (c : Thread nD τ) arg9 fullShare (k0_pay7 (k0_pay6 av (stagedBlk x0 x1) ts) wv bv)
            ∗ owns (c : Thread nD τ) arg10 fullShare (k0_pay8 (k0_pay6 av (stagedBlk x0 x1) ts) wv bv)) -∗ K ⟨⟩))
      ⊢ wp frame (wpE (defs₀ (F := F)) Variants.none c none) E (cc0__dgi_body i arg2 harg2 arg3 harg3 arg4 harg4 arg5 harg5 arg6 harg6 arg7 harg7 arg8 harg8 arg9 harg9 arg10 harg10 arg11 harg11 arg12 harg12 arg13 harg13 arg14 harg14) K := by
  simp only [cc0__dgi_body_eq_skeleton]; unfold cc0__dgi_body_skel
  unfold owns
  iintro ⟨⟨%f0, %hf0, H0⟩, ⟨%f1, %hf1, H1⟩, ⟨%f4, %hf4, H4⟩, ⟨%f2, %hf2, H2⟩, ⟨%f3, %hf3, H3⟩, ⟨%fs0, %hfs0, HS0⟩, ⟨%fs1, %hfs1, HS1⟩, ⟨%fs2, %hfs2, HS2⟩, ⟨%d7, %f7, -, H7⟩, ⟨%d8, %f8, -, H8⟩, Hk⟩
  obtain rfl := harg2.eq_unread hf0; obtain rfl := harg3.eq_unread hf1; obtain rfl := harg6.eq_unread hf4
  obtain rfl := harg4.eq_unread hf2; obtain rfl := harg5.eq_unread hf3
  obtain rfl := harg12.eq_unread hfs0; obtain rfl := harg13.eq_unread hfs1; obtain rfl := harg14.eq_unread hfs2
  sl_exec (disch := first | exact h1 | exact h2 | exact h3 | exact h4 | exact h5 | exact h6)
  sl_step
  sl_unfold_run_names
  simp only [View.readAt_eq_ld, harg2.read_unread, harg3.read_unread, harg4.read_unread, harg5.read_unread, harg6.read_unread, harg7.read_unread, harg8.read_unread, harg12.read_unread, harg13.read_unread, harg14.read_unread, View.ld_unit_zero (S := S1024x256) hz2, View.ld_unit_zero (S := S2048x1024) hz2, View.ld_unit_zero (S := S256x512) hz2, View.ld_unit_zero (S := S1x512) hz2, View.ld_unit_zero (S := S512x512) hz2, View.ld_unit_zero (S := S2048x512) hz2, View.ld_unit_zero (S := S8x512) hz2]
  have hcov := Cert.Staged.readCov_chunk (Val := Elt F) (e := .bf16) arg12.view (rowOff i) (off1_eq i) (off2_eq i) (off3_eq i)
    (k0_off1_inb i h1) (k0_off2_inb i h1) (k0_off3_inb i) (k0_pay1 x0) (k0_pay2 x1)
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg6.read_unread _
    iexact H4
  isplitl [H2]
  · iexists _; isplitr; · ipureintro; exact harg4.read_unread _
    iexact H2
  isplitl [H3]
  · iexists _; isplitr; · ipureintro; exact harg5.read_unread _
    iexact H3
  isplitl [HS0]
  · iexists _
    isplitl [HS0]
    · iexists _; isplitr
      swap; · iexact HS0
      ipureintro; rfl
    ipureintro
    exact ⟨Cert.Staged.read_chunk arg12.view _ (rowOff i) (off1_eq i) (off2_eq i) (off3_eq i) _ _ _ _ _,
      fun y hy => (Cert.Staged.read_outside arg12.view _ (rowOff i) (off1_eq i) (off2_eq i) _ _ _ _ y hy).trans (congrFun (harg12.read_unread xs) y)⟩
  isplitl [HS1]
  · iexists _; isplitr
    swap; · iexact HS1
    ipureintro
    exact (read_whole_store arg13 _ hz2 _ _).trans (congrArg (fun b => k0_pay6 av b ts) hcov)
  isplitl [HS2]
  · iexists _; isplitr
    swap; · iexact HS2
    ipureintro
    exact (read_whole_store arg14 _ hz2 _ _).trans
      ((congrArg (fun t => k0_pay9 t wv bv cs) (View.readCov_unit_zero (S := S2048x512) arg13.view hz2 _ _)).trans
        (congrArg (fun b => k0_pay9 (k0_pay6 av b ts) wv bv cs) hcov))
  isplitl [H7]
  · iexists _; isplitr
    swap; · iexact H7
    ipureintro
    exact (read_whole_store arg9 _ hz2 _ _).trans
      ((congrArg (fun t => k0_pay7 t wv bv) (View.readCov_unit_zero (S := S2048x512) arg13.view hz2 _ _)).trans
        (congrArg (fun b => k0_pay7 (k0_pay6 av b ts) wv bv) hcov))
  iexists _; isplitr
  swap; · iexact H8
  ipureintro
  exact (read_whole_store arg10 _ hz2 _ _).trans
    ((congrArg (fun t => k0_pay8 t wv bv) (View.readCov_unit_zero (S := S2048x512) arg13.view hz2 _ _)).trans
      (congrArg (fun b => k0_pay8 (k0_pay6 av b ts) wv bv) hcov))

end Cert.Kernel.Body
end
-- ==== Proof.KbRunD.lean ====
import proofs.«126669_g2000106255353042_pallasbulk_995_17_alg».proof.Proof.KbCommon

set_option maxRecDepth 16384

noncomputable section

namespace Cert.Kernel.Body
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

set_option maxHeartbeats 4000000 in
/-- The body at the first chunk of the second band: the staged table is only read; the accumulator starts at the chunk's product. -/
theorem runD (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2048x1024 .bf16) (harg6 : arg6.IsWhole) (arg7 : Memref sig .tc .vmem S512x512 .f32) (harg7 : arg7.IsWhole) (arg8 : Memref sig .tc .vmem S1x512 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S1x512 .f32) (harg11 : arg11.IsWhole) (arg12 : Memref sig .tc .vmem S4096x512 .bf16) (harg12 : arg12.IsWhole) (arg13 : Memref sig .tc .vmem S2048x512 .f32) (harg13 : arg13.IsWhole) (arg14 : Memref sig .tc .vmem S8x512 .f32) (harg14 : arg14.IsWhole)
    (h1 : ¬c1 i) (h2 : ¬c2 i) (h3 : c3 i) (h4 : ¬c4 i) (h5 : ¬c5 i) (h6 : ¬c6 i)
    (av : Vec F S2048x1024 .bf16) (xs : S4096x512.Idx → Elt F .bf16) (blk : S1024x512.Idx → Elt F .bf16) (hblk : chunkAt i xs = blk)
    (E : Set ℕ) (K : PUnit → sProp 𝕄) :
    iprop(owns (c : Thread nD τ) arg6 fullShare av
        ∗ owns (c : Thread nD τ) arg12 fullShare xs
        ∗ (∃ d, owns (c : Thread nD τ) arg13 fullShare d)
        ∗ (iprop(owns (c : Thread nD τ) arg6 fullShare av
            ∗ owns (c : Thread nD τ) arg12 fullShare xs
            ∗ owns (c : Thread nD τ) arg13 fullShare (k0_pay5 av blk)) -∗ K ⟨⟩))
      ⊢ wp frame (wpE (defs₀ (F := F)) Variants.none c none) E (cc0__dgi_body i arg2 harg2 arg3 harg3 arg4 harg4 arg5 harg5 arg6 harg6 arg7 harg7 arg8 harg8 arg9 harg9 arg10 harg10 arg11 harg11 arg12 harg12 arg13 harg13 arg14 harg14) K := by
  simp only [cc0__dgi_body_eq_skeleton]; unfold cc0__dgi_body_skel
  unfold owns
  iintro ⟨⟨%f4, %hf4, H4⟩, ⟨%fs0, %hfs0, HS0⟩, ⟨%ds1, %fs1, -, HS1⟩, Hk⟩
  obtain rfl := harg6.eq_unread hf4
  obtain rfl := harg12.eq_unread hfs0
  sl_exec (disch := first | exact h1 | exact h2 | exact h3 | exact h4 | exact h5 | exact h6)
  sl_step
  sl_unfold_run_names
  simp only [View.readAt_eq_ld, harg2.read_unread, harg3.read_unread, harg4.read_unread, harg5.read_unread, harg6.read_unread, harg7.read_unread, harg8.read_unread, harg12.read_unread, harg13.read_unread, harg14.read_unread, View.ld_unit_zero (S := S1024x256) hz2, View.ld_unit_zero (S := S2048x1024) hz2, View.ld_unit_zero (S := S256x512) hz2, View.ld_unit_zero (S := S1x512) hz2, View.ld_unit_zero (S := S512x512) hz2, View.ld_unit_zero (S := S2048x512) hz2, View.ld_unit_zero (S := S8x512) hz2]
  iapply Hk
  isplitl [H4]
  · iexists _; isplitr; · ipureintro; exact harg6.read_unread _
    iexact H4
  isplitl [HS0]
  · iexists _; isplitr; · ipureintro; exact harg12.read_unread _
    iexact HS0
  iexists _; isplitr
  swap; · iexact HS1
  ipureintro
  exact (read_whole_store arg13 _ hz2 _ _).trans (congrArg (k0_pay5 av) hblk)

end Cert.Kernel.Body
end
-- ==== Proof.KbRunE.lean ====
import proofs.«126669_g2000106255353042_pallasbulk_995_17_alg».proof.Proof.KbCommon

set_option maxRecDepth 16384

noncomputable section

namespace Cert.Kernel.Body
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

set_option maxHeartbeats 4000000 in
/-- The body at a later chunk of the second band that is not the last: the chunk's product is added to the accumulator. -/
theorem runE (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2048x1024 .bf16) (harg6 : arg6.IsWhole) (arg7 : Memref sig .tc .vmem S512x512 .f32) (harg7 : arg7.IsWhole) (arg8 : Memref sig .tc .vmem S1x512 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S1x512 .f32) (harg11 : arg11.IsWhole) (arg12 : Memref sig .tc .vmem S4096x512 .bf16) (harg12 : arg12.IsWhole) (arg13 : Memref sig .tc .vmem S2048x512 .f32) (harg13 : arg13.IsWhole) (arg14 : Memref sig .tc .vmem S8x512 .f32) (harg14 : arg14.IsWhole)
    (h1 : ¬c1 i) (h2 : ¬c2 i) (h3 : ¬c3 i) (h4 : c4 i) (h5 : ¬c5 i) (h6 : ¬c6 i)
    (av : Vec F S2048x1024 .bf16) (xs : S4096x512.Idx → Elt F .bf16) (blk : S1024x512.Idx → Elt F .bf16) (hblk : chunkAt i xs = blk) (ts : Vec F S2048x512 .f32)
    (E : Set ℕ) (K : PUnit → sProp 𝕄) :
    iprop(owns (c : Thread nD τ) arg6 fullShare av
        ∗ owns (c : Thread nD τ) arg12 fullShare xs
        ∗ owns (c : Thread nD τ) arg13 fullShare ts
        ∗ (iprop(owns (c : Thread nD τ) arg6 fullShare av
            ∗ owns (c : Thread nD τ) arg12 fullShare xs
            ∗ owns (c : Thread nD τ) arg13 fullShare (k0_pay6 av blk ts)) -∗ K ⟨⟩))
      ⊢ wp frame (wpE (defs₀ (F := F)) Variants.none c none) E (cc0__dgi_body i arg2 harg2 arg3 harg3 arg4 harg4 arg5 harg5 arg6 harg6 arg7 harg7 arg8 harg8 arg9 harg9 arg10 harg10 arg11 harg11 arg12 harg12 arg13 harg13 arg14 harg14) K := by
  simp only [cc0__dgi_body_eq_skeleton]; unfold cc0__dgi_body_skel
  unfold owns
  iintro ⟨⟨%f4, %hf4, H4⟩, ⟨%fs0, %hfs0, HS0⟩, ⟨%fs1, %hfs1, HS1⟩, Hk⟩
  obtain rfl := harg6.eq_unread hf4
  obtain rfl := harg12.eq_unread hfs0
  obtain rfl := harg13.eq_unread hfs1
  sl_exec (disch := first | exact h1 | exact h2 | exact h3 | exact h4 | exact h5 | exact h6)
  sl_step
  sl_unfold_run_names
  simp only [View.readAt_eq_ld, harg2.read_unread, harg3.read_unread, harg4.read_unread, harg5.read_unread, harg6.read_unread, harg7.read_unread, harg8.read_unread, harg12.read_unread, harg13.read_unread, harg14.read_unread, View.ld_unit_zero (S := S1024x256) hz2, View.ld_unit_zero (S := S2048x1024) hz2, View.ld_unit_zero (S := S256x512) hz2, View.ld_unit_zero (S := S1x512) hz2, View.ld_unit_zero (S := S512x512) hz2, View.ld_unit_zero (S := S2048x512) hz2, View.ld_unit_zero (S := S8x512) hz2]
  iapply Hk
  isplitl [H4]
  · iexists _; isplitr; · ipureintro; exact harg6.read_unread _
    iexact H4
  isplitl [HS0]
  · iexists _; isplitr; · ipureintro; exact harg12.read_unread _
    iexact HS0
  iexists _; isplitr
  swap; · iexact HS1
  ipureintro
  exact (read_whole_store arg13 _ hz2 _ _).trans (congrArg (fun b => k0_pay6 av b ts) hblk)

end Cert.Kernel.Body
end
-- ==== Proof.KbRunF.lean ====
import proofs.«126669_g2000106255353042_pallasbulk_995_17_alg».proof.Proof.KbCommon

set_option maxRecDepth 16384

noncomputable section

namespace Cert.Kernel.Body
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

set_option maxHeartbeats 4000000 in
/-- The body at the last point: it completes the second band's accumulator, encodes the band, completes the column sums and reads the summary out into the third result window. -/
theorem runF (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2048x1024 .bf16) (harg6 : arg6.IsWhole) (arg7 : Memref sig .tc .vmem S512x512 .f32) (harg7 : arg7.IsWhole) (arg8 : Memref sig .tc .vmem S1x512 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S1x512 .f32) (harg11 : arg11.IsWhole) (arg12 : Memref sig .tc .vmem S4096x512 .bf16) (harg12 : arg12.IsWhole) (arg13 : Memref sig .tc .vmem S2048x512 .f32) (harg13 : arg13.IsWhole) (arg14 : Memref sig .tc .vmem S8x512 .f32) (harg14 : arg14.IsWhole)
    (h1 : ¬c1 i) (h2 : ¬c2 i) (h3 : ¬c3 i) (h4 : c4 i) (h5 : c5 i) (h6 : c6 i)
    (av : Vec F S2048x1024 .bf16) (xs : S4096x512.Idx → Elt F .bf16) (blk : S1024x512.Idx → Elt F .bf16) (hblk : chunkAt i xs = blk) (ts : Vec F S2048x512 .f32) (cs : Vec F S8x512 .f32) (wv : Vec F S256x512 .f32) (bv : Vec F S1x512 .f32) (wpv : Vec F S512x512 .f32) (bpv : Vec F S1x512 .f32)
    (E : Set ℕ) (K : PUnit → sProp 𝕄) :
    iprop(owns (c : Thread nD τ) arg6 fullShare av
        ∗ owns (c : Thread nD τ) arg4 fullShare wv
        ∗ owns (c : Thread nD τ) arg5 fullShare bv
        ∗ owns (c : Thread nD τ) arg7 fullShare wpv
        ∗ owns (c : Thread nD τ) arg8 fullShare bpv
        ∗ owns (c : Thread nD τ) arg12 fullShare xs
        ∗ owns (c : Thread nD τ) arg13 fullShare ts
        ∗ owns (c : Thread nD τ) arg14 fullShare cs
        ∗ (∃ d, owns (c : Thread nD τ) arg9 fullShare d)
        ∗ (∃ d, owns (c : Thread nD τ) arg10 fullShare d)
        ∗ (∃ d, owns (c : Thread nD τ) arg11 fullShare d)
        ∗ (iprop(owns (c : Thread nD τ) arg6 fullShare av
            ∗ owns (c : Thread nD τ) arg4 fullShare wv
            ∗ owns (c : Thread nD τ) arg5 fullShare bv
            ∗ owns (c : Thread nD τ) arg7 fullShare wpv
            ∗ owns (c : Thread nD τ) arg8 fullShare bpv
            ∗ owns (c : Thread nD τ) arg12 fullShare xs
            ∗ owns (c : Thread nD τ) arg13 fullShare (k0_pay6 av blk ts)
            ∗ owns (c : Thread nD τ) arg14 fullShare (k0_pay9 (k0_pay6 av blk ts) wv bv cs)
            ∗ owns (c : Thread nD τ) arg9 fullShare (k0_pay7 (k0_pay6 av blk ts) wv bv)
            ∗ owns (c : Thread nD τ) arg10 fullShare (k0_pay8 (k0_pay6 av blk ts) wv bv)
            ∗ owns (c : Thread nD τ) arg11 fullShare (k0_pay10 (k0_pay9 (k0_pay6 av blk ts) wv bv cs) bpv wpv)) -∗ K ⟨⟩))
      ⊢ wp frame (wpE (defs₀ (F := F)) Variants.none c none) E (cc0__dgi_body i arg2 harg2 arg3 harg3 arg4 harg4 arg5 harg5 arg6 harg6 arg7 harg7 arg8 harg8 arg9 harg9 arg10 harg10 arg11 harg11 arg12 harg12 arg13 harg13 arg14 harg14) K := by
  subst hblk
  simp only [cc0__dgi_body_eq_skeleton]; unfold cc0__dgi_body_skel
  unfold owns
  iintro ⟨⟨%f4, %hf4, H4⟩, ⟨%fw, %hfw, HW⟩, ⟨%fb, %hfb, HB⟩, ⟨%fwp, %hfwp, HWP⟩, ⟨%fbp, %hfbp, HBP⟩, ⟨%fs0, %hfs0, HS0⟩, ⟨%fs1, %hfs1, HS1⟩, ⟨%fs2, %hfs2, HS2⟩, ⟨%d9, %f9, -, H9⟩, ⟨%d10, %f10, -, H10⟩, ⟨%d11, %f11, -, H11⟩, Hk⟩
  obtain rfl := harg6.eq_unread hf4
  obtain rfl := harg4.eq_unread hfw
  obtain rfl := harg5.eq_unread hfb
  obtain rfl := harg7.eq_unread hfwp
  obtain rfl := harg8.eq_unread hfbp
  obtain rfl := harg12.eq_unread hfs0
  obtain rfl := harg13.eq_unread hfs1
  obtain rfl := harg14.eq_unread hfs2
  sl_exec (disch := first | exact h1 | exact h2 | exact h3 | exact h4 | exact h5 | exact h6)
  sl_step
  sl_unfold_run_names
  simp only [View.readAt_eq_ld, harg2.read_unread, harg3.read_unread, harg4.read_unread, harg5.read_unread, harg6.read_unread, harg7.read_unread, harg8.read_unread, harg12.read_unread, harg13.read_unread, harg14.read_unread, View.ld_unit_zero (S := S1024x256) hz2, View.ld_unit_zero (S := S2048x1024) hz2, View.ld_unit_zero (S := S256x512) hz2, View.ld_unit_zero (S := S1x512) hz2, View.ld_unit_zero (S := S512x512) hz2, View.ld_unit_zero (S := S2048x512) hz2, View.ld_unit_zero (S := S8x512) hz2, View.readCov_unit_zero (S := S2048x512) arg13.view hz2, View.readCov_unit_zero (S := S8x512) arg14.view hz2]
  iapply Hk
  isplitl [H4]
  · iexists _; isplitr; · ipureintro; exact harg6.read_unread _
    iexact H4
  isplitl [HW]
  · iexists _; isplitr; · ipureintro; exact harg4.read_unread _
    iexact HW
  isplitl [HB]
  · iexists _; isplitr; · ipureintro; exact harg5.read_unread _
    iexact HB
  isplitl [HWP]
  · iexists _; isplitr; · ipureintro; exact harg7.read_unread _
    iexact HWP
  isplitl [HBP]
  · iexists _; isplitr; · ipureintro; exact harg8.read_unread _
    iexact HBP
  isplitl [HS0]
  · iexists _; isplitr; · ipureintro; exact harg12.read_unread _
    iexact HS0
  isplitl [HS1]
  · iexists _; isplitr
    swap; · iexact HS1
    ipureintro
    exact read_whole_store arg13 _ hz2 _ _
  isplitl [HS2]
  · iexists _; isplitr
    swap; · iexact HS2
    ipureintro
    exact read_whole_store arg14 _ hz2 _ _
  isplitl [H9]
  · iexists _; isplitr
    swap; · iexact H9
    ipureintro
    exact read_whole_store arg9 _ hz2 _ _
  isplitl [H10]
  · iexists _; isplitr
    swap; · iexact H10
    ipureintro
    exact read_whole_store arg10 _ hz2 _ _
  iexists _; isplitr
  swap; · iexact H11
  ipureintro
  exact read_whole_store arg11 _ hz2 _ _

end Cert.Kernel.Body
end
-- ==== Proof.KbData.lean ====
import proofs.«126669_g2000106255353042_pallasbulk_995_17_alg».proof.Proof.KbCommon
import proofs.«126669_g2000106255353042_pallasbulk_995_17_alg».proof.Proof.KbRunA
import proofs.«126669_g2000106255353042_pallasbulk_995_17_alg».proof.Proof.KbRunB
import proofs.«126669_g2000106255353042_pallasbulk_995_17_alg».proof.Proof.KbRunC
import proofs.«126669_g2000106255353042_pallasbulk_995_17_alg».proof.Proof.KbRunD
import proofs.«126669_g2000106255353042_pallasbulk_995_17_alg».proof.Proof.KbRunE
import proofs.«126669_g2000106255353042_pallasbulk_995_17_alg».proof.Proof.KbRunF
import Idealize.ShloMosaic.Lib.ValueIdx

set_option maxRecDepth 16384

noncomputable section

/-
  The eight grid points in order — two row bands of the adjacency, four chunks of its columns each — and what the
  kernel's three scratch buffers and three result windows hold after each: the band's accumulator restarts at a band's
  first chunk and gains one chunk's product at each later one; the column sums start at zero and gain a band's sums at
  its last chunk; the staged feature table gains one chunk per point of the first band and is only read in the second.
  From these the region's proof data, its invariant, the body's obligation at every point and the run.
-/
namespace Cert.Kernel.Body
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The grid point numbered `n` (taken modulo the eight points). -/
def ptOf (n : ℕ) : Fin cfg0.N := ⟨n % 8, by rw [show cfg0.N = 8 from N_0]; exact Nat.mod_lt _ (by decide)⟩
theorem ptOf_val (t : Fin cfg0.N) : ptOf t.val = t :=
  Fin.ext (Nat.mod_eq_of_lt (lt_of_lt_of_eq t.isLt (show cfg0.N = 8 from N_0)))

/-- The input windows' blocks at a point, each at its literal shape: the chunk of `x`, of the corrupted `x`, the encoder
    weights and bias, the adjacency's block, the projection and its bias. -/
abbrev XB (c : Dev nD) (t : Fin cfg0.N) : Vec F S1024x256 .f32 := iblk m c 0 t
abbrev XCB (c : Dev nD) (t : Fin cfg0.N) : Vec F S1024x256 .f32 := iblk m c 1 t
abbrev WB (c : Dev nD) (t : Fin cfg0.N) : Vec F S256x512 .f32 := iblk m c 2 t
abbrev BB (c : Dev nD) (t : Fin cfg0.N) : Vec F S1x512 .f32 := iblk m c 3 t
abbrev AB (c : Dev nD) (t : Fin cfg0.N) : Vec F S2048x1024 .bf16 := iblk m c 4 t
abbrev WPB (c : Dev nD) (t : Fin cfg0.N) : Vec F S512x512 .f32 := iblk m c 5 t
abbrev BPB (c : Dev nD) (t : Fin cfg0.N) : Vec F S1x512 .f32 := iblk m c 6 t

/-- Chunk `k` of the staged table (k < 4): what point `k` stages. -/
def XS (c : Dev nD) (k : ℕ) : S1024x512.Idx → Elt F .bf16 := stagedBlk (XB m c (ptOf k)) (XCB m c (ptOf k))

/-- The band's accumulator after point `n`. -/
def TS (c : Dev nD) : ℕ → Vec F S2048x512 .f32
  | 0 => k0_pay5 (AB m c (ptOf 0)) (XS m c 0)
  | n + 1 => if (n + 1) % 4 = 0 then k0_pay5 (AB m c (ptOf (n + 1))) (XS m c ((n + 1) % 4))
      else k0_pay6 (AB m c (ptOf (n + 1))) (XS m c ((n + 1) % 4)) (TS c n)

/-- The column sums after point `n`. -/
def CS (c : Dev nD) : ℕ → Vec F S8x512 .f32
  | 0 => k0_pay3
  | n + 1 => if (n + 1) % 4 = 3 then k0_pay9 (TS m c (n + 1)) (WB m c (ptOf (n + 1))) (BB m c (ptOf (n + 1))) (CS c n) else CS c n

/-- What the three result windows' buffers hold after point `n` where the point stores them (a band's last chunk; the
    last point): the encoded band of `x`, of the corrupted `x`, the summary. -/
def O7 (c : Dev nD) (n : ℕ) : Vec F S2048x512 .f32 := k0_pay7 (TS m c n) (WB m c (ptOf n)) (BB m c (ptOf n))
def O8 (c : Dev nD) (n : ℕ) : Vec F S2048x512 .f32 := k0_pay8 (TS m c n) (WB m c (ptOf n)) (BB m c (ptOf n))
def O9 (c : Dev nD) (n : ℕ) : Vec F S1x512 .f32 := k0_pay10 (CS m c n) (BPB m c (ptOf n)) (WPB m c (ptOf n))

/-- The region invariant before position `n`: before the first point every scratch holds anything; afterwards the staged
    table holds SOME contents whose chunks staged so far are the named blocks, the accumulator and the column sums hold
    what the point before left. -/
def PhiS (c : Dev nD) : (n : ℕ) → n ≤ cfg0.N → sProp 𝕄
  | 0, _ => Pipeline.ΦA spec0 c
  | n + 1, _ => iprop(iprop((∃ xs, owns (c : Thread nD τ) scX fullShare xs ∗ ⌜∀ k, k < 4 → k ≤ n → chunkAt (grid0.coords (ptOf k)) xs = XS m c k⌝)
      ∗ owns (c : Thread nD τ) scT fullShare (TS m c n) ∗ owns (c : Thread nD τ) scC fullShare (CS m c n)) ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => O7 m c t.val
    | ⟨8, _⟩ => O8 m c t.val
    | ⟨9, _⟩ => O9 m c t.val
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after7 (c : Dev nD) (t : Fin cfg0.N) : (dats m 0 c).after 7 t = O7 m c t.val := by dsimp only [dats]
theorem after8 (c : Dev nD) (t : Fin cfg0.N) : (dats m 0 c).after 8 t = O8 m c t.val := by dsimp only [dats]
theorem after9 (c : Dev nD) (t : Fin cfg0.N) : (dats m 0 c).after 9 t = O9 m c t.val := by dsimp only [dats]

/-! ## The proof data opened -/

/-- The invariant at a point's start, restated at the point's number. -/
theorem PhiS_castSucc (c : Dev nD) (t : Fin cfg0.N) :
    (dats m 0 c).Φ t.castSucc = PhiS m c t.val (Nat.le_of_lt t.isLt) := by
  dsimp only [dats]; simp only [Fin.coe_castSucc]

theorem PhiS_zero (c : Dev nD) (n : ℕ) (h : n ≤ cfg0.N) (hz : n = 0) : PhiS m c n h = Pipeline.ΦA spec0 c := by
  subst hz; rfl

/-- After point n: the staged table at some contents whose chunks up to n are the named blocks, the accumulator and
    the column sums at what the point left. -/
theorem PhiS_succ (c : Dev nD) (n : ℕ) (hn : n + 1 ≤ cfg0.N) :
    PhiS m c (n + 1) hn = iprop(iprop((∃ xs, owns (c : Thread nD τ) scX fullShare xs ∗ ⌜∀ k, k < 4 → k ≤ n → chunkAt (grid0.coords (ptOf k)) xs = XS m c k⌝)
      ∗ owns (c : Thread nD τ) scT fullShare (TS m c n) ∗ owns (c : Thread nD τ) scC fullShare (CS m c n)) ∗ (∃ r, prngReg c r)) := rfl

/-- Before a point that is not the first: what the point before left. -/
theorem PhiS_pos (c : Dev nD) (n : ℕ) (h : n ≤ cfg0.N) (hz : n ≠ 0) :
    PhiS m c n h = iprop(iprop((∃ xs, owns (c : Thread nD τ) scX fullShare xs ∗ ⌜∀ k, k < 4 → k ≤ n - 1 → chunkAt (grid0.coords (ptOf k)) xs = XS m c k⌝)
      ∗ owns (c : Thread nD τ) scT fullShare (TS m c (n - 1)) ∗ owns (c : Thread nD τ) scC fullShare (CS m c (n - 1))) ∗ (∃ r, prngReg c r)) := by
  cases n with
  | zero => exact absurd rfl hz
  | succ n => rfl

/-- What the body leaves in the input windows: their blocks, untouched. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The named contents at a point, by the point's case -/

/-- At a band's first chunk the accumulator restarts at the chunk's product. -/
theorem TS_first' (c : Dev nD) (n : ℕ) (h : n % 4 = 0) :
    TS m c n = k0_pay5 (AB m c (ptOf n)) (XS m c (n % 4)) := by
  cases n with
  | zero => rfl
  | succ n => exact if_pos h
theorem TS_first (c : Dev nD) (t : Fin cfg0.N) (h : t.val % 4 = 0) :
    TS m c t.val = k0_pay5 (AB m c t) (XS m c (t.val % 4)) := by
  have := TS_first' m c t.val h; rwa [ptOf_val] at this

/-- At a later chunk it gains the chunk's product. -/
theorem TS_later' (c : Dev nD) (n : ℕ) (h : ¬ n % 4 = 0) :
    TS m c n = k0_pay6 (AB m c (ptOf n)) (XS m c (n % 4)) (TS m c (n - 1)) := by
  cases n with
  | zero => exact absurd (Nat.zero_mod 4) h
  | succ n => exact if_neg h
theorem TS_later (c : Dev nD) (t : Fin cfg0.N) (h : ¬ t.val % 4 = 0) :
    TS m c t.val = k0_pay6 (AB m c t) (XS m c (t.val % 4)) (TS m c (t.val - 1)) := by
  have := TS_later' m c t.val h; rwa [ptOf_val] at this

/-- The column sums are zero after the first point, -/
theorem CS_zero (c : Dev nD) (n : ℕ) (h : n = 0) : CS m c n = k0_pay3 := by
  subst h; rfl
/-- gain a band's sums at its last chunk, -/
theorem CS_last' (c : Dev nD) (n : ℕ) (h : n % 4 = 3) :
    CS m c n = k0_pay9 (TS m c n) (WB m c (ptOf n)) (BB m c (ptOf n)) (CS m c (n - 1)) := by
  cases n with
  | zero => exact absurd h (by decide)
  | succ n => exact if_pos h
theorem CS_last (c : Dev nD) (t : Fin cfg0.N) (h : t.val % 4 = 3) :
    CS m c t.val = k0_pay9 (TS m c t.val) (WB m c t) (BB m c t) (CS m c (t.val - 1)) := by
  have := CS_last' m c t.val h; rwa [ptOf_val] at this
/-- and are kept elsewhere. -/
theorem CS_keep (c : Dev nD) (n : ℕ) (h0 : n ≠ 0) (h : ¬ n % 4 = 3) : CS m c n = CS m c (n - 1) := by
  cases n with
  | zero => exact absurd rfl h0
  | succ n => exact if_neg h

/-- The result windows' named contents at a point, over the point's own blocks. -/
theorem O7_at (c : Dev nD) (t : Fin cfg0.N) : O7 m c t.val = k0_pay7 (TS m c t.val) (WB m c t) (BB m c t) := by
  unfold O7; rw [ptOf_val]
theorem O8_at (c : Dev nD) (t : Fin cfg0.N) : O8 m c t.val = k0_pay8 (TS m c t.val) (WB m c t) (BB m c t) := by
  unfold O8; rw [ptOf_val]
theorem O9_at (c : Dev nD) (t : Fin cfg0.N) : O9 m c t.val = k0_pay10 (CS m c t.val) (BPB m c t) (WPB m c t) := by
  unfold O9; rw [ptOf_val]

/-- The chunk a point of the first band stages. -/
theorem XS_at (c : Dev nD) (t : Fin cfg0.N) : XS m c t.val = stagedBlk (XB m c t) (XCB m c t) := by
  unfold XS; rw [ptOf_val]

/-! ## The staged table's chunks -/

/-- Two points whose chunks start at the same row read the same chunk of a table. -/
theorem chunkAt_congr (i i' : grid0.Coords) (h : rowOff i = rowOff i') (xs : S4096x512.Idx → Elt F .bf16) :
    chunkAt i xs = chunkAt i' xs := by
  funext j
  show xs _ = xs _
  refine congrArg xs ?_
  funext a
  apply Fin.ext
  show k0_off3 i a + 1 * (j a).val = k0_off3 i' a + 1 * (j a).val
  rw [off3_eq, off3_eq, h]

/-- A staging step leaves every chunk that starts 1024 rows or more away as it was. -/
theorem chunkAt_step (i i' : grid0.Coords) (xs xs' : S4096x512.Idx → Elt F .bf16) (b : S1024x512.Idx → Elt F .bf16)
    (hs : StagedStep i xs xs' b) (hd : rowOff i' + 1024 ≤ rowOff i ∨ rowOff i + 1024 ≤ rowOff i') :
    chunkAt i' xs' = chunkAt i' xs := by
  funext j
  refine hs.2 _ ?_
  show k0_off3 i' 0 + 1 * (j 0).val < rowOff i ∨ rowOff i + 1024 ≤ k0_off3 i' 0 + 1 * (j 0).val
  have hj : (j 0).val < 1024 := Idealize.ShloMosaic.ValueIdx.idx2_lt0 j
  rw [off3_eq]
  show rowOff i' + 1 * (j 0).val < rowOff i ∨ rowOff i + 1024 ≤ rowOff i' + 1 * (j 0).val
  omega

/-- The row at which chunk k of the table starts. -/
theorem rowOff_ptOf (k : ℕ) (hk : k < 4) : rowOff (grid0.coords (ptOf k)) = 1024 * k := by
  rw [rowOff_at]
  show 1024 * (k % 8 % 4) = 1024 * k
  omega

/-- Staging at a point of the first band extends the chunks known so far by the point's own. -/
theorem staged_next (c : Dev nD) (t : Fin cfg0.N) (ht : t.val < 4) (xs xs' : S4096x512.Idx → Elt F .bf16)
    (hinv : ∀ k, k < 4 → k < t.val → chunkAt (grid0.coords (ptOf k)) xs = XS m c k)
    (hs : StagedStep (grid0.coords t) xs xs' (stagedBlk (XB m c t) (XCB m c t))) :
    ∀ k, k < 4 → k ≤ t.val → chunkAt (grid0.coords (ptOf k)) xs' = XS m c k := by
  intro k hk hkt
  by_cases hkt' : k = t.val
  · subst hkt'
    rw [ptOf_val, XS_at]; exact hs.1
  · rw [chunkAt_step (grid0.coords t) (grid0.coords (ptOf k)) xs xs' _ hs
      (Or.inl (by rw [rowOff_ptOf k hk, rowOff_at]; omega))]
    exact hinv k hk (by omega)

/-- At a point of the second band the table's chunk at the point's rows is the block staged four points earlier. -/
theorem staged_read (c : Dev nD) (t : Fin cfg0.N) (ht : 4 ≤ t.val) (xs : S4096x512.Idx → Elt F .bf16)
    (hinv : ∀ k, k < 4 → k ≤ t.val - 1 → chunkAt (grid0.coords (ptOf k)) xs = XS m c k) :
    chunkAt (grid0.coords t) xs = XS m c (t.val % 4) := by
  rw [chunkAt_congr (grid0.coords t) (grid0.coords (ptOf (t.val % 4)))
    (by rw [rowOff_at, rowOff_ptOf _ (Nat.mod_lt _ (by decide))]) xs]
  exact hinv _ (Nat.mod_lt _ (by decide)) (by omega)

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- An input window's buffer is handed back at its block. -/
theorem leaves0 (c : Dev nD) (t : Fin cfg0.N) : (dats m 0 c).leavesExact 0 t = owns (c : Thread nD τ) (ms0 t) fullShare (XB m c t) := by
  unfold Dat.leavesExact; rw [live0 t, after0_0]
theorem leaves1 (c : Dev nD) (t : Fin cfg0.N) : (dats m 0 c).leavesExact 1 t = owns (c : Thread nD τ) (ms1 t) fullShare (XCB m c t) := by
  unfold Dat.leavesExact; rw [live1 t, after0_1]
theorem leaves2 (c : Dev nD) (t : Fin cfg0.N) : (dats m 0 c).leavesExact 2 t = owns (c : Thread nD τ) (ms2 t) fullShare (WB m c t) := by
  unfold Dat.leavesExact; rw [live2 t, after0_2]
theorem leaves3 (c : Dev nD) (t : Fin cfg0.N) : (dats m 0 c).leavesExact 3 t = owns (c : Thread nD τ) (ms3 t) fullShare (BB m c t) := by
  unfold Dat.leavesExact; rw [live3 t, after0_3]
theorem leaves4 (c : Dev nD) (t : Fin cfg0.N) : (dats m 0 c).leavesExact 4 t = owns (c : Thread nD τ) (ms4 t) fullShare (AB m c t) := by
  unfold Dat.leavesExact; rw [live4 t, after0_4]
theorem leaves5 (c : Dev nD) (t : Fin cfg0.N) : (dats m 0 c).leavesExact 5 t = owns (c : Thread nD τ) (ms5 t) fullShare (WPB m c t) := by
  unfold Dat.leavesExact; rw [live5 t, after0_5]
theorem leaves6 (c : Dev nD) (t : Fin cfg0.N) : (dats m 0 c).leavesExact 6 t = owns (c : Thread nD τ) (ms6 t) fullShare (BPB m c t) := by
  unfold Dat.leavesExact; rw [live6 t, after0_6]
/-- A result window's buffer is handed back at the named contents where the point stores it, -/
theorem leaves7_live (c : Dev nD) (t : Fin cfg0.N) (h : t.val % 4 = 3) :
    (dats m 0 c).leavesExact 7 t = owns (c : Thread nD τ) (ms7 t) fullShare (k0_pay7 (TS m c t.val) (WB m c t) (BB m c t)) := by
  unfold Dat.leavesExact; rw [live7 t h, after7, O7_at]
theorem leaves8_live (c : Dev nD) (t : Fin cfg0.N) (h : t.val % 4 = 3) :
    (dats m 0 c).leavesExact 8 t = owns (c : Thread nD τ) (ms8 t) fullShare (k0_pay8 (TS m c t.val) (WB m c t) (BB m c t)) := by
  unfold Dat.leavesExact; rw [live8 t h, after8, O8_at]
theorem leaves9_live (c : Dev nD) (t : Fin cfg0.N) (h : t.val = 7) :
    (dats m 0 c).leavesExact 9 t = owns (c : Thread nD τ) (ms9 t) fullShare (k0_pay10 (CS m c t.val) (BPB m c t) (WPB m c t)) := by
  unfold Dat.leavesExact; rw [live9 t h, after9, O9_at]
/-- and at what it held elsewhere. -/
theorem leaves7_idle (c : Dev nD) (t : Fin cfg0.N) (h : ¬ t.val % 4 = 3) :
    (dats m 0 c).leavesExact 7 t = iprop(∃ d, owns (c : Thread nD τ) (ms7 t) fullShare ((dats m 0 c).before 7 t d)) :=
  Dat.leavesExact_idle (dats m 0 c) 7 t (idle7 t h) (noFlush7 t h)
theorem leaves8_idle (c : Dev nD) (t : Fin cfg0.N) (h : ¬ t.val % 4 = 3) :
    (dats m 0 c).leavesExact 8 t = iprop(∃ d, owns (c : Thread nD τ) (ms8 t) fullShare ((dats m 0 c).before 8 t d)) :=
  Dat.leavesExact_idle (dats m 0 c) 8 t (idle8 t h) (noFlush8 t h)
theorem leaves9_idle (c : Dev nD) (t : Fin cfg0.N) (h : ¬ t.val = 7) :
    (dats m 0 c).leavesExact 9 t = iprop(∃ d, owns (c : Thread nD τ) (ms9 t) fullShare ((dats m 0 c).before 9 t d)) :=
  Dat.leavesExact_idle (dats m 0 c) 9 t (idle9 t h) (noFlush9 t h)

set_option maxHeartbeats 4800000 in
/-- The first point: the scratch buffers hold anything; the body stages chunk 0, zeroes the column sums and starts the
    accumulator. -/
theorem sound_A (c : Dev nD) (t : Fin cfg0.N) (h0 : t.val = 0) :
    bodyPre m c t ⊢ wp frame (wpE (defs₀ (F := F)) Variants.none c none) Set.univ (bodyAt0 t) (fun _ => bodyPost m c t) := by
  have e4 : t.val % 4 = 0 := by omega
  have n3 : ¬ t.val % 4 = 3 := by omega
  have n7 : ¬ t.val = 7 := by omega
  have hx : XS m c (t.val % 4) = stagedBlk (XB m c t) (XCB m c t) := by
    rw [Nat.mod_eq_of_lt (by omega : t.val < 4), XS_at]
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7_idle m c t n3, leaves8_idle m c t n3, leaves9_idle m c t n7]
  rw [PhiS_castSucc m c t, PhiS_zero m c _ _ h0, PhiA_eq]
  rw [TS_first m c t e4, CS_zero m c _ h0, hx]
  iintro ⟨⟨⟨⟨%dx, HX⟩, HT, HC⟩, Hg⟩, Ho, ⟨%d0, H0⟩, ⟨%d1, H1⟩, ⟨%d2, H2⟩, ⟨%d3, H3⟩, ⟨%d4, H4⟩, ⟨%d5, H5⟩, ⟨%d6, H6⟩, H7, H8, H9⟩
  iapply (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scX (Memref.isWhole_whole _) scT (Memref.isWhole_whole _) scC (Memref.isWhole_whole _)
    ((hc1 t).mpr (by omega)) ((hc2 t).mpr h0) ((hc3 t).mpr e4) (fun h => (hc4 t).mp h e4) (fun h => n3 ((hc5 t).mp h)) (fun h => n7 ((hc6 t).mp h))
    (XB m c t) (XCB m c t) (AB m c t) dx Set.univ _)
  isplitl [H0]; · iexact H0
  isplitl [H1]; · iexact H1
  isplitl [H4]; · iexact H4
  isplitl [HX]; · iexact HX
  isplitl [HT]; · iexact HT
  isplitl [HC]; · iexact HC
  iintro ⟨H0, H1, H4, ⟨%xs', HX, %hs⟩, HT, HC⟩
  isplitl [HX HT HC Hg]
  · isplitr [Hg]
    · isplitl [HX]
      · iexists xs'
        isplitl [HX]; · iexact HX
        ipureintro
        exact staged_next m c t (by omega) dx xs' (fun k _ hk => absurd hk (by omega)) hs
      isplitl [HT]; · iexact HT
      iexact HC
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 4800000 in
/-- A later chunk of the first band that is not its last: the body stages the chunk and adds its product. -/
theorem sound_B (c : Dev nD) (t : Fin cfg0.N) (hlo : t.val ≠ 0) (hhi : t.val < 3) :
    bodyPre m c t ⊢ wp frame (wpE (defs₀ (F := F)) Variants.none c none) Set.univ (bodyAt0 t) (fun _ => bodyPost m c t) := by
  have e4 : ¬ t.val % 4 = 0 := by omega
  have n3 : ¬ t.val % 4 = 3 := by omega
  have n7 : ¬ t.val = 7 := by omega
  have hx : XS m c (t.val % 4) = stagedBlk (XB m c t) (XCB m c t) := by
    rw [Nat.mod_eq_of_lt (by omega : t.val < 4), XS_at]
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7_idle m c t n3, leaves8_idle m c t n3, leaves9_idle m c t n7]
  rw [PhiS_castSucc m c t, PhiS_pos m c _ _ hlo]
  rw [TS_later m c t e4, CS_keep m c _ hlo n3, hx]
  iintro ⟨⟨⟨⟨%xs, HX, %hinv⟩, HT, HC⟩, Hg⟩, Ho, ⟨%d0, H0⟩, ⟨%d1, H1⟩, ⟨%d2, H2⟩, ⟨%d3, H3⟩, ⟨%d4, H4⟩, ⟨%d5, H5⟩, ⟨%d6, H6⟩, H7, H8, H9⟩
  iapply (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scX (Memref.isWhole_whole _) scT (Memref.isWhole_whole _) scC (Memref.isWhole_whole _)
    ((hc1 t).mpr (by omega)) (fun h => hlo ((hc2 t).mp h)) (fun h => e4 ((hc3 t).mp h)) ((hc4 t).mpr e4) (fun h => n3 ((hc5 t).mp h)) (fun h => n7 ((hc6 t).mp h))
    (XB m c t) (XCB m c t) (AB m c t) xs (TS m c (t.val - 1)) Set.univ _)
  isplitl [H0]; · iexact H0
  isplitl [H1]; · iexact H1
  isplitl [H4]; · iexact H4
  isplitl [HX]; · iexact HX
  isplitl [HT]; · iexact HT
  iintro ⟨H0, H1, H4, ⟨%xs', HX, %hs⟩, HT⟩
  isplitl [HX HT HC Hg]
  · isplitr [Hg]
    · isplitl [HX]
      · iexists xs'
        isplitl [HX]; · iexact HX
        ipureintro
        exact staged_next m c t (by omega) xs xs' (fun k hk hlt => hinv k hk (by omega)) hs
      isplitl [HT]; · iexact HT
      iexact HC
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 4800000 in
/-- The last chunk of the first band: the body stages the chunk, completes the accumulator, encodes the band into the
    two result windows and adds the band's column sums. -/
theorem sound_C (c : Dev nD) (t : Fin cfg0.N) (h3 : t.val = 3) :
    bodyPre m c t ⊢ wp frame (wpE (defs₀ (F := F)) Variants.none c none) Set.univ (bodyAt0 t) (fun _ => bodyPost m c t) := by
  have hlo : t.val ≠ 0 := by omega
  have e4 : ¬ t.val % 4 = 0 := by omega
  have e3 : t.val % 4 = 3 := by omega
  have n7 : ¬ t.val = 7 := by omega
  have hx : XS m c (t.val % 4) = stagedBlk (XB m c t) (XCB m c t) := by
    rw [Nat.mod_eq_of_lt (by omega : t.val < 4), XS_at]
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7_live m c t e3, leaves8_live m c t e3, leaves9_idle m c t n7]
  rw [PhiS_castSucc m c t, PhiS_pos m c _ _ hlo]
  rw [CS_last m c t e3, TS_later m c t e4, hx]
  iintro ⟨⟨⟨⟨%xs, HX, %hinv⟩, HT, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  iapply (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scX (Memref.isWhole_whole _) scT (Memref.isWhole_whole _) scC (Memref.isWhole_whole _)
    ((hc1 t).mpr (by omega)) (fun h => hlo ((hc2 t).mp h)) (fun h => e4 ((hc3 t).mp h)) ((hc4 t).mpr e4) ((hc5 t).mpr e3) (fun h => n7 ((hc6 t).mp h))
    (XB m c t) (XCB m c t) (AB m c t) xs (TS m c (t.val - 1)) (CS m c (t.val - 1)) (WB m c t) (BB m c t) Set.univ _)
  isplitl [H0]; · iexact H0
  isplitl [H1]; · iexact H1
  isplitl [H4]; · iexact H4
  isplitl [H2]; · iexact H2
  isplitl [H3]; · iexact H3
  isplitl [HX]; · iexact HX
  isplitl [HT]; · iexact HT
  isplitl [HC]; · iexact HC
  isplitl [H7]; · iexists _; iexact H7
  isplitl [H8]; · iexists _; iexact H8
  iintro ⟨H0, H1, H4, H2, H3, ⟨%xs', HX, %hs⟩, HT, HC, H7, H8⟩
  isplitl [HX HT HC Hg]
  · isplitr [Hg]
    · isplitl [HX]
      · iexists xs'
        isplitl [HX]; · iexact HX
        ipureintro
        exact staged_next m c t (by omega) xs xs' (fun k hk hlt => hinv k hk (by omega)) hs
      isplitl [HT]; · iexact HT
      iexact HC
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 4800000 in
/-- The first chunk of the second band: the table is only read; the accumulator restarts at the chunk's product. -/
theorem sound_D (c : Dev nD) (t : Fin cfg0.N) (h4 : t.val = 4) :
    bodyPre m c t ⊢ wp frame (wpE (defs₀ (F := F)) Variants.none c none) Set.univ (bodyAt0 t) (fun _ => bodyPost m c t) := by
  have hlo : t.val ≠ 0 := by omega
  have e4 : t.val % 4 = 0 := by omega
  have n3 : ¬ t.val % 4 = 3 := by omega
  have n7 : ¬ t.val = 7 := by omega
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7_idle m c t n3, leaves8_idle m c t n3, leaves9_idle m c t n7]
  rw [PhiS_castSucc m c t, PhiS_pos m c _ _ hlo]
  rw [TS_first m c t e4, CS_keep m c _ hlo n3]
  iintro ⟨⟨⟨⟨%xs, HX, %hinv⟩, HT, HC⟩, Hg⟩, Ho, ⟨%d0, H0⟩, ⟨%d1, H1⟩, ⟨%d2, H2⟩, ⟨%d3, H3⟩, ⟨%d4, H4⟩, ⟨%d5, H5⟩, ⟨%d6, H6⟩, H7, H8, H9⟩
  iapply (runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scX (Memref.isWhole_whole _) scT (Memref.isWhole_whole _) scC (Memref.isWhole_whole _)
    (fun h => absurd ((hc1 t).mp h) (by omega)) (fun h => hlo ((hc2 t).mp h)) ((hc3 t).mpr e4) (fun h => (hc4 t).mp h e4) (fun h => n3 ((hc5 t).mp h)) (fun h => n7 ((hc6 t).mp h))
    (AB m c t) xs (XS m c (t.val % 4)) (staged_read m c t (by omega) xs hinv) Set.univ _)
  isplitl [H4]; · iexact H4
  isplitl [HX]; · iexact HX
  isplitl [HT]; · iexists _; iexact HT
  iintro ⟨H4, HX, HT⟩
  isplitl [HX HT HC Hg]
  · isplitr [Hg]
    · isplitl [HX]
      · iexists xs
        isplitl [HX]; · iexact HX
        ipureintro
        exact fun k hk _ => hinv k hk (by omega)
      isplitl [HT]; · iexact HT
      iexact HC
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 4800000 in
/-- A later chunk of the second band that is not its last: the chunk's product is added to the accumulator. -/
theorem sound_E (c : Dev nD) (t : Fin cfg0.N) (hlo : 4 < t.val) (hhi : t.val < 7) :
    bodyPre m c t ⊢ wp frame (wpE (defs₀ (F := F)) Variants.none c none) Set.univ (bodyAt0 t) (fun _ => bodyPost m c t) := by
  have hz : t.val ≠ 0 := by omega
  have e4 : ¬ t.val % 4 = 0 := by omega
  have n3 : ¬ t.val % 4 = 3 := by omega
  have n7 : ¬ t.val = 7 := by omega
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7_idle m c t n3, leaves8_idle m c t n3, leaves9_idle m c t n7]
  rw [PhiS_castSucc m c t, PhiS_pos m c _ _ hz]
  rw [TS_later m c t e4, CS_keep m c _ hz n3]
  iintro ⟨⟨⟨⟨%xs, HX, %hinv⟩, HT, HC⟩, Hg⟩, Ho, ⟨%d0, H0⟩, ⟨%d1, H1⟩, ⟨%d2, H2⟩, ⟨%d3, H3⟩, ⟨%d4, H4⟩, ⟨%d5, H5⟩, ⟨%d6, H6⟩, H7, H8, H9⟩
  iapply (runE c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scX (Memref.isWhole_whole _) scT (Memref.isWhole_whole _) scC (Memref.isWhole_whole _)
    (fun h => absurd ((hc1 t).mp h) (by omega)) (fun h => hz ((hc2 t).mp h)) (fun h => e4 ((hc3 t).mp h)) ((hc4 t).mpr e4) (fun h => n3 ((hc5 t).mp h)) (fun h => n7 ((hc6 t).mp h))
    (AB m c t) xs (XS m c (t.val % 4)) (staged_read m c t (by omega) xs hinv) (TS m c (t.val - 1)) Set.univ _)
  isplitl [H4]; · iexact H4
  isplitl [HX]; · iexact HX
  isplitl [HT]; · iexact HT
  iintro ⟨H4, HX, HT⟩
  isplitl [HX HT HC Hg]
  · isplitr [Hg]
    · isplitl [HX]
      · iexists xs
        isplitl [HX]; · iexact HX
        ipureintro
        exact fun k hk _ => hinv k hk (by omega)
      isplitl [HT]; · iexact HT
      iexact HC
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 4800000 in
/-- The last point: the body completes the second band's accumulator, encodes the band, completes the column sums and
    reads the summary out into the third result window. -/
theorem sound_F (c : Dev nD) (t : Fin cfg0.N) (h7 : t.val = 7) :
    bodyPre m c t ⊢ wp frame (wpE (defs₀ (F := F)) Variants.none c none) Set.univ (bodyAt0 t) (fun _ => bodyPost m c t) := by
  have hz : t.val ≠ 0 := by omega
  have e4 : ¬ t.val % 4 = 0 := by omega
  have e3 : t.val % 4 = 3 := by omega
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7_live m c t e3, leaves8_live m c t e3, leaves9_live m c t h7]
  rw [PhiS_castSucc m c t, PhiS_pos m c _ _ hz]
  rw [CS_last m c t e3, TS_later m c t e4]
  iintro ⟨⟨⟨⟨%xs, HX, %hinv⟩, HT, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runF c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scX (Memref.isWhole_whole _) scT (Memref.isWhole_whole _) scC (Memref.isWhole_whole _)
    (fun h => absurd ((hc1 t).mp h) (by omega)) (fun h => hz ((hc2 t).mp h)) (fun h => e4 ((hc3 t).mp h)) ((hc4 t).mpr e4) ((hc5 t).mpr e3) ((hc6 t).mpr h7)
    (AB m c t) xs (XS m c (t.val % 4)) (staged_read m c t (by omega) xs hinv) (TS m c (t.val - 1)) (CS m c (t.val - 1)) (WB m c t) (BB m c t) (WPB m c t) (BPB m c t) Set.univ _)
  isplitl [H4]; · iexact H4
  isplitl [H2]; · iexact H2
  isplitl [H3]; · iexact H3
  isplitl [H5]; · iexact H5
  isplitl [H6]; · iexact H6
  isplitl [HX]; · iexact HX
  isplitl [HT]; · iexact HT
  isplitl [HC]; · iexact HC
  isplitl [H7]; · iexists _; iexact H7
  isplitl [H8]; · iexists _; iexact H8
  isplitl [H9]; · iexists _; iexact H9
  iintro ⟨H4, H2, H3, H5, H6, HX, HT, HC, H7, H8, H9⟩
  isplitl [HX HT HC Hg]
  · isplitr [Hg]
    · isplitl [HX]
      · iexists xs
        isplitl [HX]; · iexact HX
        ipureintro
        exact fun k hk _ => hinv k hk (by omega)
      isplitl [HT]; · iexact HT
      iexact HC
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body at any point: the point's number says which of the six control cases it is. -/
theorem sound_body (c : Dev nD) (t : Fin cfg0.N) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  by_cases h0 : t.val = 0
  · exact sound_A m c t h0
  by_cases h3 : t.val < 3
  · exact sound_B m c t h0 h3
  by_cases h3' : t.val = 3
  · exact sound_C m c t h3'
  by_cases h4 : t.val = 4
  · exact sound_D m c t h4
  by_cases h7 : t.val < 7
  · exact sound_E m c t (by omega) h7
  exact sound_F m c t (by omega)

/-- The body's obligation at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives the launch's back: the scratch buffers' named contents are forgotten. -/
theorem hout (c : Dev nD) : (dats m 0 c).Φ (Fin.last cfg0.N) ⊢ Pipeline.ΦA spec0 c := by
  have hN : cfg0.N = 8 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA_eq]
  iintro ⟨⟨⟨%xs, HX, -⟩, HT, HC⟩, Hg⟩
  isplitr [Hg]
  · isplitl [HX]; · iexists _; iexact HX
    isplitl [HT]; · iexists _; iexact HT
    iexists _; iexact HC
  iexact Hg

set_option backward.isDefEq.respectTransparency.types false in
/-- Every weakly fair execution of @main terminates without a fault, every array of the pipeline ending at what the
    proof data says. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim at any instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Body
end
-- ==== Proof.KCommon.lean ====
/-
  Names shared by the hand modules about the one kernel: its six branch conditions as propositions over the grid
  coordinates with their closed forms over the eight points (two row bands of the adjacency times four chunks of its
  columns), the row at which a chunk of the staged feature table starts, the staging and scratch memrefs, the region
  invariant spelt over the three scratch buffers, where the three result windows are idle, and what one store through a
  buffer's whole rectangle leaves in it.
-/
import proofs.«126669_g2000106255353042_pallasbulk_995_17_alg».proof.Proof.Gen.KernelIdeal.Frame
import proofs.«126669_g2000106255353042_pallasbulk_995_17_alg».proof.Proof.Gen.KernelIdeal.Skeleton
import Idealize.ShloMosaic.Lib.Pipeline.Value
import Idealize.ShloMosaic.Lib.WritesUnit
import proofs.«126669_g2000106255353042_pallasbulk_995_17_alg».proof.Proof.Staged

set_option maxRecDepth 16384

noncomputable section

namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-- The six branch conditions of the body, over the grid coordinates: first band; first band and first chunk;
    first chunk; a later chunk; last chunk; last band and last chunk. -/
abbrev c1 (i : grid0.Coords) : Prop := k0_cond1 i = 1#1
abbrev c2 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
abbrev c3 (i : grid0.Coords) : Prop := (Scalar.cmpi .ne (Scalar.extui (Scalar.cmpi .eq (BitVec.ofNat 32 (i 1).val) 0#32)) 0#32) = 1#1
abbrev c4 (i : grid0.Coords) : Prop := (Scalar.cmpi .ne (Scalar.extui (Scalar.cmpi .ne (BitVec.ofNat 32 (i 1).val) 0#32)) 0#32) = 1#1
abbrev c5 (i : grid0.Coords) : Prop := k0_cond5 i = 1#1
abbrev c6 (i : grid0.Coords) : Prop := k0_cond6 i = 1#1

/-- First band: the points 0 to 3. -/
theorem hc1 : ∀ t : Fin cfg0.N, c1 (grid0.coords t) ↔ t.val < 4 :=
  (by decide +kernel : ∀ t : Fin grid0.N, c1 (grid0.coords t) ↔ t.val < 4)
/-- First band and first chunk: point 0. -/
theorem hc2 : ∀ t : Fin cfg0.N, c2 (grid0.coords t) ↔ t.val = 0 :=
  (by decide +kernel : ∀ t : Fin grid0.N, c2 (grid0.coords t) ↔ t.val = 0)
/-- First chunk of a band. -/
theorem hc3 : ∀ t : Fin cfg0.N, c3 (grid0.coords t) ↔ t.val % 4 = 0 :=
  (by decide +kernel : ∀ t : Fin grid0.N, c3 (grid0.coords t) ↔ t.val % 4 = 0)
/-- A later chunk of a band. -/
theorem hc4 : ∀ t : Fin cfg0.N, c4 (grid0.coords t) ↔ ¬ t.val % 4 = 0 :=
  (by decide +kernel : ∀ t : Fin grid0.N, c4 (grid0.coords t) ↔ ¬ t.val % 4 = 0)
/-- Last chunk of a band. -/
theorem hc5 : ∀ t : Fin cfg0.N, c5 (grid0.coords t) ↔ t.val % 4 = 3 :=
  (by decide +kernel : ∀ t : Fin grid0.N, c5 (grid0.coords t) ↔ t.val % 4 = 3)
/-- Last chunk of the last band: point 7. -/
theorem hc6 : ∀ t : Fin cfg0.N, c6 (grid0.coords t) ↔ t.val = 7 :=
  (by decide +kernel : ∀ t : Fin grid0.N, c6 (grid0.coords t) ↔ t.val = 7)

/-- The row of the staged feature table at which the point's chunk starts: 1024 times the chunk's number. -/
def rowOff (i : grid0.Coords) : ℕ := (Scalar.indexCast (Scalar.muli (BitVec.ofNat 32 (i 1).val) 1024#32)).toNat
theorem off1_eq (i : grid0.Coords) : k0_off1 i = ![rowOff i, 0] := rfl
theorem off2_eq (i : grid0.Coords) : k0_off2 i = ![rowOff i, 256] := rfl
theorem off3_eq (i : grid0.Coords) : k0_off3 i = ![rowOff i, 0] := rfl
theorem rowOff_at : ∀ t : Fin cfg0.N, rowOff (grid0.coords t) = 1024 * (t.val % 4) :=
  (by decide +kernel : ∀ t : Fin grid0.N, rowOff (grid0.coords t) = 1024 * (t.val % 4))

/-- Each window's current staging memref at point `t`, spelt as the pipeline passes it, and its wholeness. -/
abbrev ms0 (t : Fin cfg0.N) : Memref sig .tc .vmem S1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x1024 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S2048x512 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S2048x512 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x512 .f32 := win0_9.stage (cfg0.slots t 9)
abbrev hs9 (t : Fin cfg0.N) : (ms9 t).IsWhole := hstage0_9 ((cfg0.slots t 9).cast nbuf0_9)
/-- The three scratch operands: the staged feature table, the band's accumulator, the column sums. -/
abbrev scX : Memref sig .tc .vmem S4096x512 .bf16 := Memref.whole cc0_scratch0
abbrev scT : Memref sig .tc .vmem S2048x512 .f32 := Memref.whole cc0_scratch1
abbrev scC : Memref sig .tc .vmem S8x512 .f32 := Memref.whole cc0_scratch2

/-- The region invariant the launch hands over, with the scratch operands as memrefs owned at some contents. -/
theorem PhiA_eq (c : Dev nD) :
    (Pipeline.ΦA spec0 c : sProp 𝕄)
      = iprop(iprop((∃ d, owns (c : Thread nD τ) scX fullShare d) ∗ (∃ d, owns (c : Thread nD τ) scT fullShare d) ∗ (∃ d, owns (c : Thread nD τ) scC fullShare d)) ∗ (∃ r, prngReg c r)) := by
  unfold Pipeline.ΦA; rw [scopedRest0_eq]; simp only [scX, scT, scC, owns_whole]; try rfl

/-! ## The staged feature table -/

/-- What one chunk of the staged table holds once its point has run: the point's block of `x` and its block of the
    corrupted `x`, each narrowed to bf16, side by side. -/
abbrev stagedBlk (x0 x1 : Vec F S1024x256 .f32) : S1024x512.Idx → Elt F .bf16 :=
  Cert.Staged.sideBySide (Val := Elt F) (e := .bf16) (k0_pay1 x0) (k0_pay2 x1)
/-- The chunk of the table `xs` at the point's rows. -/
abbrev chunkAt (i : grid0.Coords) (xs : S4096x512.Idx → Elt F .bf16) : S1024x512.Idx → Elt F .bf16 :=
  View.ld xs (Rect.unit (s := S4096x512) (k0_off3 i) S1024x512.size (k0_off3_inb i))
/-- One staging step: the point's chunk of the new table is `b`, every other row is as in the old table. -/
def StagedStep (i : grid0.Coords) (xs xs' : S4096x512.Idx → Elt F .bf16) (b : S1024x512.Idx → Elt F .bf16) : Prop :=
  chunkAt i xs' = b ∧ ∀ y : S4096x512.Idx, ((y 0).val < rowOff i ∨ rowOff i + 1024 ≤ (y 0).val) → xs' y = xs y

/-! ## Where the windows are idle -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
/-- The two encoded bands are stored at a band's last chunk only: idle and not written back elsewhere. -/
theorem idle7 : ∀ t : Fin cfg0.N, ¬ t.val % 4 = 3 → cfg0.idle 7 (grid0.coords t) = true := by decide +kernel
theorem noFlush7 : ∀ t : Fin cfg0.N, ¬ t.val % 4 = 3 → (cfg0.win 7).flush t = false := by decide +kernel
theorem live7 : ∀ t : Fin cfg0.N, t.val % 4 = 3 → cfg0.idle 7 (grid0.coords t) = false := by decide +kernel
theorem idle8 : ∀ t : Fin cfg0.N, ¬ t.val % 4 = 3 → cfg0.idle 8 (grid0.coords t) = true := by decide +kernel
theorem noFlush8 : ∀ t : Fin cfg0.N, ¬ t.val % 4 = 3 → (cfg0.win 8).flush t = false := by decide +kernel
theorem live8 : ∀ t : Fin cfg0.N, t.val % 4 = 3 → cfg0.idle 8 (grid0.coords t) = false := by decide +kernel
/-- The summary readout is stored at the last point only. -/
theorem idle9 : ∀ t : Fin cfg0.N, ¬ t.val = 7 → cfg0.idle 9 (grid0.coords t) = true := by decide +kernel
theorem noFlush9 : ∀ t : Fin cfg0.N, ¬ t.val = 7 → (cfg0.win 9).flush t = false := by decide +kernel
theorem live9 : ∀ t : Fin cfg0.N, t.val = 7 → cfg0.idle 9 (grid0.coords t) = false := by decide +kernel

/-! ## One store through the whole rectangle -/

/-- The offsets of a rank-2 buffer's whole rectangle are zero on both axes. -/
theorem hz2 : (![0, 0] : Fin 2 → ℕ) = fun _ => 0 := by
  funext a; match a with | ⟨0, _⟩ => rfl | ⟨1, _⟩ => rfl

/-- A buffer stored once through the rectangle of all its indices reads as the stored value, whatever it held. -/
theorem read_whole_store {S : Shape} {e : EltTy} (M : Memref sig .tc .vmem S e) (f : M.view.ty.Contents (Elt F))
    {off : Fin S.rank → Nat} (hz : off = fun _ => 0) (inb : ∀ a, off a + S.size a ≤ S.size a) (w : S.Idx → Elt F e) :
    M.view.read (Elt F) (M.view.writes (Elt F) f [(⟨Rect.unit off S.size inb, w⟩ : View.Piece (Elt F) S e)]) = w :=
  (View.read_writes_eq_canon M.view f _ (fun y => ⟨_, List.mem_singleton_self _, View.mem_set_unit_zero hz inb y⟩)).trans
    (View.canon_unit_zero hz inb w)

end Cert.KernelIdeal.Body

end
-- ==== Proof.KRunA.lean ====
import proofs.«126669_g2000106255353042_pallasbulk_995_17_alg».proof.Proof.KCommon

set_option maxRecDepth 16384

noncomputable section

namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

set_option maxHeartbeats 4000000 in
/-- The body at the first point (first band, first chunk): it stages the chunk, zeroes the column sums and starts the
    band's accumulator at the chunk's product. The table and both scratch accumulators may hold anything before. -/
theorem runA (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2048x1024 .bf16) (harg6 : arg6.IsWhole) (arg7 : Memref sig .tc .vmem S512x512 .f32) (harg7 : arg7.IsWhole) (arg8 : Memref sig .tc .vmem S1x512 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S1x512 .f32) (harg11 : arg11.IsWhole) (arg12 : Memref sig .tc .vmem S4096x512 .bf16) (harg12 : arg12.IsWhole) (arg13 : Memref sig .tc .vmem S2048x512 .f32) (harg13 : arg13.IsWhole) (arg14 : Memref sig .tc .vmem S8x512 .f32) (harg14 : arg14.IsWhole)
    (h1 : c1 i) (h2 : c2 i) (h3 : c3 i) (h4 : ¬c4 i) (h5 : ¬c5 i) (h6 : ¬c6 i)
    (x0 x1 : Vec F S1024x256 .f32) (av : Vec F S2048x1024 .bf16) (xs : S4096x512.Idx → Elt F .bf16)
    (E : Set ℕ) (K : PUnit → sProp 𝕄) :
    iprop(owns (c : Thread nD τ) arg2 fullShare x0 ∗ owns (c : Thread nD τ) arg3 fullShare x1 ∗ owns (c : Thread nD τ) arg6 fullShare av
        ∗ owns (c : Thread nD τ) arg12 fullShare xs ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg6 fullShare av
            ∗ (∃ xs', owns (c : Thread nD τ) arg12 fullShare xs' ∗ ⌜StagedStep i xs xs' (stagedBlk x0 x1)⌝)
            ∗ owns (c : Thread nD τ) arg13 fullShare (k0_pay5 av (stagedBlk x0 x1)) ∗ owns (c : Thread nD τ) arg14 fullShare (k0_pay3 (F := F))) -∗ K ⟨⟩))
      ⊢ wp frame (wpE (defs₀ (F := F)) Variants.none c none) E (cc0__dgi_body i arg2 harg2 arg3 harg3 arg4 harg4 arg5 harg5 arg6 harg6 arg7 harg7 arg8 harg8 arg9 harg9 arg10 harg10 arg11 harg11 arg12 harg12 arg13 harg13 arg14 harg14) K := by
  simp only [cc0__dgi_body_eq_skeleton]; unfold cc0__dgi_body_skel
  unfold owns
  iintro ⟨⟨%f0, %hf0, H0⟩, ⟨%f1, %hf1, H1⟩, ⟨%f4, %hf4, H4⟩, ⟨%fs0, %hfs0, HS0⟩, ⟨%ds1, %fs1, -, HS1⟩, ⟨%ds2, %fs2, -, HS2⟩, Hk⟩
  obtain rfl := harg2.eq_unread hf0; obtain rfl := harg3.eq_unread hf1; obtain rfl := harg6.eq_unread hf4
  obtain rfl := harg12.eq_unread hfs0
  sl_exec (disch := first | exact h1 | exact h2 | exact h3 | exact h4 | exact h5 | exact h6)
  sl_step
  sl_unfold_run_names
  simp only [View.readAt_eq_ld, harg2.read_unread, harg3.read_unread, harg4.read_unread, harg5.read_unread, harg6.read_unread, harg7.read_unread, harg8.read_unread, harg12.read_unread, harg13.read_unread, harg14.read_unread, View.ld_unit_zero (S := S1024x256) hz2, View.ld_unit_zero (S := S2048x1024) hz2, View.ld_unit_zero (S := S256x512) hz2, View.ld_unit_zero (S := S1x512) hz2, View.ld_unit_zero (S := S512x512) hz2, View.ld_unit_zero (S := S2048x512) hz2, View.ld_unit_zero (S := S8x512) hz2]
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg6.read_unread _
    iexact H4
  isplitl [HS0]
  · iexists _
    isplitl [HS0]
    · iexists _; isplitr
      swap; · iexact HS0
      ipureintro; rfl
    ipureintro
    exact ⟨Cert.Staged.read_chunk arg12.view _ (rowOff i) (off1_eq i) (off2_eq i) (off3_eq i) _ _ _ _ _,
      fun y hy => (Cert.Staged.read_outside arg12.view _ (rowOff i) (off1_eq i) (off2_eq i) _ _ _ _ y hy).trans (congrFun (harg12.read_unread xs) y)⟩
  isplitl [HS1]
  · iexists _; isplitr
    swap; · iexact HS1
    ipureintro
    exact (read_whole_store arg13 _ hz2 _ _).trans
      (congrArg (k0_pay5 av) (Cert.Staged.readCov_chunk arg12.view (rowOff i) (off1_eq i) (off2_eq i) (off3_eq i) _ _ _ _ _))
  iexists _; isplitr
  swap; · iexact HS2
  ipureintro
  exact read_whole_store arg14 _ hz2 _ _

end Cert.KernelIdeal.Body
end
-- ==== Proof.KRunB.lean ====
import proofs.«126669_g2000106255353042_pallasbulk_995_17_alg».proof.Proof.KCommon

set_option maxRecDepth 16384

noncomputable section

namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

set_option maxHeartbeats 4000000 in
/-- The body at a later chunk of the first band that is not the last: it stages the chunk and adds the chunk's product to the band's accumulator `ts`. -/
theorem runB (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2048x1024 .bf16) (harg6 : arg6.IsWhole) (arg7 : Memref sig .tc .vmem S512x512 .f32) (harg7 : arg7.IsWhole) (arg8 : Memref sig .tc .vmem S1x512 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S1x512 .f32) (harg11 : arg11.IsWhole) (arg12 : Memref sig .tc .vmem S4096x512 .bf16) (harg12 : arg12.IsWhole) (arg13 : Memref sig .tc .vmem S2048x512 .f32) (harg13 : arg13.IsWhole) (arg14 : Memref sig .tc .vmem S8x512 .f32) (harg14 : arg14.IsWhole)
    (h1 : c1 i) (h2 : ¬c2 i) (h3 : ¬c3 i) (h4 : c4 i) (h5 : ¬c5 i) (h6 : ¬c6 i)
    (x0 x1 : Vec F S1024x256 .f32) (av : Vec F S2048x1024 .bf16) (xs : S4096x512.Idx → Elt F .bf16) (ts : Vec F S2048x512 .f32)
    (E : Set ℕ) (K : PUnit → sProp 𝕄) :
    iprop(owns (c : Thread nD τ) arg2 fullShare x0
        ∗ owns (c : Thread nD τ) arg3 fullShare x1
        ∗ owns (c : Thread nD τ) arg6 fullShare av
        ∗ owns (c : Thread nD τ) arg12 fullShare xs
        ∗ owns (c : Thread nD τ) arg13 fullShare ts
        ∗ (iprop(owns (c : Thread nD τ) arg2 fullShare x0
            ∗ owns (c : Thread nD τ) arg3 fullShare x1
            ∗ owns (c : Thread nD τ) arg6 fullShare av
            ∗ (∃ xs', owns (c : Thread nD τ) arg12 fullShare xs' ∗ ⌜StagedStep i xs xs' (stagedBlk x0 x1)⌝)
            ∗ owns (c : Thread nD τ) arg13 fullShare (k0_pay6 av (stagedBlk x0 x1) ts)) -∗ K ⟨⟩))
      ⊢ wp frame (wpE (defs₀ (F := F)) Variants.none c none) E (cc0__dgi_body i arg2 harg2 arg3 harg3 arg4 harg4 arg5 harg5 arg6 harg6 arg7 harg7 arg8 harg8 arg9 harg9 arg10 harg10 arg11 harg11 arg12 harg12 arg13 harg13 arg14 harg14) K := by
  simp only [cc0__dgi_body_eq_skeleton]; unfold cc0__dgi_body_skel
  unfold owns
  iintro ⟨⟨%f0, %hf0, H0⟩, ⟨%f1, %hf1, H1⟩, ⟨%f4, %hf4, H4⟩, ⟨%fs0, %hfs0, HS0⟩, ⟨%fs1, %hfs1, HS1⟩, Hk⟩
  obtain rfl := harg2.eq_unread hf0; obtain rfl := harg3.eq_unread hf1; obtain rfl := harg6.eq_unread hf4
  obtain rfl := harg12.eq_unread hfs0; obtain rfl := harg13.eq_unread hfs1
  sl_exec (disch := first | exact h1 | exact h2 | exact h3 | exact h4 | exact h5 | exact h6)
  sl_step
  sl_unfold_run_names
  simp only [View.readAt_eq_ld, harg2.read_unread, harg3.read_unread, harg4.read_unread, harg5.read_unread, harg6.read_unread, harg7.read_unread, harg8.read_unread, harg12.read_unread, harg13.read_unread, harg14.read_unread, View.ld_unit_zero (S := S1024x256) hz2, View.ld_unit_zero (S := S2048x1024) hz2, View.ld_unit_zero (S := S256x512) hz2, View.ld_unit_zero (S := S1x512) hz2, View.ld_unit_zero (S := S512x512) hz2, View.ld_unit_zero (S := S2048x512) hz2, View.ld_unit_zero (S := S8x512) hz2]
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg6.read_unread _
    iexact H4
  isplitl [HS0]
  · iexists _
    isplitl [HS0]
    · iexists _; isplitr
      swap; · iexact HS0
      ipureintro; rfl
    ipureintro
    exact ⟨Cert.Staged.read_chunk arg12.view _ (rowOff i) (off1_eq i) (off2_eq i) (off3_eq i) _ _ _ _ _,
      fun y hy => (Cert.Staged.read_outside arg12.view _ (rowOff i) (off1_eq i) (off2_eq i) _ _ _ _ y hy).trans (congrFun (harg12.read_unread xs) y)⟩
  iexists _; isplitr
  swap; · iexact HS1
  ipureintro
  exact (read_whole_store arg13 _ hz2 _ _).trans
    (congrArg (fun b => k0_pay6 av b ts) (Cert.Staged.readCov_chunk arg12.view (rowOff i) (off1_eq i) (off2_eq i) (off3_eq i) _ _ _ _ _))

end Cert.KernelIdeal.Body
end
-- ==== Proof.KRunC.lean ====
import proofs.«126669_g2000106255353042_pallasbulk_995_17_alg».proof.Proof.KCommon

set_option maxRecDepth 16384

noncomputable section

namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

set_option maxHeartbeats 4000000 in
/-- The body at the last chunk of the first band: it stages the chunk, completes the accumulator, encodes the band into the two result windows and adds the band's column sums to `cs`. -/
theorem runC (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2048x1024 .bf16) (harg6 : arg6.IsWhole) (arg7 : Memref sig .tc .vmem S512x512 .f32) (harg7 : arg7.IsWhole) (arg8 : Memref sig .tc .vmem S1x512 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S1x512 .f32) (harg11 : arg11.IsWhole) (arg12 : Memref sig .tc .vmem S4096x512 .bf16) (harg12 : arg12.IsWhole) (arg13 : Memref sig .tc .vmem S2048x512 .f32) (harg13 : arg13.IsWhole) (arg14 : Memref sig .tc .vmem S8x512 .f32) (harg14 : arg14.IsWhole)
    (h1 : c1 i) (h2 : ¬c2 i) (h3 : ¬c3 i) (h4 : c4 i) (h5 : c5 i) (h6 : ¬c6 i)
    (x0 x1 : Vec F S1024x256 .f32) (av : Vec F S2048x1024 .bf16) (xs : S4096x512.Idx → Elt F .bf16) (ts : Vec F S2048x512 .f32) (cs : Vec F S8x512 .f32) (wv : Vec F S256x512 .f32) (bv : Vec F S1x512 .f32)
    (E : Set ℕ) (K : PUnit → sProp 𝕄) :
    iprop(owns (c : Thread nD τ) arg2 fullShare x0
        ∗ owns (c : Thread nD τ) arg3 fullShare x1
        ∗ owns (c : Thread nD τ) arg6 fullShare av
        ∗ owns (c : Thread nD τ) arg4 fullShare wv
        ∗ owns (c : Thread nD τ) arg5 fullShare bv
        ∗ owns (c : Thread nD τ) arg12 fullShare xs
        ∗ owns (c : Thread nD τ) arg13 fullShare ts
        ∗ owns (c : Thread nD τ) arg14 fullShare cs
        ∗ (∃ d, owns (c : Thread nD τ) arg9 fullShare d)
        ∗ (∃ d, owns (c : Thread nD τ) arg10 fullShare d)
        ∗ (iprop(owns (c : Thread nD τ) arg2 fullShare x0
            ∗ owns (c : Thread nD τ) arg3 fullShare x1
            ∗ owns (c : Thread nD τ) arg6 fullShare av
            ∗ owns (c : Thread nD τ) arg4 fullShare wv
            ∗ owns (c : Thread nD τ) arg5 fullShare bv
            ∗ (∃ xs', owns (c : Thread nD τ) arg12 fullShare xs' ∗ ⌜StagedStep i xs xs' (stagedBlk x0 x1)⌝)
            ∗ owns (c : Thread nD τ) arg13 fullShare (k0_pay6 av (stagedBlk x0 x1) ts)
            ∗ owns (c : Thread nD τ) arg14 fullShare (k0_pay9 (k0_pay6 av (stagedBlk x0 x1) ts) wv bv cs)
            ∗ owns (c : Thread nD τ) arg9 fullShare (k0_pay7 (k0_pay6 av (stagedBlk x0 x1) ts) wv bv)
            ∗ owns (c : Thread nD τ) arg10 fullShare (k0_pay8 (k0_pay6 av (stagedBlk x0 x1) ts) wv bv)) -∗ K ⟨⟩))
      ⊢ wp frame (wpE (defs₀ (F := F)) Variants.none c none) E (cc0__dgi_body i arg2 harg2 arg3 harg3 arg4 harg4 arg5 harg5 arg6 harg6 arg7 harg7 arg8 harg8 arg9 harg9 arg10 harg10 arg11 harg11 arg12 harg12 arg13 harg13 arg14 harg14) K := by
  simp only [cc0__dgi_body_eq_skeleton]; unfold cc0__dgi_body_skel
  unfold owns
  iintro ⟨⟨%f0, %hf0, H0⟩, ⟨%f1, %hf1, H1⟩, ⟨%f4, %hf4, H4⟩, ⟨%f2, %hf2, H2⟩, ⟨%f3, %hf3, H3⟩, ⟨%fs0, %hfs0, HS0⟩, ⟨%fs1, %hfs1, HS1⟩, ⟨%fs2, %hfs2, HS2⟩, ⟨%d7, %f7, -, H7⟩, ⟨%d8, %f8, -, H8⟩, Hk⟩
  obtain rfl := harg2.eq_unread hf0; obtain rfl := harg3.eq_unread hf1; obtain rfl := harg6.eq_unread hf4
  obtain rfl := harg4.eq_unread hf2; obtain rfl := harg5.eq_unread hf3
  obtain rfl := harg12.eq_unread hfs0; obtain rfl := harg13.eq_unread hfs1; obtain rfl := harg14.eq_unread hfs2
  sl_exec (disch := first | exact h1 | exact h2 | exact h3 | exact h4 | exact h5 | exact h6)
  sl_step
  sl_unfold_run_names
  simp only [View.readAt_eq_ld, harg2.read_unread, harg3.read_unread, harg4.read_unread, harg5.read_unread, harg6.read_unread, harg7.read_unread, harg8.read_unread, harg12.read_unread, harg13.read_unread, harg14.read_unread, View.ld_unit_zero (S := S1024x256) hz2, View.ld_unit_zero (S := S2048x1024) hz2, View.ld_unit_zero (S := S256x512) hz2, View.ld_unit_zero (S := S1x512) hz2, View.ld_unit_zero (S := S512x512) hz2, View.ld_unit_zero (S := S2048x512) hz2, View.ld_unit_zero (S := S8x512) hz2]
  have hcov := Cert.Staged.readCov_chunk (Val := Elt F) (e := .bf16) arg12.view (rowOff i) (off1_eq i) (off2_eq i) (off3_eq i)
    (k0_off1_inb i h1) (k0_off2_inb i h1) (k0_off3_inb i) (k0_pay1 x0) (k0_pay2 x1)
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg6.read_unread _
    iexact H4
  isplitl [H2]
  · iexists _; isplitr; · ipureintro; exact harg4.read_unread _
    iexact H2
  isplitl [H3]
  · iexists _; isplitr; · ipureintro; exact harg5.read_unread _
    iexact H3
  isplitl [HS0]
  · iexists _
    isplitl [HS0]
    · iexists _; isplitr
      swap; · iexact HS0
      ipureintro; rfl
    ipureintro
    exact ⟨Cert.Staged.read_chunk arg12.view _ (rowOff i) (off1_eq i) (off2_eq i) (off3_eq i) _ _ _ _ _,
      fun y hy => (Cert.Staged.read_outside arg12.view _ (rowOff i) (off1_eq i) (off2_eq i) _ _ _ _ y hy).trans (congrFun (harg12.read_unread xs) y)⟩
  isplitl [HS1]
  · iexists _; isplitr
    swap; · iexact HS1
    ipureintro
    exact (read_whole_store arg13 _ hz2 _ _).trans (congrArg (fun b => k0_pay6 av b ts) hcov)
  isplitl [HS2]
  · iexists _; isplitr
    swap; · iexact HS2
    ipureintro
    exact (read_whole_store arg14 _ hz2 _ _).trans
      ((congrArg (fun t => k0_pay9 t wv bv cs) (View.readCov_unit_zero (S := S2048x512) arg13.view hz2 _ _)).trans
        (congrArg (fun b => k0_pay9 (k0_pay6 av b ts) wv bv cs) hcov))
  isplitl [H7]
  · iexists _; isplitr
    swap; · iexact H7
    ipureintro
    exact (read_whole_store arg9 _ hz2 _ _).trans
      ((congrArg (fun t => k0_pay7 t wv bv) (View.readCov_unit_zero (S := S2048x512) arg13.view hz2 _ _)).trans
        (congrArg (fun b => k0_pay7 (k0_pay6 av b ts) wv bv) hcov))
  iexists _; isplitr
  swap; · iexact H8
  ipureintro
  exact (read_whole_store arg10 _ hz2 _ _).trans
    ((congrArg (fun t => k0_pay8 t wv bv) (View.readCov_unit_zero (S := S2048x512) arg13.view hz2 _ _)).trans
      (congrArg (fun b => k0_pay8 (k0_pay6 av b ts) wv bv) hcov))

end Cert.KernelIdeal.Body
end
-- ==== Proof.KRunD.lean ====
import proofs.«126669_g2000106255353042_pallasbulk_995_17_alg».proof.Proof.KCommon

set_option maxRecDepth 16384

noncomputable section

namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

set_option maxHeartbeats 4000000 in
/-- The body at the first chunk of the second band: the staged table is only read; the accumulator starts at the chunk's product. -/
theorem runD (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2048x1024 .bf16) (harg6 : arg6.IsWhole) (arg7 : Memref sig .tc .vmem S512x512 .f32) (harg7 : arg7.IsWhole) (arg8 : Memref sig .tc .vmem S1x512 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S1x512 .f32) (harg11 : arg11.IsWhole) (arg12 : Memref sig .tc .vmem S4096x512 .bf16) (harg12 : arg12.IsWhole) (arg13 : Memref sig .tc .vmem S2048x512 .f32) (harg13 : arg13.IsWhole) (arg14 : Memref sig .tc .vmem S8x512 .f32) (harg14 : arg14.IsWhole)
    (h1 : ¬c1 i) (h2 : ¬c2 i) (h3 : c3 i) (h4 : ¬c4 i) (h5 : ¬c5 i) (h6 : ¬c6 i)
    (av : Vec F S2048x1024 .bf16) (xs : S4096x512.Idx → Elt F .bf16) (blk : S1024x512.Idx → Elt F .bf16) (hblk : chunkAt i xs = blk)
    (E : Set ℕ) (K : PUnit → sProp 𝕄) :
    iprop(owns (c : Thread nD τ) arg6 fullShare av
        ∗ owns (c : Thread nD τ) arg12 fullShare xs
        ∗ (∃ d, owns (c : Thread nD τ) arg13 fullShare d)
        ∗ (iprop(owns (c : Thread nD τ) arg6 fullShare av
            ∗ owns (c : Thread nD τ) arg12 fullShare xs
            ∗ owns (c : Thread nD τ) arg13 fullShare (k0_pay5 av blk)) -∗ K ⟨⟩))
      ⊢ wp frame (wpE (defs₀ (F := F)) Variants.none c none) E (cc0__dgi_body i arg2 harg2 arg3 harg3 arg4 harg4 arg5 harg5 arg6 harg6 arg7 harg7 arg8 harg8 arg9 harg9 arg10 harg10 arg11 harg11 arg12 harg12 arg13 harg13 arg14 harg14) K := by
  simp only [cc0__dgi_body_eq_skeleton]; unfold cc0__dgi_body_skel
  unfold owns
  iintro ⟨⟨%f4, %hf4, H4⟩, ⟨%fs0, %hfs0, HS0⟩, ⟨%ds1, %fs1, -, HS1⟩, Hk⟩
  obtain rfl := harg6.eq_unread hf4
  obtain rfl := harg12.eq_unread hfs0
  sl_exec (disch := first | exact h1 | exact h2 | exact h3 | exact h4 | exact h5 | exact h6)
  sl_step
  sl_unfold_run_names
  simp only [View.readAt_eq_ld, harg2.read_unread, harg3.read_unread, harg4.read_unread, harg5.read_unread, harg6.read_unread, harg7.read_unread, harg8.read_unread, harg12.read_unread, harg13.read_unread, harg14.read_unread, View.ld_unit_zero (S := S1024x256) hz2, View.ld_unit_zero (S := S2048x1024) hz2, View.ld_unit_zero (S := S256x512) hz2, View.ld_unit_zero (S := S1x512) hz2, View.ld_unit_zero (S := S512x512) hz2, View.ld_unit_zero (S := S2048x512) hz2, View.ld_unit_zero (S := S8x512) hz2]
  iapply Hk
  isplitl [H4]
  · iexists _; isplitr; · ipureintro; exact harg6.read_unread _
    iexact H4
  isplitl [HS0]
  · iexists _; isplitr; · ipureintro; exact harg12.read_unread _
    iexact HS0
  iexists _; isplitr
  swap; · iexact HS1
  ipureintro
  exact (read_whole_store arg13 _ hz2 _ _).trans (congrArg (k0_pay5 av) hblk)

end Cert.KernelIdeal.Body
end
-- ==== Proof.KRunE.lean ====
import proofs.«126669_g2000106255353042_pallasbulk_995_17_alg».proof.Proof.KCommon

set_option maxRecDepth 16384

noncomputable section

namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

set_option maxHeartbeats 4000000 in
/-- The body at a later chunk of the second band that is not the last: the chunk's product is added to the accumulator. -/
theorem runE (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2048x1024 .bf16) (harg6 : arg6.IsWhole) (arg7 : Memref sig .tc .vmem S512x512 .f32) (harg7 : arg7.IsWhole) (arg8 : Memref sig .tc .vmem S1x512 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S1x512 .f32) (harg11 : arg11.IsWhole) (arg12 : Memref sig .tc .vmem S4096x512 .bf16) (harg12 : arg12.IsWhole) (arg13 : Memref sig .tc .vmem S2048x512 .f32) (harg13 : arg13.IsWhole) (arg14 : Memref sig .tc .vmem S8x512 .f32) (harg14 : arg14.IsWhole)
    (h1 : ¬c1 i) (h2 : ¬c2 i) (h3 : ¬c3 i) (h4 : c4 i) (h5 : ¬c5 i) (h6 : ¬c6 i)
    (av : Vec F S2048x1024 .bf16) (xs : S4096x512.Idx → Elt F .bf16) (blk : S1024x512.Idx → Elt F .bf16) (hblk : chunkAt i xs = blk) (ts : Vec F S2048x512 .f32)
    (E : Set ℕ) (K : PUnit → sProp 𝕄) :
    iprop(owns (c : Thread nD τ) arg6 fullShare av
        ∗ owns (c : Thread nD τ) arg12 fullShare xs
        ∗ owns (c : Thread nD τ) arg13 fullShare ts
        ∗ (iprop(owns (c : Thread nD τ) arg6 fullShare av
            ∗ owns (c : Thread nD τ) arg12 fullShare xs
            ∗ owns (c : Thread nD τ) arg13 fullShare (k0_pay6 av blk ts)) -∗ K ⟨⟩))
      ⊢ wp frame (wpE (defs₀ (F := F)) Variants.none c none) E (cc0__dgi_body i arg2 harg2 arg3 harg3 arg4 harg4 arg5 harg5 arg6 harg6 arg7 harg7 arg8 harg8 arg9 harg9 arg10 harg10 arg11 harg11 arg12 harg12 arg13 harg13 arg14 harg14) K := by
  simp only [cc0__dgi_body_eq_skeleton]; unfold cc0__dgi_body_skel
  unfold owns
  iintro ⟨⟨%f4, %hf4, H4⟩, ⟨%fs0, %hfs0, HS0⟩, ⟨%fs1, %hfs1, HS1⟩, Hk⟩
  obtain rfl := harg6.eq_unread hf4
  obtain rfl := harg12.eq_unread hfs0
  obtain rfl := harg13.eq_unread hfs1
  sl_exec (disch := first | exact h1 | exact h2 | exact h3 | exact h4 | exact h5 | exact h6)
  sl_step
  sl_unfold_run_names
  simp only [View.readAt_eq_ld, harg2.read_unread, harg3.read_unread, harg4.read_unread, harg5.read_unread, harg6.read_unread, harg7.read_unread, harg8.read_unread, harg12.read_unread, harg13.read_unread, harg14.read_unread, View.ld_unit_zero (S := S1024x256) hz2, View.ld_unit_zero (S := S2048x1024) hz2, View.ld_unit_zero (S := S256x512) hz2, View.ld_unit_zero (S := S1x512) hz2, View.ld_unit_zero (S := S512x512) hz2, View.ld_unit_zero (S := S2048x512) hz2, View.ld_unit_zero (S := S8x512) hz2]
  iapply Hk
  isplitl [H4]
  · iexists _; isplitr; · ipureintro; exact harg6.read_unread _
    iexact H4
  isplitl [HS0]
  · iexists _; isplitr; · ipureintro; exact harg12.read_unread _
    iexact HS0
  iexists _; isplitr
  swap; · iexact HS1
  ipureintro
  exact (read_whole_store arg13 _ hz2 _ _).trans (congrArg (fun b => k0_pay6 av b ts) hblk)

end Cert.KernelIdeal.Body
end
-- ==== Proof.KRunF.lean ====
import proofs.«126669_g2000106255353042_pallasbulk_995_17_alg».proof.Proof.KCommon

set_option maxRecDepth 16384

noncomputable section

namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

set_option maxHeartbeats 4000000 in
/-- The body at the last point: it completes the second band's accumulator, encodes the band, completes the column sums and reads the summary out into the third result window. -/
theorem runF (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S2048x1024 .bf16) (harg6 : arg6.IsWhole) (arg7 : Memref sig .tc .vmem S512x512 .f32) (harg7 : arg7.IsWhole) (arg8 : Memref sig .tc .vmem S1x512 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S1x512 .f32) (harg11 : arg11.IsWhole) (arg12 : Memref sig .tc .vmem S4096x512 .bf16) (harg12 : arg12.IsWhole) (arg13 : Memref sig .tc .vmem S2048x512 .f32) (harg13 : arg13.IsWhole) (arg14 : Memref sig .tc .vmem S8x512 .f32) (harg14 : arg14.IsWhole)
    (h1 : ¬c1 i) (h2 : ¬c2 i) (h3 : ¬c3 i) (h4 : c4 i) (h5 : c5 i) (h6 : c6 i)
    (av : Vec F S2048x1024 .bf16) (xs : S4096x512.Idx → Elt F .bf16) (blk : S1024x512.Idx → Elt F .bf16) (hblk : chunkAt i xs = blk) (ts : Vec F S2048x512 .f32) (cs : Vec F S8x512 .f32) (wv : Vec F S256x512 .f32) (bv : Vec F S1x512 .f32) (wpv : Vec F S512x512 .f32) (bpv : Vec F S1x512 .f32)
    (E : Set ℕ) (K : PUnit → sProp 𝕄) :
    iprop(owns (c : Thread nD τ) arg6 fullShare av
        ∗ owns (c : Thread nD τ) arg4 fullShare wv
        ∗ owns (c : Thread nD τ) arg5 fullShare bv
        ∗ owns (c : Thread nD τ) arg7 fullShare wpv
        ∗ owns (c : Thread nD τ) arg8 fullShare bpv
        ∗ owns (c : Thread nD τ) arg12 fullShare xs
        ∗ owns (c : Thread nD τ) arg13 fullShare ts
        ∗ owns (c : Thread nD τ) arg14 fullShare cs
        ∗ (∃ d, owns (c : Thread nD τ) arg9 fullShare d)
        ∗ (∃ d, owns (c : Thread nD τ) arg10 fullShare d)
        ∗ (∃ d, owns (c : Thread nD τ) arg11 fullShare d)
        ∗ (iprop(owns (c : Thread nD τ) arg6 fullShare av
            ∗ owns (c : Thread nD τ) arg4 fullShare wv
            ∗ owns (c : Thread nD τ) arg5 fullShare bv
            ∗ owns (c : Thread nD τ) arg7 fullShare wpv
            ∗ owns (c : Thread nD τ) arg8 fullShare bpv
            ∗ owns (c : Thread nD τ) arg12 fullShare xs
            ∗ owns (c : Thread nD τ) arg13 fullShare (k0_pay6 av blk ts)
            ∗ owns (c : Thread nD τ) arg14 fullShare (k0_pay9 (k0_pay6 av blk ts) wv bv cs)
            ∗ owns (c : Thread nD τ) arg9 fullShare (k0_pay7 (k0_pay6 av blk ts) wv bv)
            ∗ owns (c : Thread nD τ) arg10 fullShare (k0_pay8 (k0_pay6 av blk ts) wv bv)
            ∗ owns (c : Thread nD τ) arg11 fullShare (k0_pay10 (k0_pay9 (k0_pay6 av blk ts) wv bv cs) bpv wpv)) -∗ K ⟨⟩))
      ⊢ wp frame (wpE (defs₀ (F := F)) Variants.none c none) E (cc0__dgi_body i arg2 harg2 arg3 harg3 arg4 harg4 arg5 harg5 arg6 harg6 arg7 harg7 arg8 harg8 arg9 harg9 arg10 harg10 arg11 harg11 arg12 harg12 arg13 harg13 arg14 harg14) K := by
  subst hblk
  simp only [cc0__dgi_body_eq_skeleton]; unfold cc0__dgi_body_skel
  unfold owns
  iintro ⟨⟨%f4, %hf4, H4⟩, ⟨%fw, %hfw, HW⟩, ⟨%fb, %hfb, HB⟩, ⟨%fwp, %hfwp, HWP⟩, ⟨%fbp, %hfbp, HBP⟩, ⟨%fs0, %hfs0, HS0⟩, ⟨%fs1, %hfs1, HS1⟩, ⟨%fs2, %hfs2, HS2⟩, ⟨%d9, %f9, -, H9⟩, ⟨%d10, %f10, -, H10⟩, ⟨%d11, %f11, -, H11⟩, Hk⟩
  obtain rfl := harg6.eq_unread hf4
  obtain rfl := harg4.eq_unread hfw
  obtain rfl := harg5.eq_unread hfb
  obtain rfl := harg7.eq_unread hfwp
  obtain rfl := harg8.eq_unread hfbp
  obtain rfl := harg12.eq_unread hfs0
  obtain rfl := harg13.eq_unread hfs1
  obtain rfl := harg14.eq_unread hfs2
  sl_exec (disch := first | exact h1 | exact h2 | exact h3 | exact h4 | exact h5 | exact h6)
  sl_step
  sl_unfold_run_names
  simp only [View.readAt_eq_ld, harg2.read_unread, harg3.read_unread, harg4.read_unread, harg5.read_unread, harg6.read_unread, harg7.read_unread, harg8.read_unread, harg12.read_unread, harg13.read_unread, harg14.read_unread, View.ld_unit_zero (S := S1024x256) hz2, View.ld_unit_zero (S := S2048x1024) hz2, View.ld_unit_zero (S := S256x512) hz2, View.ld_unit_zero (S := S1x512) hz2, View.ld_unit_zero (S := S512x512) hz2, View.ld_unit_zero (S := S2048x512) hz2, View.ld_unit_zero (S := S8x512) hz2, View.readCov_unit_zero (S := S2048x512) arg13.view hz2, View.readCov_unit_zero (S := S8x512) arg14.view hz2]
  iapply Hk
  isplitl [H4]
  · iexists _; isplitr; · ipureintro; exact harg6.read_unread _
    iexact H4
  isplitl [HW]
  · iexists _; isplitr; · ipureintro; exact harg4.read_unread _
    iexact HW
  isplitl [HB]
  · iexists _; isplitr; · ipureintro; exact harg5.read_unread _
    iexact HB
  isplitl [HWP]
  · iexists _; isplitr; · ipureintro; exact harg7.read_unread _
    iexact HWP
  isplitl [HBP]
  · iexists _; isplitr; · ipureintro; exact harg8.read_unread _
    iexact HBP
  isplitl [HS0]
  · iexists _; isplitr; · ipureintro; exact harg12.read_unread _
    iexact HS0
  isplitl [HS1]
  · iexists _; isplitr
    swap; · iexact HS1
    ipureintro
    exact read_whole_store arg13 _ hz2 _ _
  isplitl [HS2]
  · iexists _; isplitr
    swap; · iexact HS2
    ipureintro
    exact read_whole_store arg14 _ hz2 _ _
  isplitl [H9]
  · iexists _; isplitr
    swap; · iexact H9
    ipureintro
    exact read_whole_store arg9 _ hz2 _ _
  isplitl [H10]
  · iexists _; isplitr
    swap; · iexact H10
    ipureintro
    exact read_whole_store arg10 _ hz2 _ _
  iexists _; isplitr
  swap; · iexact H11
  ipureintro
  exact read_whole_store arg11 _ hz2 _ _

end Cert.KernelIdeal.Body
end
-- ==== Proof.KData.lean ====
import proofs.«126669_g2000106255353042_pallasbulk_995_17_alg».proof.Proof.KCommon
import proofs.«126669_g2000106255353042_pallasbulk_995_17_alg».proof.Proof.KRunA
import proofs.«126669_g2000106255353042_pallasbulk_995_17_alg».proof.Proof.KRunB
import proofs.«126669_g2000106255353042_pallasbulk_995_17_alg».proof.Proof.KRunC
import proofs.«126669_g2000106255353042_pallasbulk_995_17_alg».proof.Proof.KRunD
import proofs.«126669_g2000106255353042_pallasbulk_995_17_alg».proof.Proof.KRunE
import proofs.«126669_g2000106255353042_pallasbulk_995_17_alg».proof.Proof.KRunF
import Idealize.ShloMosaic.Lib.ValueIdx

set_option maxRecDepth 16384

noncomputable section

/-
  The eight grid points in order — two row bands of the adjacency, four chunks of its columns each — and what the
  kernel's three scratch buffers and three result windows hold after each: the band's accumulator restarts at a band's
  first chunk and gains one chunk's product at each later one; the column sums start at zero and gain a band's sums at
  its last chunk; the staged feature table gains one chunk per point of the first band and is only read in the second.
  From these the region's proof data, its invariant, the body's obligation at every point and the run.
-/
namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The grid point numbered `n` (taken modulo the eight points). -/
def ptOf (n : ℕ) : Fin cfg0.N := ⟨n % 8, by rw [show cfg0.N = 8 from N_0]; exact Nat.mod_lt _ (by decide)⟩
theorem ptOf_val (t : Fin cfg0.N) : ptOf t.val = t :=
  Fin.ext (Nat.mod_eq_of_lt (lt_of_lt_of_eq t.isLt (show cfg0.N = 8 from N_0)))

/-- The input windows' blocks at a point, each at its literal shape: the chunk of `x`, of the corrupted `x`, the encoder
    weights and bias, the adjacency's block, the projection and its bias. -/
abbrev XB (c : Dev nD) (t : Fin cfg0.N) : Vec F S1024x256 .f32 := iblk m c 0 t
abbrev XCB (c : Dev nD) (t : Fin cfg0.N) : Vec F S1024x256 .f32 := iblk m c 1 t
abbrev WB (c : Dev nD) (t : Fin cfg0.N) : Vec F S256x512 .f32 := iblk m c 2 t
abbrev BB (c : Dev nD) (t : Fin cfg0.N) : Vec F S1x512 .f32 := iblk m c 3 t
abbrev AB (c : Dev nD) (t : Fin cfg0.N) : Vec F S2048x1024 .bf16 := iblk m c 4 t
abbrev WPB (c : Dev nD) (t : Fin cfg0.N) : Vec F S512x512 .f32 := iblk m c 5 t
abbrev BPB (c : Dev nD) (t : Fin cfg0.N) : Vec F S1x512 .f32 := iblk m c 6 t

/-- Chunk `k` of the staged table (k < 4): what point `k` stages. -/
def XS (c : Dev nD) (k : ℕ) : S1024x512.Idx → Elt F .bf16 := stagedBlk (XB m c (ptOf k)) (XCB m c (ptOf k))

/-- The band's accumulator after point `n`. -/
def TS (c : Dev nD) : ℕ → Vec F S2048x512 .f32
  | 0 => k0_pay5 (AB m c (ptOf 0)) (XS m c 0)
  | n + 1 => if (n + 1) % 4 = 0 then k0_pay5 (AB m c (ptOf (n + 1))) (XS m c ((n + 1) % 4))
      else k0_pay6 (AB m c (ptOf (n + 1))) (XS m c ((n + 1) % 4)) (TS c n)

/-- The column sums after point `n`. -/
def CS (c : Dev nD) : ℕ → Vec F S8x512 .f32
  | 0 => k0_pay3
  | n + 1 => if (n + 1) % 4 = 3 then k0_pay9 (TS m c (n + 1)) (WB m c (ptOf (n + 1))) (BB m c (ptOf (n + 1))) (CS c n) else CS c n

/-- What the three result windows' buffers hold after point `n` where the point stores them (a band's last chunk; the
    last point): the encoded band of `x`, of the corrupted `x`, the summary. -/
def O7 (c : Dev nD) (n : ℕ) : Vec F S2048x512 .f32 := k0_pay7 (TS m c n) (WB m c (ptOf n)) (BB m c (ptOf n))
def O8 (c : Dev nD) (n : ℕ) : Vec F S2048x512 .f32 := k0_pay8 (TS m c n) (WB m c (ptOf n)) (BB m c (ptOf n))
def O9 (c : Dev nD) (n : ℕ) : Vec F S1x512 .f32 := k0_pay10 (CS m c n) (BPB m c (ptOf n)) (WPB m c (ptOf n))

/-- The region invariant before position `n`: before the first point every scratch holds anything; afterwards the staged
    table holds SOME contents whose chunks staged so far are the named blocks, the accumulator and the column sums hold
    what the point before left. -/
def PhiS (c : Dev nD) : (n : ℕ) → n ≤ cfg0.N → sProp 𝕄
  | 0, _ => Pipeline.ΦA spec0 c
  | n + 1, _ => iprop(iprop((∃ xs, owns (c : Thread nD τ) scX fullShare xs ∗ ⌜∀ k, k < 4 → k ≤ n → chunkAt (grid0.coords (ptOf k)) xs = XS m c k⌝)
      ∗ owns (c : Thread nD τ) scT fullShare (TS m c n) ∗ owns (c : Thread nD τ) scC fullShare (CS m c n)) ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => O7 m c t.val
    | ⟨8, _⟩ => O8 m c t.val
    | ⟨9, _⟩ => O9 m c t.val
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after7 (c : Dev nD) (t : Fin cfg0.N) : (dats m 0 c).after 7 t = O7 m c t.val := by dsimp only [dats]
theorem after8 (c : Dev nD) (t : Fin cfg0.N) : (dats m 0 c).after 8 t = O8 m c t.val := by dsimp only [dats]
theorem after9 (c : Dev nD) (t : Fin cfg0.N) : (dats m 0 c).after 9 t = O9 m c t.val := by dsimp only [dats]

/-! ## The proof data opened -/

/-- The invariant at a point's start, restated at the point's number. -/
theorem PhiS_castSucc (c : Dev nD) (t : Fin cfg0.N) :
    (dats m 0 c).Φ t.castSucc = PhiS m c t.val (Nat.le_of_lt t.isLt) := by
  dsimp only [dats]; simp only [Fin.coe_castSucc]

theorem PhiS_zero (c : Dev nD) (n : ℕ) (h : n ≤ cfg0.N) (hz : n = 0) : PhiS m c n h = Pipeline.ΦA spec0 c := by
  subst hz; rfl

/-- After point n: the staged table at some contents whose chunks up to n are the named blocks, the accumulator and
    the column sums at what the point left. -/
theorem PhiS_succ (c : Dev nD) (n : ℕ) (hn : n + 1 ≤ cfg0.N) :
    PhiS m c (n + 1) hn = iprop(iprop((∃ xs, owns (c : Thread nD τ) scX fullShare xs ∗ ⌜∀ k, k < 4 → k ≤ n → chunkAt (grid0.coords (ptOf k)) xs = XS m c k⌝)
      ∗ owns (c : Thread nD τ) scT fullShare (TS m c n) ∗ owns (c : Thread nD τ) scC fullShare (CS m c n)) ∗ (∃ r, prngReg c r)) := rfl

/-- Before a point that is not the first: what the point before left. -/
theorem PhiS_pos (c : Dev nD) (n : ℕ) (h : n ≤ cfg0.N) (hz : n ≠ 0) :
    PhiS m c n h = iprop(iprop((∃ xs, owns (c : Thread nD τ) scX fullShare xs ∗ ⌜∀ k, k < 4 → k ≤ n - 1 → chunkAt (grid0.coords (ptOf k)) xs = XS m c k⌝)
      ∗ owns (c : Thread nD τ) scT fullShare (TS m c (n - 1)) ∗ owns (c : Thread nD τ) scC fullShare (CS m c (n - 1))) ∗ (∃ r, prngReg c r)) := by
  cases n with
  | zero => exact absurd rfl hz
  | succ n => rfl

/-- What the body leaves in the input windows: their blocks, untouched. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The named contents at a point, by the point's case -/

/-- At a band's first chunk the accumulator restarts at the chunk's product. -/
theorem TS_first' (c : Dev nD) (n : ℕ) (h : n % 4 = 0) :
    TS m c n = k0_pay5 (AB m c (ptOf n)) (XS m c (n % 4)) := by
  cases n with
  | zero => rfl
  | succ n => exact if_pos h
theorem TS_first (c : Dev nD) (t : Fin cfg0.N) (h : t.val % 4 = 0) :
    TS m c t.val = k0_pay5 (AB m c t) (XS m c (t.val % 4)) := by
  have := TS_first' m c t.val h; rwa [ptOf_val] at this

/-- At a later chunk it gains the chunk's product. -/
theorem TS_later' (c : Dev nD) (n : ℕ) (h : ¬ n % 4 = 0) :
    TS m c n = k0_pay6 (AB m c (ptOf n)) (XS m c (n % 4)) (TS m c (n - 1)) := by
  cases n with
  | zero => exact absurd (Nat.zero_mod 4) h
  | succ n => exact if_neg h
theorem TS_later (c : Dev nD) (t : Fin cfg0.N) (h : ¬ t.val % 4 = 0) :
    TS m c t.val = k0_pay6 (AB m c t) (XS m c (t.val % 4)) (TS m c (t.val - 1)) := by
  have := TS_later' m c t.val h; rwa [ptOf_val] at this

/-- The column sums are zero after the first point, -/
theorem CS_zero (c : Dev nD) (n : ℕ) (h : n = 0) : CS m c n = k0_pay3 := by
  subst h; rfl
/-- gain a band's sums at its last chunk, -/
theorem CS_last' (c : Dev nD) (n : ℕ) (h : n % 4 = 3) :
    CS m c n = k0_pay9 (TS m c n) (WB m c (ptOf n)) (BB m c (ptOf n)) (CS m c (n - 1)) := by
  cases n with
  | zero => exact absurd h (by decide)
  | succ n => exact if_pos h
theorem CS_last (c : Dev nD) (t : Fin cfg0.N) (h : t.val % 4 = 3) :
    CS m c t.val = k0_pay9 (TS m c t.val) (WB m c t) (BB m c t) (CS m c (t.val - 1)) := by
  have := CS_last' m c t.val h; rwa [ptOf_val] at this
/-- and are kept elsewhere. -/
theorem CS_keep (c : Dev nD) (n : ℕ) (h0 : n ≠ 0) (h : ¬ n % 4 = 3) : CS m c n = CS m c (n - 1) := by
  cases n with
  | zero => exact absurd rfl h0
  | succ n => exact if_neg h

/-- The result windows' named contents at a point, over the point's own blocks. -/
theorem O7_at (c : Dev nD) (t : Fin cfg0.N) : O7 m c t.val = k0_pay7 (TS m c t.val) (WB m c t) (BB m c t) := by
  unfold O7; rw [ptOf_val]
theorem O8_at (c : Dev nD) (t : Fin cfg0.N) : O8 m c t.val = k0_pay8 (TS m c t.val) (WB m c t) (BB m c t) := by
  unfold O8; rw [ptOf_val]
theorem O9_at (c : Dev nD) (t : Fin cfg0.N) : O9 m c t.val = k0_pay10 (CS m c t.val) (BPB m c t) (WPB m c t) := by
  unfold O9; rw [ptOf_val]

/-- The chunk a point of the first band stages. -/
theorem XS_at (c : Dev nD) (t : Fin cfg0.N) : XS m c t.val = stagedBlk (XB m c t) (XCB m c t) := by
  unfold XS; rw [ptOf_val]

/-! ## The staged table's chunks -/

/-- Two points whose chunks start at the same row read the same chunk of a table. -/
theorem chunkAt_congr (i i' : grid0.Coords) (h : rowOff i = rowOff i') (xs : S4096x512.Idx → Elt F .bf16) :
    chunkAt i xs = chunkAt i' xs := by
  funext j
  show xs _ = xs _
  refine congrArg xs ?_
  funext a
  apply Fin.ext
  show k0_off3 i a + 1 * (j a).val = k0_off3 i' a + 1 * (j a).val
  rw [off3_eq, off3_eq, h]

/-- A staging step leaves every chunk that starts 1024 rows or more away as it was. -/
theorem chunkAt_step (i i' : grid0.Coords) (xs xs' : S4096x512.Idx → Elt F .bf16) (b : S1024x512.Idx → Elt F .bf16)
    (hs : StagedStep i xs xs' b) (hd : rowOff i' + 1024 ≤ rowOff i ∨ rowOff i + 1024 ≤ rowOff i') :
    chunkAt i' xs' = chunkAt i' xs := by
  funext j
  refine hs.2 _ ?_
  show k0_off3 i' 0 + 1 * (j 0).val < rowOff i ∨ rowOff i + 1024 ≤ k0_off3 i' 0 + 1 * (j 0).val
  have hj : (j 0).val < 1024 := Idealize.ShloMosaic.ValueIdx.idx2_lt0 j
  rw [off3_eq]
  show rowOff i' + 1 * (j 0).val < rowOff i ∨ rowOff i + 1024 ≤ rowOff i' + 1 * (j 0).val
  omega

/-- The row at which chunk k of the table starts. -/
theorem rowOff_ptOf (k : ℕ) (hk : k < 4) : rowOff (grid0.coords (ptOf k)) = 1024 * k := by
  rw [rowOff_at]
  show 1024 * (k % 8 % 4) = 1024 * k
  omega

/-- Staging at a point of the first band extends the chunks known so far by the point's own. -/
theorem staged_next (c : Dev nD) (t : Fin cfg0.N) (ht : t.val < 4) (xs xs' : S4096x512.Idx → Elt F .bf16)
    (hinv : ∀ k, k < 4 → k < t.val → chunkAt (grid0.coords (ptOf k)) xs = XS m c k)
    (hs : StagedStep (grid0.coords t) xs xs' (stagedBlk (XB m c t) (XCB m c t))) :
    ∀ k, k < 4 → k ≤ t.val → chunkAt (grid0.coords (ptOf k)) xs' = XS m c k := by
  intro k hk hkt
  by_cases hkt' : k = t.val
  · subst hkt'
    rw [ptOf_val, XS_at]; exact hs.1
  · rw [chunkAt_step (grid0.coords t) (grid0.coords (ptOf k)) xs xs' _ hs
      (Or.inl (by rw [rowOff_ptOf k hk, rowOff_at]; omega))]
    exact hinv k hk (by omega)

/-- At a point of the second band the table's chunk at the point's rows is the block staged four points earlier. -/
theorem staged_read (c : Dev nD) (t : Fin cfg0.N) (ht : 4 ≤ t.val) (xs : S4096x512.Idx → Elt F .bf16)
    (hinv : ∀ k, k < 4 → k ≤ t.val - 1 → chunkAt (grid0.coords (ptOf k)) xs = XS m c k) :
    chunkAt (grid0.coords t) xs = XS m c (t.val % 4) := by
  rw [chunkAt_congr (grid0.coords t) (grid0.coords (ptOf (t.val % 4)))
    (by rw [rowOff_at, rowOff_ptOf _ (Nat.mod_lt _ (by decide))]) xs]
  exact hinv _ (Nat.mod_lt _ (by decide)) (by omega)

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- An input window's buffer is handed back at its block. -/
theorem leaves0 (c : Dev nD) (t : Fin cfg0.N) : (dats m 0 c).leavesExact 0 t = owns (c : Thread nD τ) (ms0 t) fullShare (XB m c t) := by
  unfold Dat.leavesExact; rw [live0 t, after0_0]
theorem leaves1 (c : Dev nD) (t : Fin cfg0.N) : (dats m 0 c).leavesExact 1 t = owns (c : Thread nD τ) (ms1 t) fullShare (XCB m c t) := by
  unfold Dat.leavesExact; rw [live1 t, after0_1]
theorem leaves2 (c : Dev nD) (t : Fin cfg0.N) : (dats m 0 c).leavesExact 2 t = owns (c : Thread nD τ) (ms2 t) fullShare (WB m c t) := by
  unfold Dat.leavesExact; rw [live2 t, after0_2]
theorem leaves3 (c : Dev nD) (t : Fin cfg0.N) : (dats m 0 c).leavesExact 3 t = owns (c : Thread nD τ) (ms3 t) fullShare (BB m c t) := by
  unfold Dat.leavesExact; rw [live3 t, after0_3]
theorem leaves4 (c : Dev nD) (t : Fin cfg0.N) : (dats m 0 c).leavesExact 4 t = owns (c : Thread nD τ) (ms4 t) fullShare (AB m c t) := by
  unfold Dat.leavesExact; rw [live4 t, after0_4]
theorem leaves5 (c : Dev nD) (t : Fin cfg0.N) : (dats m 0 c).leavesExact 5 t = owns (c : Thread nD τ) (ms5 t) fullShare (WPB m c t) := by
  unfold Dat.leavesExact; rw [live5 t, after0_5]
theorem leaves6 (c : Dev nD) (t : Fin cfg0.N) : (dats m 0 c).leavesExact 6 t = owns (c : Thread nD τ) (ms6 t) fullShare (BPB m c t) := by
  unfold Dat.leavesExact; rw [live6 t, after0_6]
/-- A result window's buffer is handed back at the named contents where the point stores it, -/
theorem leaves7_live (c : Dev nD) (t : Fin cfg0.N) (h : t.val % 4 = 3) :
    (dats m 0 c).leavesExact 7 t = owns (c : Thread nD τ) (ms7 t) fullShare (k0_pay7 (TS m c t.val) (WB m c t) (BB m c t)) := by
  unfold Dat.leavesExact; rw [live7 t h, after7, O7_at]
theorem leaves8_live (c : Dev nD) (t : Fin cfg0.N) (h : t.val % 4 = 3) :
    (dats m 0 c).leavesExact 8 t = owns (c : Thread nD τ) (ms8 t) fullShare (k0_pay8 (TS m c t.val) (WB m c t) (BB m c t)) := by
  unfold Dat.leavesExact; rw [live8 t h, after8, O8_at]
theorem leaves9_live (c : Dev nD) (t : Fin cfg0.N) (h : t.val = 7) :
    (dats m 0 c).leavesExact 9 t = owns (c : Thread nD τ) (ms9 t) fullShare (k0_pay10 (CS m c t.val) (BPB m c t) (WPB m c t)) := by
  unfold Dat.leavesExact; rw [live9 t h, after9, O9_at]
/-- and at what it held elsewhere. -/
theorem leaves7_idle (c : Dev nD) (t : Fin cfg0.N) (h : ¬ t.val % 4 = 3) :
    (dats m 0 c).leavesExact 7 t = iprop(∃ d, owns (c : Thread nD τ) (ms7 t) fullShare ((dats m 0 c).before 7 t d)) :=
  Dat.leavesExact_idle (dats m 0 c) 7 t (idle7 t h) (noFlush7 t h)
theorem leaves8_idle (c : Dev nD) (t : Fin cfg0.N) (h : ¬ t.val % 4 = 3) :
    (dats m 0 c).leavesExact 8 t = iprop(∃ d, owns (c : Thread nD τ) (ms8 t) fullShare ((dats m 0 c).before 8 t d)) :=
  Dat.leavesExact_idle (dats m 0 c) 8 t (idle8 t h) (noFlush8 t h)
theorem leaves9_idle (c : Dev nD) (t : Fin cfg0.N) (h : ¬ t.val = 7) :
    (dats m 0 c).leavesExact 9 t = iprop(∃ d, owns (c : Thread nD τ) (ms9 t) fullShare ((dats m 0 c).before 9 t d)) :=
  Dat.leavesExact_idle (dats m 0 c) 9 t (idle9 t h) (noFlush9 t h)

set_option maxHeartbeats 4800000 in
/-- The first point: the scratch buffers hold anything; the body stages chunk 0, zeroes the column sums and starts the
    accumulator. -/
theorem sound_A (c : Dev nD) (t : Fin cfg0.N) (h0 : t.val = 0) :
    bodyPre m c t ⊢ wp frame (wpE (defs₀ (F := F)) Variants.none c none) Set.univ (bodyAt0 t) (fun _ => bodyPost m c t) := by
  have e4 : t.val % 4 = 0 := by omega
  have n3 : ¬ t.val % 4 = 3 := by omega
  have n7 : ¬ t.val = 7 := by omega
  have hx : XS m c (t.val % 4) = stagedBlk (XB m c t) (XCB m c t) := by
    rw [Nat.mod_eq_of_lt (by omega : t.val < 4), XS_at]
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7_idle m c t n3, leaves8_idle m c t n3, leaves9_idle m c t n7]
  rw [PhiS_castSucc m c t, PhiS_zero m c _ _ h0, PhiA_eq]
  rw [TS_first m c t e4, CS_zero m c _ h0, hx]
  iintro ⟨⟨⟨⟨%dx, HX⟩, HT, HC⟩, Hg⟩, Ho, ⟨%d0, H0⟩, ⟨%d1, H1⟩, ⟨%d2, H2⟩, ⟨%d3, H3⟩, ⟨%d4, H4⟩, ⟨%d5, H5⟩, ⟨%d6, H6⟩, H7, H8, H9⟩
  iapply (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scX (Memref.isWhole_whole _) scT (Memref.isWhole_whole _) scC (Memref.isWhole_whole _)
    ((hc1 t).mpr (by omega)) ((hc2 t).mpr h0) ((hc3 t).mpr e4) (fun h => (hc4 t).mp h e4) (fun h => n3 ((hc5 t).mp h)) (fun h => n7 ((hc6 t).mp h))
    (XB m c t) (XCB m c t) (AB m c t) dx Set.univ _)
  isplitl [H0]; · iexact H0
  isplitl [H1]; · iexact H1
  isplitl [H4]; · iexact H4
  isplitl [HX]; · iexact HX
  isplitl [HT]; · iexact HT
  isplitl [HC]; · iexact HC
  iintro ⟨H0, H1, H4, ⟨%xs', HX, %hs⟩, HT, HC⟩
  isplitl [HX HT HC Hg]
  · isplitr [Hg]
    · isplitl [HX]
      · iexists xs'
        isplitl [HX]; · iexact HX
        ipureintro
        exact staged_next m c t (by omega) dx xs' (fun k _ hk => absurd hk (by omega)) hs
      isplitl [HT]; · iexact HT
      iexact HC
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 4800000 in
/-- A later chunk of the first band that is not its last: the body stages the chunk and adds its product. -/
theorem sound_B (c : Dev nD) (t : Fin cfg0.N) (hlo : t.val ≠ 0) (hhi : t.val < 3) :
    bodyPre m c t ⊢ wp frame (wpE (defs₀ (F := F)) Variants.none c none) Set.univ (bodyAt0 t) (fun _ => bodyPost m c t) := by
  have e4 : ¬ t.val % 4 = 0 := by omega
  have n3 : ¬ t.val % 4 = 3 := by omega
  have n7 : ¬ t.val = 7 := by omega
  have hx : XS m c (t.val % 4) = stagedBlk (XB m c t) (XCB m c t) := by
    rw [Nat.mod_eq_of_lt (by omega : t.val < 4), XS_at]
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7_idle m c t n3, leaves8_idle m c t n3, leaves9_idle m c t n7]
  rw [PhiS_castSucc m c t, PhiS_pos m c _ _ hlo]
  rw [TS_later m c t e4, CS_keep m c _ hlo n3, hx]
  iintro ⟨⟨⟨⟨%xs, HX, %hinv⟩, HT, HC⟩, Hg⟩, Ho, ⟨%d0, H0⟩, ⟨%d1, H1⟩, ⟨%d2, H2⟩, ⟨%d3, H3⟩, ⟨%d4, H4⟩, ⟨%d5, H5⟩, ⟨%d6, H6⟩, H7, H8, H9⟩
  iapply (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scX (Memref.isWhole_whole _) scT (Memref.isWhole_whole _) scC (Memref.isWhole_whole _)
    ((hc1 t).mpr (by omega)) (fun h => hlo ((hc2 t).mp h)) (fun h => e4 ((hc3 t).mp h)) ((hc4 t).mpr e4) (fun h => n3 ((hc5 t).mp h)) (fun h => n7 ((hc6 t).mp h))
    (XB m c t) (XCB m c t) (AB m c t) xs (TS m c (t.val - 1)) Set.univ _)
  isplitl [H0]; · iexact H0
  isplitl [H1]; · iexact H1
  isplitl [H4]; · iexact H4
  isplitl [HX]; · iexact HX
  isplitl [HT]; · iexact HT
  iintro ⟨H0, H1, H4, ⟨%xs', HX, %hs⟩, HT⟩
  isplitl [HX HT HC Hg]
  · isplitr [Hg]
    · isplitl [HX]
      · iexists xs'
        isplitl [HX]; · iexact HX
        ipureintro
        exact staged_next m c t (by omega) xs xs' (fun k hk hlt => hinv k hk (by omega)) hs
      isplitl [HT]; · iexact HT
      iexact HC
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 4800000 in
/-- The last chunk of the first band: the body stages the chunk, completes the accumulator, encodes the band into the
    two result windows and adds the band's column sums. -/
theorem sound_C (c : Dev nD) (t : Fin cfg0.N) (h3 : t.val = 3) :
    bodyPre m c t ⊢ wp frame (wpE (defs₀ (F := F)) Variants.none c none) Set.univ (bodyAt0 t) (fun _ => bodyPost m c t) := by
  have hlo : t.val ≠ 0 := by omega
  have e4 : ¬ t.val % 4 = 0 := by omega
  have e3 : t.val % 4 = 3 := by omega
  have n7 : ¬ t.val = 7 := by omega
  have hx : XS m c (t.val % 4) = stagedBlk (XB m c t) (XCB m c t) := by
    rw [Nat.mod_eq_of_lt (by omega : t.val < 4), XS_at]
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7_live m c t e3, leaves8_live m c t e3, leaves9_idle m c t n7]
  rw [PhiS_castSucc m c t, PhiS_pos m c _ _ hlo]
  rw [CS_last m c t e3, TS_later m c t e4, hx]
  iintro ⟨⟨⟨⟨%xs, HX, %hinv⟩, HT, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  iapply (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scX (Memref.isWhole_whole _) scT (Memref.isWhole_whole _) scC (Memref.isWhole_whole _)
    ((hc1 t).mpr (by omega)) (fun h => hlo ((hc2 t).mp h)) (fun h => e4 ((hc3 t).mp h)) ((hc4 t).mpr e4) ((hc5 t).mpr e3) (fun h => n7 ((hc6 t).mp h))
    (XB m c t) (XCB m c t) (AB m c t) xs (TS m c (t.val - 1)) (CS m c (t.val - 1)) (WB m c t) (BB m c t) Set.univ _)
  isplitl [H0]; · iexact H0
  isplitl [H1]; · iexact H1
  isplitl [H4]; · iexact H4
  isplitl [H2]; · iexact H2
  isplitl [H3]; · iexact H3
  isplitl [HX]; · iexact HX
  isplitl [HT]; · iexact HT
  isplitl [HC]; · iexact HC
  isplitl [H7]; · iexists _; iexact H7
  isplitl [H8]; · iexists _; iexact H8
  iintro ⟨H0, H1, H4, H2, H3, ⟨%xs', HX, %hs⟩, HT, HC, H7, H8⟩
  isplitl [HX HT HC Hg]
  · isplitr [Hg]
    · isplitl [HX]
      · iexists xs'
        isplitl [HX]; · iexact HX
        ipureintro
        exact staged_next m c t (by omega) xs xs' (fun k hk hlt => hinv k hk (by omega)) hs
      isplitl [HT]; · iexact HT
      iexact HC
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 4800000 in
/-- The first chunk of the second band: the table is only read; the accumulator restarts at the chunk's product. -/
theorem sound_D (c : Dev nD) (t : Fin cfg0.N) (h4 : t.val = 4) :
    bodyPre m c t ⊢ wp frame (wpE (defs₀ (F := F)) Variants.none c none) Set.univ (bodyAt0 t) (fun _ => bodyPost m c t) := by
  have hlo : t.val ≠ 0 := by omega
  have e4 : t.val % 4 = 0 := by omega
  have n3 : ¬ t.val % 4 = 3 := by omega
  have n7 : ¬ t.val = 7 := by omega
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7_idle m c t n3, leaves8_idle m c t n3, leaves9_idle m c t n7]
  rw [PhiS_castSucc m c t, PhiS_pos m c _ _ hlo]
  rw [TS_first m c t e4, CS_keep m c _ hlo n3]
  iintro ⟨⟨⟨⟨%xs, HX, %hinv⟩, HT, HC⟩, Hg⟩, Ho, ⟨%d0, H0⟩, ⟨%d1, H1⟩, ⟨%d2, H2⟩, ⟨%d3, H3⟩, ⟨%d4, H4⟩, ⟨%d5, H5⟩, ⟨%d6, H6⟩, H7, H8, H9⟩
  iapply (runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scX (Memref.isWhole_whole _) scT (Memref.isWhole_whole _) scC (Memref.isWhole_whole _)
    (fun h => absurd ((hc1 t).mp h) (by omega)) (fun h => hlo ((hc2 t).mp h)) ((hc3 t).mpr e4) (fun h => (hc4 t).mp h e4) (fun h => n3 ((hc5 t).mp h)) (fun h => n7 ((hc6 t).mp h))
    (AB m c t) xs (XS m c (t.val % 4)) (staged_read m c t (by omega) xs hinv) Set.univ _)
  isplitl [H4]; · iexact H4
  isplitl [HX]; · iexact HX
  isplitl [HT]; · iexists _; iexact HT
  iintro ⟨H4, HX, HT⟩
  isplitl [HX HT HC Hg]
  · isplitr [Hg]
    · isplitl [HX]
      · iexists xs
        isplitl [HX]; · iexact HX
        ipureintro
        exact fun k hk _ => hinv k hk (by omega)
      isplitl [HT]; · iexact HT
      iexact HC
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 4800000 in
/-- A later chunk of the second band that is not its last: the chunk's product is added to the accumulator. -/
theorem sound_E (c : Dev nD) (t : Fin cfg0.N) (hlo : 4 < t.val) (hhi : t.val < 7) :
    bodyPre m c t ⊢ wp frame (wpE (defs₀ (F := F)) Variants.none c none) Set.univ (bodyAt0 t) (fun _ => bodyPost m c t) := by
  have hz : t.val ≠ 0 := by omega
  have e4 : ¬ t.val % 4 = 0 := by omega
  have n3 : ¬ t.val % 4 = 3 := by omega
  have n7 : ¬ t.val = 7 := by omega
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7_idle m c t n3, leaves8_idle m c t n3, leaves9_idle m c t n7]
  rw [PhiS_castSucc m c t, PhiS_pos m c _ _ hz]
  rw [TS_later m c t e4, CS_keep m c _ hz n3]
  iintro ⟨⟨⟨⟨%xs, HX, %hinv⟩, HT, HC⟩, Hg⟩, Ho, ⟨%d0, H0⟩, ⟨%d1, H1⟩, ⟨%d2, H2⟩, ⟨%d3, H3⟩, ⟨%d4, H4⟩, ⟨%d5, H5⟩, ⟨%d6, H6⟩, H7, H8, H9⟩
  iapply (runE c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scX (Memref.isWhole_whole _) scT (Memref.isWhole_whole _) scC (Memref.isWhole_whole _)
    (fun h => absurd ((hc1 t).mp h) (by omega)) (fun h => hz ((hc2 t).mp h)) (fun h => e4 ((hc3 t).mp h)) ((hc4 t).mpr e4) (fun h => n3 ((hc5 t).mp h)) (fun h => n7 ((hc6 t).mp h))
    (AB m c t) xs (XS m c (t.val % 4)) (staged_read m c t (by omega) xs hinv) (TS m c (t.val - 1)) Set.univ _)
  isplitl [H4]; · iexact H4
  isplitl [HX]; · iexact HX
  isplitl [HT]; · iexact HT
  iintro ⟨H4, HX, HT⟩
  isplitl [HX HT HC Hg]
  · isplitr [Hg]
    · isplitl [HX]
      · iexists xs
        isplitl [HX]; · iexact HX
        ipureintro
        exact fun k hk _ => hinv k hk (by omega)
      isplitl [HT]; · iexact HT
      iexact HC
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 4800000 in
/-- The last point: the body completes the second band's accumulator, encodes the band, completes the column sums and
    reads the summary out into the third result window. -/
theorem sound_F (c : Dev nD) (t : Fin cfg0.N) (h7 : t.val = 7) :
    bodyPre m c t ⊢ wp frame (wpE (defs₀ (F := F)) Variants.none c none) Set.univ (bodyAt0 t) (fun _ => bodyPost m c t) := by
  have hz : t.val ≠ 0 := by omega
  have e4 : ¬ t.val % 4 = 0 := by omega
  have e3 : t.val % 4 = 3 := by omega
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7_live m c t e3, leaves8_live m c t e3, leaves9_live m c t h7]
  rw [PhiS_castSucc m c t, PhiS_pos m c _ _ hz]
  rw [CS_last m c t e3, TS_later m c t e4]
  iintro ⟨⟨⟨⟨%xs, HX, %hinv⟩, HT, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runF c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scX (Memref.isWhole_whole _) scT (Memref.isWhole_whole _) scC (Memref.isWhole_whole _)
    (fun h => absurd ((hc1 t).mp h) (by omega)) (fun h => hz ((hc2 t).mp h)) (fun h => e4 ((hc3 t).mp h)) ((hc4 t).mpr e4) ((hc5 t).mpr e3) ((hc6 t).mpr h7)
    (AB m c t) xs (XS m c (t.val % 4)) (staged_read m c t (by omega) xs hinv) (TS m c (t.val - 1)) (CS m c (t.val - 1)) (WB m c t) (BB m c t) (WPB m c t) (BPB m c t) Set.univ _)
  isplitl [H4]; · iexact H4
  isplitl [H2]; · iexact H2
  isplitl [H3]; · iexact H3
  isplitl [H5]; · iexact H5
  isplitl [H6]; · iexact H6
  isplitl [HX]; · iexact HX
  isplitl [HT]; · iexact HT
  isplitl [HC]; · iexact HC
  isplitl [H7]; · iexists _; iexact H7
  isplitl [H8]; · iexists _; iexact H8
  isplitl [H9]; · iexists _; iexact H9
  iintro ⟨H4, H2, H3, H5, H6, HX, HT, HC, H7, H8, H9⟩
  isplitl [HX HT HC Hg]
  · isplitr [Hg]
    · isplitl [HX]
      · iexists xs
        isplitl [HX]; · iexact HX
        ipureintro
        exact fun k hk _ => hinv k hk (by omega)
      isplitl [HT]; · iexact HT
      iexact HC
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body at any point: the point's number says which of the six control cases it is. -/
theorem sound_body (c : Dev nD) (t : Fin cfg0.N) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  by_cases h0 : t.val = 0
  · exact sound_A m c t h0
  by_cases h3 : t.val < 3
  · exact sound_B m c t h0 h3
  by_cases h3' : t.val = 3
  · exact sound_C m c t h3'
  by_cases h4 : t.val = 4
  · exact sound_D m c t h4
  by_cases h7 : t.val < 7
  · exact sound_E m c t (by omega) h7
  exact sound_F m c t (by omega)

/-- The body's obligation at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives the launch's back: the scratch buffers' named contents are forgotten. -/
theorem hout (c : Dev nD) : (dats m 0 c).Φ (Fin.last cfg0.N) ⊢ Pipeline.ΦA spec0 c := by
  have hN : cfg0.N = 8 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA_eq]
  iintro ⟨⟨⟨%xs, HX, -⟩, HT, HC⟩, Hg⟩
  isplitr [Hg]
  · isplitl [HX]; · iexists _; iexact HX
    isplitl [HT]; · iexists _; iexact HT
    iexists _; iexact HC
  iexact Hg

set_option backward.isDefEq.respectTransparency.types false in
/-- Every weakly fair execution of @main terminates without a fault, every array of the pipeline ending at what the
    proof data says. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim at any instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Body
end
-- ==== Proof.Spec.lean ====
/-
  What the two programs compute, as functions of the argument arrays over the extended reals, and why they agree.
  A graph-infomax forward pass on 4096 nodes: features `x`, `xc` (4096 × 256), a dense adjacency `a` (4096 × 4096),
  encoder weights `w` (256 × 512) and bias `b`, projection `wp` (512 × 512) and bias `bp`.
  One program propagates first and encodes second, `((a · x) · w) + b`, the adjacency's columns taken in four chunks of
  1024; the other encodes first, `b + a · (x · w)`, in two chunks of 2048. Over real entries these are one matrix, by
  associativity of the product. The summary: the sigmoid of the column means of `z` (each column sum counted eight times
  and scaled by 2⁻¹⁵ = 1 / (8 · 4096)), projected with `wp` transposed and shifted by `bp`; one program adds two half
  sums, the other eight tile sums.
-/
import Idealize.ShloMosaic.PureOps.Ideal
import Idealize.ShloMosaic.PureOps.Ideal.Laws
import Idealize.ShloMosaic.Lib.ValueIdx
import Mathlib.Data.EReal.Basic
import Mathlib.Data.EReal.Operations
import Mathlib.Algebra.BigOperators.Group.Finset.Basic
import Mathlib.Algebra.BigOperators.Fin
import Mathlib.Tactic.Ring
import Mathlib.Logic.Equiv.Fin.Basic
import Mathlib.Tactic.NormNum

noncomputable section

open scoped BigOperators

namespace Cert.Spec

open Idealize.ShloMosaic Idealize.ShloMosaic.ValueIdx

/-- A matrix of extended reals over the index type of a rank-2 shape. -/
abbrev Mat (r c : ℕ) : Type := (⟨2, ![r, c]⟩ : Shape).Idx → EReal

/-- Row `q` of the `k`-th chunk of 1024 rows. -/
def rowK (k : Fin 4) (q : Fin 1024) : Fin 4096 := ⟨1024 * k.val + q.val, by omega⟩
/-- Row `q` of the `k`-th half of 2048 rows. -/
def rowR (k : Fin 2) (q : Fin 2048) : Fin 4096 := ⟨2048 * k.val + q.val, by omega⟩
/-- Row `q` of the `i`-th tile of 512 rows. -/
def rowT (i : Fin 8) (q : Fin 512) : Fin 4096 := ⟨512 * i.val + q.val, by omega⟩

/-! ## Propagate, then encode -/

/-- One chunk's share of `(a · x) n d`. -/
def PK (x : Mat 4096 256) (a : Mat 4096 4096) (n : Fin 4096) (d : Fin 256) (k : Fin 4) : EReal :=
  ∑ q : Fin 1024, a (ix2 n (rowK k q)) * x (ix2 (rowK k q) d)
/-- `(a · x) n d`, the four chunks added in order. -/
def TK (x : Mat 4096 256) (a : Mat 4096 4096) (n : Fin 4096) (d : Fin 256) : EReal :=
  ((PK x a n d 0 + PK x a n d 1) + PK x a n d 2) + PK x a n d 3
/-- `((a · x) · w) + b`. -/
def ZK (x : Mat 4096 256) (a : Mat 4096 4096) (w : Mat 256 512) (b : Mat 1 512) : Mat 4096 512 :=
  fun y => (∑ d : Fin 256, TK x a (y 0) d * w (ix2 d (y 1))) + b (ix2 0 (y 1))

/-! ## Encode, then propagate -/

/-- `(x · w) p j`. -/
def HR (x : Mat 4096 256) (w : Mat 256 512) (p : Fin 4096) (j : Fin 512) : EReal :=
  ∑ d : Fin 256, x (ix2 p d) * w (ix2 d j)
/-- One half's share of `(a · (x · w)) n j`. -/
def QR (x : Mat 4096 256) (a : Mat 4096 4096) (w : Mat 256 512) (n : Fin 4096) (j : Fin 512) (k : Fin 2) : EReal :=
  ∑ q : Fin 2048, a (ix2 n (rowR k q)) * HR x w (rowR k q) j
/-- `b + a · (x · w)`, the bias first, then the two halves in order. -/
def ZR (x : Mat 4096 256) (a : Mat 4096 4096) (w : Mat 256 512) (b : Mat 1 512) : Mat 4096 512 :=
  fun y => (b (ix2 0 (y 1)) + QR x a w (y 0) (y 1) 0) + QR x a w (y 0) (y 1) 1

/-- The two encoded feature tables side by side: columns below 512 from `x`, the others from `xc`. -/
def Hcat (x xc : Mat 4096 256) (w : Mat 256 512) : Mat 4096 1024 :=
  fun y => if h : (y 1).val < 512 then HR x w (y 0) ⟨(y 1).val, h⟩
    else HR xc w (y 0) ⟨(y 1).val - 512, by have := idx2_lt1 y; omega⟩
/-- The two results side by side, likewise. -/
def Zall (x xc : Mat 4096 256) (a : Mat 4096 4096) (w : Mat 256 512) (b : Mat 1 512) : Mat 4096 1024 :=
  fun y => if h : (y 1).val < 512 then ZR x a w b (ix2 (y 0) (⟨(y 1).val, h⟩ : Fin 512))
    else ZR xc a w b (ix2 (y 0) (⟨(y 1).val - 512, by have := idx2_lt1 y; omega⟩ : Fin 512))

/-! ## The summary -/

/-- 2⁻¹⁵ as the program spells it. -/
def c15 : EReal := Ideal.ofBits .f32 0x38000000#32

/-- The sum of column `h` of `z` over one half of its rows. -/
def colK (z : Mat 4096 512) (i : Fin 2) (h : Fin 512) : EReal := ∑ q : Fin 2048, z (ix2 (rowR i q) h)
/-- The sigmoid of the scaled column sum, the two halves added and counted eight times. -/
def SK (z : Mat 4096 512) (h : Fin 512) : EReal :=
  Ideal.logistic ((∑ _r : Fin 8, (colK z 0 h + colK z 1 h)) * c15)
/-- `bp + s · wpᵀ`. -/
def GK (z : Mat 4096 512) (wp : Mat 512 512) (bp : Mat 1 512) : Mat 1 512 :=
  fun y => bp (ix2 0 (y 1)) + ∑ h : Fin 512, SK z h * wp (ix2 (y 1) h)

/-- The sum of column `h` of `z` over one tile of 512 rows. -/
def colR (z : Mat 4096 512) (i : Fin 8) (h : Fin 512) : EReal := ∑ q : Fin 512, z (ix2 (rowT i q) h)
/-- The tile sums, each on eight consecutive rows. -/
def Part (z : Mat 4096 512) : Mat 64 512 :=
  fun y => colR z ⟨(y 0).val / 8, by have := idx2_lt0 y; omega⟩ (y 1)
/-- The sigmoid of the scaled sum of the 64 rows of tile sums. -/
def SR (z : Mat 4096 512) (h : Fin 512) : EReal :=
  Ideal.logistic ((∑ r : Fin 64, colR z ⟨r.val / 8, by omega⟩ h) * c15)
/-- `s · wpᵀ + bp`. -/
def GR (z : Mat 4096 512) (wp : Mat 512 512) (bp : Mat 1 512) : Mat 1 512 :=
  fun y => (∑ h : Fin 512, SR z h * wp (ix2 (y 1) h)) + bp (ix2 0 (y 1))

/-! ## Sums in chunks, and real sums read in the extended reals -/

/-- A real finite sum, read in the extended reals, is the sum of the readings. -/
private theorem coe_sum {ι : Type*} (s : Finset ι) (f : ι → ℝ) :
    ((∑ i ∈ s, f i : ℝ) : EReal) = ∑ i ∈ s, (f i : EReal) := by
  classical
  refine Finset.induction_on s ?_ ?_
  · simp only [Finset.sum_empty, EReal.coe_zero]
  · intro i s hi ih
    rw [Finset.sum_insert hi, Finset.sum_insert hi, EReal.coe_add, ih]

/-- A sum over `Fin (m * n)` taken in `m` consecutive chunks of `n`. -/
private theorem sum_chunks {M : Type*} [AddCommMonoid M] {m n N : ℕ} (hN : m * n = N)
    (row : Fin m → Fin n → Fin N) (hrow : ∀ k q, (row k q).val = n * k.val + q.val) (f : Fin N → M) :
    ∑ p, f p = ∑ k, ∑ q, f (row k q) := by
  subst hN
  rw [← Equiv.sum_comp finProdFinEquiv f, Fintype.sum_prod_type]
  refine Finset.sum_congr rfl fun k _ => Finset.sum_congr rfl fun q _ => ?_
  congr 1
  apply Fin.ext
  rw [hrow, finProdFinEquiv_apply_val, add_comm]

/-- One chunk of the propagate-first order: the sum over `d` moves inside the chunk's sum. -/
private theorem chunk_K (A : Fin 4096 → ℝ) (X : Fin 4096 → Fin 256 → ℝ) (W : Fin 256 → ℝ) (r : Fin 1024 → Fin 4096) :
    ∑ d : Fin 256, (∑ q : Fin 1024, A (r q) * X (r q) d) * W d = ∑ q : Fin 1024, ∑ d : Fin 256, A (r q) * X (r q) d * W d := by
  rw [Finset.sum_comm]
  simp only [Finset.sum_mul]

/-- Propagate first, over the reals: the four chunks make up the whole double sum. -/
private theorem real_K (A : Fin 4096 → ℝ) (X : Fin 4096 → Fin 256 → ℝ) (W : Fin 256 → ℝ) :
    ∑ d : Fin 256, ((((∑ q : Fin 1024, A (rowK 0 q) * X (rowK 0 q) d) + ∑ q : Fin 1024, A (rowK 1 q) * X (rowK 1 q) d)
        + ∑ q : Fin 1024, A (rowK 2 q) * X (rowK 2 q) d) + ∑ q : Fin 1024, A (rowK 3 q) * X (rowK 3 q) d) * W d
      = ∑ p : Fin 4096, ∑ d : Fin 256, A p * X p d * W d := by
  rw [sum_chunks (by norm_num : 4 * 1024 = 4096) rowK (fun k q => rfl) (fun p => ∑ d : Fin 256, A p * X p d * W d),
    Fin.sum_univ_four]
  simp only [add_mul, Finset.sum_add_distrib, chunk_K]

/-- Encode first, over the reals: the two halves make up the same double sum. -/
private theorem real_R (A : Fin 4096 → ℝ) (X : Fin 4096 → Fin 256 → ℝ) (W : Fin 256 → ℝ) :
    (∑ q : Fin 2048, A (rowR 0 q) * ∑ d : Fin 256, X (rowR 0 q) d * W d)
        + ∑ q : Fin 2048, A (rowR 1 q) * ∑ d : Fin 256, X (rowR 1 q) d * W d
      = ∑ p : Fin 4096, ∑ d : Fin 256, A p * X p d * W d := by
  rw [sum_chunks (by norm_num : 2 * 2048 = 4096) rowR (fun k q => rfl) (fun p => ∑ d : Fin 256, A p * X p d * W d),
    Fin.sum_univ_two]
  simp only [Finset.mul_sum, mul_assoc]

/-- Two half sums counted eight times are the eight tile sums each counted eight times. -/
private theorem halves_eq_tiles {M : Type*} [AddCommMonoid M] (f : Fin 4096 → M) :
    ∑ _r : Fin 8, ((∑ q : Fin 2048, f (rowR 0 q)) + ∑ q : Fin 2048, f (rowR 1 q))
      = ∑ r : Fin 64, ∑ q : Fin 512, f (rowT ⟨r.val / 8, by omega⟩ q) := by
  have hL : (∑ q : Fin 2048, f (rowR 0 q)) + ∑ q : Fin 2048, f (rowR 1 q) = ∑ p, f p := by
    rw [sum_chunks (by norm_num : 2 * 2048 = 4096) rowR (fun k q => rfl) f, Fin.sum_univ_two]
  have hT : ∑ i : Fin 8, ∑ q : Fin 512, f (rowT i q) = ∑ p, f p :=
    (sum_chunks (by norm_num : 8 * 512 = 4096) rowT (fun k q => rfl) f).symm
  rw [hL, ← hT, sum_chunks (by norm_num : 8 * 8 = 64)
    (fun (i : Fin 8) (r' : Fin 8) => (⟨8 * i.val + r'.val, by omega⟩ : Fin 64))
    (fun k q => rfl) (fun r : Fin 64 => ∑ q : Fin 512, f (rowT ⟨r.val / 8, by omega⟩ q))]
  refine Finset.sum_comm.trans ?_
  refine Finset.sum_congr rfl fun i _ => Finset.sum_congr rfl fun r' _ => Finset.sum_congr rfl fun q _ => ?_
  congr 2
  apply Fin.ext
  show i.val = (8 * i.val + r'.val) / 8
  omega

/-! ## The two sides agree -/

/-- Over real entries of `x`, `a` and `w` the two orders of the products give one matrix. -/
theorem ZK_eq_ZR (x : Mat 4096 256) (a : Mat 4096 4096) (w : Mat 256 512) (b : Mat 1 512)
    (hx : ∀ y, ∃ r : ℝ, x y = (r : EReal)) (ha : ∀ y, ∃ r : ℝ, a y = (r : EReal)) (hw : ∀ y, ∃ r : ℝ, w y = (r : EReal)) :
    ZK x a w b = ZR x a w b := by
  choose xr hxr using hx
  choose ar har using ha
  choose wr hwr using hw
  have key : ∀ (n : Fin 4096) (j : Fin 512) (β : EReal),
      (∑ d : Fin 256, TK x a n d * w (ix2 d j)) + β = (β + QR x a w n j 0) + QR x a w n j 1 := by
    intro n j β
    have hK : ∑ d : Fin 256, TK x a n d * w (ix2 d j)
        = ((∑ p : Fin 4096, ∑ d : Fin 256, ar (ix2 n p) * xr (ix2 p d) * wr (ix2 d j) : ℝ) : EReal) := by
      rw [← real_K (fun p => ar (ix2 n p)) (fun p d => xr (ix2 p d)) (fun d => wr (ix2 d j))]
      simp only [TK, PK, hxr, har, hwr, ← EReal.coe_mul, ← EReal.coe_add, ← coe_sum]
    have hR : QR x a w n j 0 + QR x a w n j 1
        = ((∑ p : Fin 4096, ∑ d : Fin 256, ar (ix2 n p) * xr (ix2 p d) * wr (ix2 d j) : ℝ) : EReal) := by
      rw [← real_R (fun p => ar (ix2 n p)) (fun p d => xr (ix2 p d)) (fun d => wr (ix2 d j))]
      simp only [QR, HR, hxr, har, hwr, ← EReal.coe_mul, ← EReal.coe_add, ← coe_sum]
    rw [hK, add_assoc, hR, add_comm]
  funext y
  exact key (y 0) (y 1) (b (ix2 0 (y 1)))

/-- The two summaries agree for every `z`: sums of the same entries, grouped by halves or by tiles. -/
theorem GK_eq_GR (z : Mat 4096 512) (wp : Mat 512 512) (bp : Mat 1 512) : GK z wp bp = GR z wp bp := by
  funext y
  have hS : ∀ h : Fin 512, SK z h = SR z h := by
    intro h
    unfold SK SR colK colR
    rw [halves_eq_tiles (fun p => z (ix2 p h))]
  show bp (ix2 0 (y 1)) + ∑ h : Fin 512, SK z h * wp (ix2 (y 1) h)
    = (∑ h : Fin 512, SR z h * wp (ix2 (y 1) h)) + bp (ix2 0 (y 1))
  rw [add_comm]
  simp only [hS]

end Cert.Spec

end
-- ==== Proof.KBlocks.lean ====
import proofs.«126669_g2000106255353042_pallasbulk_995_17_alg».proof.Proof.KData
import proofs.«126669_g2000106255353042_pallasbulk_995_17_alg».proof.Proof.Spec
import Idealize.ShloMosaic.Lib.Pipeline.Value
import Idealize.ShloMosaic.Lib.ValueIdx

set_option maxRecDepth 16384

noncomputable section

namespace Cert.KernelIdeal.Body
open Cert.KernelIdeal Cert.KernelIdeal.Gen Cert.Spec
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-! ## The input windows' blocks at a point, entry by entry, as entries of the argument arrays

Point `t` is band `t.val / 4`, chunk `t.val % 4`: the chunk's 1024 rows of the two feature tables, the band's 2048 rows and
the chunk's 1024 columns of the adjacency, and the four parameter arrays whole. -/

/-- The printed index maps of the seven input windows, decided over the eight points: the two feature tables move by
chunk, the adjacency by band and chunk, the four parameter arrays stay at their one block. -/
theorem idxX : ∀ t : Fin cfg0.N, win0_0.index t (0 : Fin 2) = t.val % 4 ∧ win0_0.index t (1 : Fin 2) = 0 :=
  (by decide +kernel : ∀ t : Fin grid0.N, _)
theorem idxXC : ∀ t : Fin cfg0.N, win0_1.index t (0 : Fin 2) = t.val % 4 ∧ win0_1.index t (1 : Fin 2) = 0 :=
  (by decide +kernel : ∀ t : Fin grid0.N, _)
theorem idxW : ∀ t : Fin cfg0.N, win0_2.index t (0 : Fin 2) = 0 ∧ win0_2.index t (1 : Fin 2) = 0 :=
  (by decide +kernel : ∀ t : Fin grid0.N, _)
theorem idxB : ∀ t : Fin cfg0.N, win0_3.index t (0 : Fin 2) = 0 ∧ win0_3.index t (1 : Fin 2) = 0 :=
  (by decide +kernel : ∀ t : Fin grid0.N, _)
theorem idxA : ∀ t : Fin cfg0.N, win0_4.index t (0 : Fin 2) = t.val / 4 ∧ win0_4.index t (1 : Fin 2) = t.val % 4 :=
  (by decide +kernel : ∀ t : Fin grid0.N, _)
theorem idxWP : ∀ t : Fin cfg0.N, win0_5.index t (0 : Fin 2) = 0 ∧ win0_5.index t (1 : Fin 2) = 0 :=
  (by decide +kernel : ∀ t : Fin grid0.N, _)
theorem idxBP : ∀ t : Fin cfg0.N, win0_6.index t (0 : Fin 2) = 0 ∧ win0_6.index t (1 : Fin 2) = 0 :=
  (by decide +kernel : ∀ t : Fin grid0.N, _)

theorem XB_apply (c : Dev nD) (t : Fin cfg0.N) (r : Fin 1024) (d : Fin 256) :
    XB (F := Ideal) m c t (ix2 r d) = ((m ((c : Thread nD τ).loc main_arg0)) : Mat 4096 256) (ix2 (⟨1024 * (t.val % 4) + r.val, by omega⟩ : Fin 4096) d) := by
  obtain ⟨e0, e1⟩ := idxX t
  show V m c main_arg0 (((cfg0.win 0).blk t).view.emb (ix2 r d)) = V m c main_arg0 (ix2 (⟨1024 * (t.val % 4) + r.val, by omega⟩ : Fin 4096) d)
  refine congrArg (V m c main_arg0) ?_
  funext a; apply Fin.ext
  match a with
  | ⟨0, _⟩ => show win0_0.index t (0 : Fin 2) * 1024 + 1 * r.val = 1024 * (t.val % 4) + r.val; omega
  | ⟨1, _⟩ => show win0_0.index t (1 : Fin 2) * 256 + 1 * d.val = d.val; omega
theorem XCB_apply (c : Dev nD) (t : Fin cfg0.N) (r : Fin 1024) (d : Fin 256) :
    XCB (F := Ideal) m c t (ix2 r d) = ((m ((c : Thread nD τ).loc main_arg1)) : Mat 4096 256) (ix2 (⟨1024 * (t.val % 4) + r.val, by omega⟩ : Fin 4096) d) := by
  obtain ⟨e0, e1⟩ := idxXC t
  show V m c main_arg1 (((cfg0.win 1).blk t).view.emb (ix2 r d)) = V m c main_arg1 (ix2 (⟨1024 * (t.val % 4) + r.val, by omega⟩ : Fin 4096) d)
  refine congrArg (V m c main_arg1) ?_
  funext a; apply Fin.ext
  match a with
  | ⟨0, _⟩ => show win0_1.index t (0 : Fin 2) * 1024 + 1 * r.val = 1024 * (t.val % 4) + r.val; omega
  | ⟨1, _⟩ => show win0_1.index t (1 : Fin 2) * 256 + 1 * d.val = d.val; omega
theorem AB_apply (c : Dev nD) (t : Fin cfg0.N) (r : Fin 2048) (q : Fin 1024) :
    AB (F := Ideal) m c t (ix2 r q) = ((m ((c : Thread nD τ).loc main_arg2)) : Mat 4096 4096)
      (ix2 (⟨2048 * (t.val / 4) + r.val, by have := t.isLt; have hN : cfg0.N = 8 := N_0; omega⟩ : Fin 4096) (⟨1024 * (t.val % 4) + q.val, by omega⟩ : Fin 4096)) := by
  obtain ⟨e0, e1⟩ := idxA t
  show V m c main_arg2 (((cfg0.win 4).blk t).view.emb (ix2 r q)) = V m c main_arg2 (ix2 (⟨2048 * (t.val / 4) + r.val, by have := t.isLt; have hN : cfg0.N = 8 := N_0; omega⟩ : Fin 4096) (⟨1024 * (t.val % 4) + q.val, by omega⟩ : Fin 4096))
  refine congrArg (V m c main_arg2) ?_
  funext a; apply Fin.ext
  match a with
  | ⟨0, _⟩ => show win0_4.index t (0 : Fin 2) * 2048 + 1 * r.val = 2048 * (t.val / 4) + r.val; omega
  | ⟨1, _⟩ => show win0_4.index t (1 : Fin 2) * 1024 + 1 * q.val = 1024 * (t.val % 4) + q.val; omega
theorem WB_eq (c : Dev nD) (t : Fin cfg0.N) : (WB (F := Ideal) m c t : Mat 256 512) = (m ((c : Thread nD τ).loc main_arg3)) := by
  obtain ⟨e0, e1⟩ := idxW t
  funext y
  show V m c main_arg3 (((cfg0.win 2).blk t).view.emb y) = V m c main_arg3 y
  refine congrArg (V m c main_arg3) ?_
  funext a; apply Fin.ext
  match a with
  | ⟨0, _⟩ => show win0_2.index t (0 : Fin 2) * 256 + 1 * (y 0).val = (y 0).val; omega
  | ⟨1, _⟩ => show win0_2.index t (1 : Fin 2) * 512 + 1 * (y 1).val = (y 1).val; omega
theorem BB_eq (c : Dev nD) (t : Fin cfg0.N) : (BB (F := Ideal) m c t : Mat 1 512) = (m ((c : Thread nD τ).loc main_arg4)) := by
  obtain ⟨e0, e1⟩ := idxB t
  funext y
  show V m c main_arg4 (((cfg0.win 3).blk t).view.emb y) = V m c main_arg4 y
  refine congrArg (V m c main_arg4) ?_
  funext a; apply Fin.ext
  match a with
  | ⟨0, _⟩ => show win0_3.index t (0 : Fin 2) * 1 + 1 * (y 0).val = (y 0).val; omega
  | ⟨1, _⟩ => show win0_3.index t (1 : Fin 2) * 512 + 1 * (y 1).val = (y 1).val; omega
theorem WPB_eq (c : Dev nD) (t : Fin cfg0.N) : (WPB (F := Ideal) m c t : Mat 512 512) = (m ((c : Thread nD τ).loc main_arg5)) := by
  obtain ⟨e0, e1⟩ := idxWP t
  funext y
  show V m c main_arg5 (((cfg0.win 5).blk t).view.emb y) = V m c main_arg5 y
  refine congrArg (V m c main_arg5) ?_
  funext a; apply Fin.ext
  match a with
  | ⟨0, _⟩ => show win0_5.index t (0 : Fin 2) * 512 + 1 * (y 0).val = (y 0).val; omega
  | ⟨1, _⟩ => show win0_5.index t (1 : Fin 2) * 512 + 1 * (y 1).val = (y 1).val; omega
theorem BPB_eq (c : Dev nD) (t : Fin cfg0.N) : (BPB (F := Ideal) m c t : Mat 1 512) = (m ((c : Thread nD τ).loc main_arg6)) := by
  obtain ⟨e0, e1⟩ := idxBP t
  funext y
  show V m c main_arg6 (((cfg0.win 6).blk t).view.emb y) = V m c main_arg6 y
  refine congrArg (V m c main_arg6) ?_
  funext a; apply Fin.ext
  match a with
  | ⟨0, _⟩ => show win0_6.index t (0 : Fin 2) * 1 + 1 * (y 0).val = (y 0).val; omega
  | ⟨1, _⟩ => show win0_6.index t (1 : Fin 2) * 512 + 1 * (y 1).val = (y 1).val; omega

end Cert.KernelIdeal.Body
end
-- ==== Proof.KVal.lean ====
import proofs.«126669_g2000106255353042_pallasbulk_995_17_alg».proof.Proof.KBlocks
import Idealize.ShloMosaic.PureOps.Ideal.Laws
import Idealize.ShloMosaic.Lib.ValueLayout

set_option maxRecDepth 16384

noncomputable section

namespace Cert.KernelIdeal.Body
open Cert.KernelIdeal Cert.KernelIdeal.Gen Cert.Spec
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-! ## Indices -/

/-- Two rank-2 indices with equal coordinates are equal. -/
private theorem ix2_congr {n0 n1 : ℕ} {a a' : Fin n0} {b b' : Fin n1} (ha : a.val = a'.val) (hb : b.val = b'.val) :
    ix2 a b = ix2 a' b' := by
  rw [Fin.ext ha, Fin.ext hb]

/-! ## A product into a zero accumulator, entry by entry -/

/-- A rows-by-columns product into the zero accumulator reads, at `(p, q)`, the sum over the contracted coordinate. -/
private theorem matmul_plain_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val)
    (hl1 : ∀ j k, (D.lhsIdx j k 1).val = (k ⟨0, by omega⟩).val)
    (hr0 : ∀ j k, (D.rhsIdx j k 0).val = (k ⟨0, by omega⟩).val)
    (hr1 : ∀ j k, (D.rhsIdx j k 1).val = (j 1).val)
    (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  refine (Ideal.matmul_constant_zero_apply D prec lhs rhs (ix2 p q)).trans ?_
  refine (Equiv.sum_comp (contrEquiv1 D K hr hs).symm _).symm.trans ?_
  refine Finset.sum_congr rfl fun k _ => ?_
  have e1 : D.lhsIdx (ix2 p q) ((contrEquiv1 D K hr hs).symm k) = ix2 p k := by
    funext ax
    apply Fin.ext
    match ax with
    | ⟨0, _⟩ => exact hl0 _ _
    | ⟨1, _⟩ => exact (hl1 _ _).trans (contrEquiv1_symm_val D K hr hs k)
  have e2 : D.rhsIdx (ix2 p q) ((contrEquiv1 D K hr hs).symm k) = ix2 k q := by
    funext ax
    apply Fin.ext
    match ax with
    | ⟨0, _⟩ => exact (hr0 _ _).trans (contrEquiv1_symm_val D K hr hs k)
    | ⟨1, _⟩ => exact hr1 _ _
  show lhs (D.lhsIdx (ix2 p q) ((contrEquiv1 D K hr hs).symm k)) * rhs (D.rhsIdx (ix2 p q) ((contrEquiv1 D K hr hs).symm k)) = _
  rw [e1, e2]

/-- The adjacency block times a staged chunk. -/
private theorem matmul_A_apply (a : FVec Ideal S2048x1024 .bf16) (xs : FVec Ideal S1024x512 .bf16) (p : Fin 2048) (col : Fin 512) :
    FloatOps.matmul dot_S2048x1024_S1024x512_S2048x512_1_0_0_1_n_n none a xs (constant (F := Ideal) S2048x512 .f32 0x00000000#32) (ix2 p col)
      = ∑ q : Fin 1024, a (ix2 p q) * xs (ix2 q col) :=
  matmul_plain_apply (M := 2048) (K := 1024) (N := 512) dot_S2048x1024_S1024x512_S2048x512_1_0_0_1_n_n rfl rfl (fun _ _ => rfl)
    (fun j k => dot_S2048x1024_S1024x512_S2048x512_1_0_0_1_n_n.lhsIdx_val_of_single rfl j k)
    (fun j k => dot_S2048x1024_S1024x512_S2048x512_1_0_0_1_n_n.rhsIdx_val_of_single rfl j k) (fun _ _ => rfl) none a xs p col

/-- Half the accumulator's columns times the encoder weights. -/
private theorem matmul_W_apply (t : FVec Ideal S2048x256 .f32) (w : FVec Ideal S256x512 .f32) (p : Fin 2048) (j : Fin 512) :
    FloatOps.matmul dot_S2048x256_S256x512_S2048x512_1_0_0_1_n_n none t w (constant (F := Ideal) S2048x512 .f32 0x00000000#32) (ix2 p j)
      = ∑ d : Fin 256, t (ix2 p d) * w (ix2 d j) :=
  matmul_plain_apply (M := 2048) (K := 256) (N := 512) dot_S2048x256_S256x512_S2048x512_1_0_0_1_n_n rfl rfl (fun _ _ => rfl)
    (fun j k => dot_S2048x256_S256x512_S2048x512_1_0_0_1_n_n.lhsIdx_val_of_single rfl j k)
    (fun j k => dot_S2048x256_S256x512_S2048x512_1_0_0_1_n_n.rhsIdx_val_of_single rfl j k) (fun _ _ => rfl) none t w p j

/-! ## The payloads, entry by entry -/

/-- Narrowing and the cast to the same shape change nothing at the ideal values. -/
private theorem pay1_apply (v : Vec Ideal S1024x256 .f32) (y : S1024x256.Idx) : (k0_pay1 (F := Ideal) v y : EReal) = v y := by
  unfold k0_pay1
  exact congrFun (shapeCast_self _ _) y
private theorem pay2_apply (v : Vec Ideal S1024x256 .f32) (y : S1024x256.Idx) : (k0_pay2 (F := Ideal) v y : EReal) = v y := by
  unfold k0_pay2
  exact congrFun (shapeCast_self _ _) y

/-- A staged chunk's left half is the first block, -/
private theorem stagedBlk_left (x0 x1 : Vec Ideal S1024x256 .f32) (q : Fin 1024) (d : Fin 256) :
    (stagedBlk x0 x1 (ix2 q (⟨d.val, by omega⟩ : Fin 512)) : EReal) = x0 (ix2 q d) := by
  show Cert.Staged.sideBySide (Val := Elt Ideal) (e := .bf16) (k0_pay1 (F := Ideal) x0) (k0_pay2 (F := Ideal) x1) (ix2 q (⟨d.val, _⟩ : Fin 512)) = _
  unfold Cert.Staged.sideBySide
  split
  · exact pay1_apply x0 _
  · rename_i h
    exact absurd (show (ix2 q (⟨d.val, by omega⟩ : Fin 512) 1).val < 256 from d.isLt) h
/-- its right half the second. -/
private theorem stagedBlk_right (x0 x1 : Vec Ideal S1024x256 .f32) (q : Fin 1024) (d : Fin 256) :
    (stagedBlk x0 x1 (ix2 q (⟨256 + d.val, by omega⟩ : Fin 512)) : EReal) = x1 (ix2 q d) := by
  show Cert.Staged.sideBySide (Val := Elt Ideal) (e := .bf16) (k0_pay1 (F := Ideal) x0) (k0_pay2 (F := Ideal) x1) (ix2 q (⟨256 + d.val, _⟩ : Fin 512)) = _
  unfold Cert.Staged.sideBySide
  split
  · rename_i h
    exact absurd (show (256 + d.val) < 256 from h) (by omega)
  · exact (pay2_apply x1 _).trans (congrArg x1 (ix2_congr rfl (by show 256 + d.val - 256 = d.val; omega)))

/-- One chunk's product. -/
private theorem pay4_apply (a : FVec Ideal S2048x1024 .bf16) (xs : FVec Ideal S1024x512 .bf16) (p : Fin 2048) (col : Fin 512) :
    (k0_pay4 (F := Ideal) a xs (ix2 p col) : EReal) = ∑ q : Fin 1024, a (ix2 p q) * xs (ix2 q col) := by
  unfold k0_pay4
  exact matmul_A_apply a xs p col
/-- The accumulator started at a chunk's product, -/
private theorem pay5_apply (a : FVec Ideal S2048x1024 .bf16) (xs : FVec Ideal S1024x512 .bf16) (p : Fin 2048) (col : Fin 512) :
    (k0_pay5 (F := Ideal) a xs (ix2 p col) : EReal) = ∑ q : Fin 1024, a (ix2 p q) * xs (ix2 q col) := by
  unfold k0_pay5
  exact (congrFun (shapeCast_self _ _) _).trans (pay4_apply a xs p col)
/-- and with a chunk's product added. -/
private theorem pay6_apply (a : FVec Ideal S2048x1024 .bf16) (xs : FVec Ideal S1024x512 .bf16) (ts : FVec Ideal S2048x512 .f32) (p : Fin 2048) (col : Fin 512) :
    (k0_pay6 (F := Ideal) a xs ts (ix2 p col) : EReal) = ts (ix2 p col) + ∑ q : Fin 1024, a (ix2 p q) * xs (ix2 q col) := by
  unfold k0_pay6
  refine (congrFun (shapeCast_self _ _) _).trans ?_
  show ts (ix2 p col) + k0_pay4 a xs (ix2 p col) = _
  rw [pay4_apply]

/-- The encoded band: the left half of the accumulator's columns times the weights, plus the bias row. -/
private theorem pay7_apply (ts : FVec Ideal S2048x512 .f32) (w : FVec Ideal S256x512 .f32) (b : FVec Ideal S1x512 .f32) (p : Fin 2048) (j : Fin 512) :
    (k0_pay7 (F := Ideal) ts w b (ix2 p j) : EReal)
      = (∑ d : Fin 256, ts (ix2 p (⟨d.val, by omega⟩ : Fin 512)) * w (ix2 d j)) + b (ix2 (0 : Fin 1) j) := by
  show FloatOps.matmul _ none (extractStridedSlice S2048x256 ![0, 0] ts _) w (constant (F := Ideal) S2048x512 .f32 0x00000000#32) (ix2 p j)
      + broadcastTo S2048x512 b _ (ix2 p j) = _
  refine congrArg₂ (· + ·) ?_ (broadcastTo_1b_ab_apply b _ p j)
  refine (matmul_W_apply _ w p j).trans ?_
  refine Finset.sum_congr rfl fun d _ => ?_
  exact congrArg (· * w (ix2 d j)) (slice2_axis1_apply 0 ts _ p d ⟨d.val, by omega⟩ (Nat.zero_add _).symm)
/-- The same of the right half. -/
private theorem pay8_apply (ts : FVec Ideal S2048x512 .f32) (w : FVec Ideal S256x512 .f32) (b : FVec Ideal S1x512 .f32) (p : Fin 2048) (j : Fin 512) :
    (k0_pay8 (F := Ideal) ts w b (ix2 p j) : EReal)
      = (∑ d : Fin 256, ts (ix2 p (⟨256 + d.val, by omega⟩ : Fin 512)) * w (ix2 d j)) + b (ix2 (0 : Fin 1) j) := by
  show FloatOps.matmul _ none (extractStridedSlice S2048x256 ![0, 256] ts _) w (constant (F := Ideal) S2048x512 .f32 0x00000000#32) (ix2 p j)
      + broadcastTo S2048x512 b _ (ix2 p j) = _
  refine congrArg₂ (· + ·) ?_ (broadcastTo_1b_ab_apply b _ p j)
  refine (matmul_W_apply _ w p j).trans ?_
  refine Finset.sum_congr rfl fun d _ => ?_
  exact congrArg (· * w (ix2 d j)) (slice2_axis1_apply 256 ts _ p d ⟨256 + d.val, by omega⟩ rfl)

/-! ## The accumulator after a band's last chunk -/

/-- Four chunks' products added in order are one entry of `a · x`, whatever blocks carry the entries. -/
private theorem acc_entry (x : Mat 4096 256) (a : Mat 4096 4096) (r : Fin 4096) (d : Fin 256) (p : Fin 2048) (col : Fin 512)
    (A0 A1 A2 A3 : FVec Ideal S2048x1024 .bf16) (X0 X1 X2 X3 : FVec Ideal S1024x512 .bf16)
    (hA0 : ∀ q, A0 (ix2 p q) = a (ix2 r (rowK 0 q))) (hA1 : ∀ q, A1 (ix2 p q) = a (ix2 r (rowK 1 q)))
    (hA2 : ∀ q, A2 (ix2 p q) = a (ix2 r (rowK 2 q))) (hA3 : ∀ q, A3 (ix2 p q) = a (ix2 r (rowK 3 q)))
    (hX0 : ∀ q, X0 (ix2 q col) = x (ix2 (rowK 0 q) d)) (hX1 : ∀ q, X1 (ix2 q col) = x (ix2 (rowK 1 q) d))
    (hX2 : ∀ q, X2 (ix2 q col) = x (ix2 (rowK 2 q) d)) (hX3 : ∀ q, X3 (ix2 q col) = x (ix2 (rowK 3 q) d)) :
    (k0_pay6 (F := Ideal) A3 X3 (k0_pay6 (F := Ideal) A2 X2 (k0_pay6 (F := Ideal) A1 X1 (k0_pay5 (F := Ideal) A0 X0))) (ix2 p col) : EReal) = TK x a r d := by
  rw [pay6_apply, pay6_apply, pay6_apply, pay5_apply]
  unfold TK PK
  simp only [hA0, hA1, hA2, hA3, hX0, hX1, hX2, hX3]

/-- The accumulator after a band's last chunk, its four steps spelt out. -/
private theorem TS_band (c : Dev nD) (n : ℕ) (h : n % 4 = 3) :
    TS (F := Ideal) m c n = k0_pay6 (AB m c (ptOf n)) (XS m c (n % 4)) (k0_pay6 (AB m c (ptOf (n - 1))) (XS m c ((n - 1) % 4))
      (k0_pay6 (AB m c (ptOf (n - 1 - 1))) (XS m c ((n - 1 - 1) % 4)) (k0_pay5 (AB m c (ptOf (n - 1 - 1 - 1))) (XS m c ((n - 1 - 1 - 1) % 4))))) := by
  rw [TS_later' m c n (by omega), TS_later' m c (n - 1) (by omega), TS_later' m c (n - 1 - 1) (by omega),
    TS_first' m c (n - 1 - 1 - 1) (by omega)]

/-- The adjacency's block at chunk `k` of band `i`, as entries of the array. -/
private theorem AB_at (c : Dev nD) (i : Fin 2) (k : Fin 4) (n : ℕ) (h4 : n % 8 / 4 = i.val) (hk : n % 8 % 4 = k.val) (p : Fin 2048) (q : Fin 1024) :
    (AB (F := Ideal) m c (ptOf n) (ix2 p q) : EReal)
      = (m ((c : Thread nD τ).loc main_arg2) : Mat 4096 4096) (ix2 (⟨2048 * i.val + p.val, by omega⟩ : Fin 4096) (rowK k q)) :=
  (AB_apply m c (ptOf n) p q).trans (congrArg _ (ix2_congr
    (by show 2048 * (n % 8 / 4) + p.val = 2048 * i.val + p.val; rw [h4])
    (by show 1024 * (n % 8 % 4) + q.val = 1024 * k.val + q.val; rw [hk])))

/-- Chunk `k` of the staged table: its left half is the chunk of the features, -/
private theorem XS_left (c : Dev nD) (k : Fin 4) (n : ℕ) (hk : n % 8 % 4 = k.val) (q : Fin 1024) (d : Fin 256) :
    (XS (F := Ideal) m c n (ix2 q (⟨d.val, by omega⟩ : Fin 512)) : EReal)
      = (m ((c : Thread nD τ).loc main_arg0) : Mat 4096 256) (ix2 (rowK k q) d) := by
  unfold XS
  refine (stagedBlk_left _ _ q d).trans ?_
  exact (XB_apply m c (ptOf n) q d).trans (congrArg _ (ix2_congr
    (by show 1024 * (n % 8 % 4) + q.val = 1024 * k.val + q.val; rw [hk]) rfl))
/-- its right half the chunk of the corrupted features. -/
private theorem XS_right (c : Dev nD) (k : Fin 4) (n : ℕ) (hk : n % 8 % 4 = k.val) (q : Fin 1024) (d : Fin 256) :
    (XS (F := Ideal) m c n (ix2 q (⟨256 + d.val, by omega⟩ : Fin 512)) : EReal)
      = (m ((c : Thread nD τ).loc main_arg1) : Mat 4096 256) (ix2 (rowK k q) d) := by
  unfold XS
  refine (stagedBlk_right _ _ q d).trans ?_
  exact (XCB_apply m c (ptOf n) q d).trans (congrArg _ (ix2_congr
    (by show 1024 * (n % 8 % 4) + q.val = 1024 * k.val + q.val; rw [hk]) rfl))

/-- After the last chunk of band `i` the accumulator's left half holds the band's rows of `a · x`, -/
private theorem TS_entry_left (c : Dev nD) (i : Fin 2) (p : Fin 2048) (d : Fin 256) :
    (TS (F := Ideal) m c (4 * i.val + 3) (ix2 p (⟨d.val, by omega⟩ : Fin 512)) : EReal)
      = TK (m ((c : Thread nD τ).loc main_arg0)) (m ((c : Thread nD τ).loc main_arg2)) (⟨2048 * i.val + p.val, by omega⟩ : Fin 4096) d := by
  refine (congrFun (TS_band m c (4 * i.val + 3) (by omega)) _).trans ?_
  exact acc_entry _ _ _ d p _ _ _ _ _ _ _ _ _
    (fun q => AB_at m c i 0 _ (by omega) (by show _ = 0; omega) p q)
    (fun q => AB_at m c i 1 _ (by omega) (by show _ = 1; omega) p q)
    (fun q => AB_at m c i 2 _ (by omega) (by show _ = 2; omega) p q)
    (fun q => AB_at m c i 3 _ (by omega) (by show _ = 3; omega) p q)
    (fun q => XS_left m c 0 _ (by show _ = 0; omega) q d)
    (fun q => XS_left m c 1 _ (by show _ = 1; omega) q d)
    (fun q => XS_left m c 2 _ (by show _ = 2; omega) q d)
    (fun q => XS_left m c 3 _ (by show _ = 3; omega) q d)
/-- and its right half the same of the corrupted features. -/
private theorem TS_entry_right (c : Dev nD) (i : Fin 2) (p : Fin 2048) (d : Fin 256) :
    (TS (F := Ideal) m c (4 * i.val + 3) (ix2 p (⟨256 + d.val, by omega⟩ : Fin 512)) : EReal)
      = TK (m ((c : Thread nD τ).loc main_arg1)) (m ((c : Thread nD τ).loc main_arg2)) (⟨2048 * i.val + p.val, by omega⟩ : Fin 4096) d := by
  refine (congrFun (TS_band m c (4 * i.val + 3) (by omega)) _).trans ?_
  exact acc_entry _ _ _ d p _ _ _ _ _ _ _ _ _
    (fun q => AB_at m c i 0 _ (by omega) (by show _ = 0; omega) p q)
    (fun q => AB_at m c i 1 _ (by omega) (by show _ = 1; omega) p q)
    (fun q => AB_at m c i 2 _ (by omega) (by show _ = 2; omega) p q)
    (fun q => AB_at m c i 3 _ (by omega) (by show _ = 3; omega) p q)
    (fun q => XS_right m c 0 _ (by show _ = 0; omega) q d)
    (fun q => XS_right m c 1 _ (by show _ = 1; omega) q d)
    (fun q => XS_right m c 2 _ (by show _ = 2; omega) q d)
    (fun q => XS_right m c 3 _ (by show _ = 3; omega) q d)

/-! ## What the result windows hold at a band's last chunk, entry by entry -/

/-- The first result window after the last chunk of band `i`: the band's 2048 rows of `((a · x) · w) + b`. -/
theorem O7_val (c : Dev nD) (i : Fin 2) :
    (O7 (F := Ideal) m c (4 * i.val + 3) : (⟨2, ![2048, 512]⟩ : Shape).Idx → EReal)
      = fun y => (ZK (m ((c : Thread nD τ).loc main_arg0)) (m ((c : Thread nD τ).loc main_arg2)) (m ((c : Thread nD τ).loc main_arg3)) (m ((c : Thread nD τ).loc main_arg4))) (ix2 (⟨2048 * i.val + (y 0).val, by have h0 := idx2_lt0 y; omega⟩ : Fin 4096) (y 1)) := by
  funext y
  obtain ⟨p, j, rfl⟩ : ∃ (p : Fin 2048) (j : Fin 512), y = ix2 p j := ⟨y 0, y 1, eq_ix2 y⟩
  unfold O7
  refine (pay7_apply (TS m c (4 * i.val + 3)) (WB m c (ptOf (4 * i.val + 3))) (BB m c (ptOf (4 * i.val + 3))) p j).trans ?_
  show _ = (∑ d : Fin 256, TK (m ((c : Thread nD τ).loc main_arg0)) (m ((c : Thread nD τ).loc main_arg2)) (⟨2048 * i.val + p.val, _⟩ : Fin 4096) d
      * (m ((c : Thread nD τ).loc main_arg3) : Mat 256 512) (ix2 d j)) + (m ((c : Thread nD τ).loc main_arg4) : Mat 1 512) (ix2 (0 : Fin 1) j)
  refine congrArg₂ (· + ·) (Finset.sum_congr rfl fun d _ => ?_) (congrFun (BB_eq m c _) (ix2 (0 : Fin 1) j))
  exact congrArg₂ (· * ·) (TS_entry_left m c i p d) (congrFun (WB_eq m c _) (ix2 d j))
/-- The second: the same of the corrupted features. -/
theorem O8_val (c : Dev nD) (i : Fin 2) :
    (O8 (F := Ideal) m c (4 * i.val + 3) : (⟨2, ![2048, 512]⟩ : Shape).Idx → EReal)
      = fun y => (ZK (m ((c : Thread nD τ).loc main_arg1)) (m ((c : Thread nD τ).loc main_arg2)) (m ((c : Thread nD τ).loc main_arg3)) (m ((c : Thread nD τ).loc main_arg4))) (ix2 (⟨2048 * i.val + (y 0).val, by have h0 := idx2_lt0 y; omega⟩ : Fin 4096) (y 1)) := by
  funext y
  obtain ⟨p, j, rfl⟩ : ∃ (p : Fin 2048) (j : Fin 512), y = ix2 p j := ⟨y 0, y 1, eq_ix2 y⟩
  unfold O8
  refine (pay8_apply (TS m c (4 * i.val + 3)) (WB m c (ptOf (4 * i.val + 3))) (BB m c (ptOf (4 * i.val + 3))) p j).trans ?_
  show _ = (∑ d : Fin 256, TK (m ((c : Thread nD τ).loc main_arg1)) (m ((c : Thread nD τ).loc main_arg2)) (⟨2048 * i.val + p.val, _⟩ : Fin 4096) d
      * (m ((c : Thread nD τ).loc main_arg3) : Mat 256 512) (ix2 d j)) + (m ((c : Thread nD τ).loc main_arg4) : Mat 1 512) (ix2 (0 : Fin 1) j)
  refine congrArg₂ (· + ·) (Finset.sum_congr rfl fun d _ => ?_) (congrFun (BB_eq m c _) (ix2 (0 : Fin 1) j))
  exact congrArg₂ (· * ·) (TS_entry_right m c i p d) (congrFun (WB_eq m c _) (ix2 d j))
end Cert.KernelIdeal.Body
end
-- ==== Proof.KValG.lean ====
import proofs.«126669_g2000106255353042_pallasbulk_995_17_alg».proof.Proof.KVal
import Idealize.ShloMosaic.PureOps.Ideal.Laws
import Idealize.ShloMosaic.Lib.ValueLayout

set_option maxRecDepth 16384

noncomputable section

namespace Cert.KernelIdeal.Body
open Cert.KernelIdeal Cert.KernelIdeal.Gen Cert.Spec
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable (m : (ℓ : Loc nD τ sig) → Buf (Elt Ideal) ℓ)

/-! ## The projection's operand indices, axis by axis

The product contracts axis 1 of both operands: at result index `(u, j)` and contraction position `h` the left operand is
read at `(u, h)` and the right one at `(j, h)`. -/

private theorem lhs_dotG_0 (j : S1x512.Idx) (k : dot_S1x512_S512x512_S1x512_1_1_0_0_n_n.contr.Idx) :
    (dot_S1x512_S512x512_S1x512_1_1_0_0_n_n.lhsIdx j k 0).val = (j 0).val := rfl
private theorem lhs_dotG_1 (j : S1x512.Idx) (k : dot_S1x512_S512x512_S1x512_1_1_0_0_n_n.contr.Idx) :
    (dot_S1x512_S512x512_S1x512_1_1_0_0_n_n.lhsIdx j k 1).val = (k ⟨0, by decide⟩).val :=
  dot_S1x512_S512x512_S1x512_1_1_0_0_n_n.lhsIdx_val_of_single rfl j k
private theorem rhs_dotG_0 (j : S1x512.Idx) (k : dot_S1x512_S512x512_S1x512_1_1_0_0_n_n.contr.Idx) :
    (dot_S1x512_S512x512_S1x512_1_1_0_0_n_n.rhsIdx j k 0).val = (j 1).val := rfl
private theorem rhs_dotG_1 (j : S1x512.Idx) (k : dot_S1x512_S512x512_S1x512_1_1_0_0_n_n.contr.Idx) :
    (dot_S1x512_S512x512_S1x512_1_1_0_0_n_n.rhsIdx j k 1).val = (k ⟨0, by decide⟩).val :=
  dot_S1x512_S512x512_S1x512_1_1_0_0_n_n.rhsIdx_val_of_single rfl j k

/-! ## The payloads' operations at an index -/

/-- The sum over the 8 rows of the column sums, lane by lane. -/
private theorem lane_sum8 (x : FVec Ideal S8x512 .f32) (h : Fin 512) :
    multiReduction (F := Ideal) .add [0] S512 x 0x00000000#32 reduces_S8x512_S512 (.inl rfl) rfl (ix1 h)
      = ∑ r : Fin 8, x (ix2 r h) := by
  refine (Ideal.multiReduction_add_single x 0x00000000#32 reduces_S8x512_S512 (.inl rfl) rfl (ix1 h)).trans ?_
  show ∑ r : Fin 8, x (reduces_S8x512_S512.lift (ix1 h) r) = ∑ r : Fin 8, x (ix2 r h)
  refine Finset.sum_congr rfl fun r _ => congrArg x ?_
  funext a
  apply Fin.ext
  match a with
  | ⟨0, _⟩ => rfl
  | ⟨1, _⟩ => rfl

/-- The sum over a band's 2048 rows, lane by lane. -/
private theorem lane_sum2048 (x : FVec Ideal S2048x512 .f32) (h : Fin 512) :
    multiReduction (F := Ideal) .add [0] S512 x 0x00000000#32 reduces_S2048x512_S512 (.inl rfl) rfl (ix1 h)
      = ∑ q : Fin 2048, x (ix2 q h) := by
  refine (Ideal.multiReduction_add_single x 0x00000000#32 reduces_S2048x512_S512 (.inl rfl) rfl (ix1 h)).trans ?_
  show ∑ q : Fin 2048, x (reduces_S2048x512_S512.lift (ix1 h) q) = ∑ q : Fin 2048, x (ix2 q h)
  refine Finset.sum_congr rfl fun q _ => congrArg x ?_
  funext a
  apply Fin.ext
  match a with
  | ⟨0, _⟩ => rfl
  | ⟨1, _⟩ => rfl

/-- A lane vector read as one row. -/
private theorem row_of_lanes (v : FVec Ideal S512 .f32) (u : Fin 1) (h : Fin 512) :
    shapeCast S1x512 v shapeCasts_S512_S1x512 (ix2 u h) = v (ix1 h) :=
  shapeCast_a_1a_apply v shapeCasts_S512_S1x512 u h

/-- The projection into a zero accumulator, at a column: the row times the matrix transposed. -/
private theorem matmulG_at (l : FVec Ideal S1x512 .f32) (r : FVec Ideal S512x512 .f32) (u : Fin 1) (q : Fin 512) :
    matmul dot_S1x512_S512x512_S1x512_1_1_0_0_n_n none l r (constant (F := Ideal) S1x512 .f32 0x00000000#32) (ix2 u q)
      = ∑ h : Fin 512, l (ix2 u h) * r (ix2 q h) := by
  simp only [matmul]
  rw [Ideal.matmul_constant_zero_apply]
  rw [← Equiv.sum_comp (contrEquiv1 dot_S1x512_S512x512_S1x512_1_1_0_0_n_n 512 rfl rfl).symm]
  refine Finset.sum_congr rfl fun h _ => ?_
  have hk : (((contrEquiv1 dot_S1x512_S512x512_S1x512_1_1_0_0_n_n 512 rfl rfl).symm h) ⟨0, by decide⟩ : ℕ) = h.val :=
    contrEquiv1_symm_val dot_S1x512_S512x512_S1x512_1_1_0_0_n_n 512 rfl rfl h
  have el : dot_S1x512_S512x512_S1x512_1_1_0_0_n_n.lhsIdx (ix2 u q)
      ((contrEquiv1 dot_S1x512_S512x512_S1x512_1_1_0_0_n_n 512 rfl rfl).symm h) = ix2 u h := by
    funext a
    apply Fin.ext
    match a with
    | ⟨0, _⟩ => exact lhs_dotG_0 _ _
    | ⟨1, _⟩ => exact (lhs_dotG_1 _ _).trans hk
  have er : dot_S1x512_S512x512_S1x512_1_1_0_0_n_n.rhsIdx (ix2 u q)
      ((contrEquiv1 dot_S1x512_S512x512_S1x512_1_1_0_0_n_n 512 rfl rfl).symm h) = ix2 q h := by
    funext a
    apply Fin.ext
    match a with
    | ⟨0, _⟩ => exact rhs_dotG_0 _ _
    | ⟨1, _⟩ => exact (rhs_dotG_1 _ _).trans hk
  rw [el, er]

/-- The summary payload at a column: the bias plus the sigmoid of the scaled sums of the 8 rows, projected. -/
private theorem pay10_at (cs : FVec Ideal S8x512 .f32) (bp : FVec Ideal S1x512 .f32) (wp : FVec Ideal S512x512 .f32)
    (u : Fin 1) (q : Fin 512) :
    k0_pay10 (F := Ideal) cs bp wp (ix2 u q)
      = bp (ix2 u q) + ∑ h : Fin 512, Ideal.logistic ((∑ r : Fin 8, cs (ix2 r h)) * c15) * wp (ix2 q h) := by
  have e : k0_pay10 (F := Ideal) cs bp wp (ix2 u q)
      = bp (ix2 u q) + matmul dot_S1x512_S512x512_S1x512_1_1_0_0_n_n none
          (logistic (F := Ideal) (mulf (F := Ideal)
            (shapeCast S1x512 (multiReduction (F := Ideal) .add [0] S512 cs 0x00000000#32 reduces_S8x512_S512 (.inl rfl) rfl) shapeCasts_S512_S1x512)
            (broadcast S1x512 (Ideal.ofBits .f32 0x38000000#32))))
          wp (constant (F := Ideal) S1x512 .f32 0x00000000#32) (ix2 u q) := by
    unfold k0_pay10
    rfl
  rw [e, matmulG_at]
  refine congrArg (bp (ix2 u q) + ·) (Finset.sum_congr rfl fun h _ => ?_)
  refine congrArg (· * wp (ix2 q h)) ?_
  show Ideal.logistic (shapeCast S1x512 (multiReduction (F := Ideal) .add [0] S512 cs 0x00000000#32 reduces_S8x512_S512 (.inl rfl) rfl) shapeCasts_S512_S1x512 (ix2 u h) * c15) = _
  rw [row_of_lanes, lane_sum8]

/-- The column sums' update at an entry: every one of the 8 rows gains the band's column sum of the encoded rows. -/
private theorem pay9_at (ts : FVec Ideal S2048x512 .f32) (w : FVec Ideal S256x512 .f32) (b : FVec Ideal S1x512 .f32)
    (cs : FVec Ideal S8x512 .f32) (r : Fin 8) (h : Fin 512) :
    k0_pay9 (F := Ideal) ts w b cs (ix2 r h) = cs (ix2 r h) + ∑ q : Fin 2048, k0_pay7 (F := Ideal) ts w b (ix2 q h) := by
  have e : k0_pay9 (F := Ideal) ts w b cs (ix2 r h)
      = cs (ix2 r h) + broadcastTo S8x512
          (shapeCast S1x512 (multiReduction (F := Ideal) .add [0] S512 (k0_pay7 (F := Ideal) ts w b) 0x00000000#32 reduces_S2048x512_S512 (.inl rfl) rfl) shapeCasts_S512_S1x512)
          broadcasts_S1x512_S8x512 (ix2 r h) := by
    unfold k0_pay9
    simp only [shapeCast_self]
    rfl
  rw [e, broadcastTo_1b_ab_apply, row_of_lanes, lane_sum2048]

/-- The column sums start at zero. -/
private theorem pay3_at (r : Fin 8) (h : Fin 512) : k0_pay3 (F := Ideal) (ix2 r h) = 0 := by
  have e : k0_pay3 (F := Ideal) (ix2 r h) = Ideal.ofBits .f32 0x00000000#32 := by
    unfold k0_pay3
    simp only [shapeCast_self]
    rfl
  rw [e, Ideal.ofBits_zero_f32]

/-- The column sums after both bands' updates from zero: the two bands' column sums of the encoded rows, in order. -/
private theorem cs_two_bands (t3 t7 : FVec Ideal S2048x512 .f32) (w3 w7 : FVec Ideal S256x512 .f32)
    (b3 b7 : FVec Ideal S1x512 .f32) (r : Fin 8) (h : Fin 512) :
    k0_pay9 (F := Ideal) t7 w7 b7 (k0_pay9 (F := Ideal) t3 w3 b3 (k0_pay3 (F := Ideal))) (ix2 r h)
      = (∑ q : Fin 2048, k0_pay7 (F := Ideal) t3 w3 b3 (ix2 q h)) + ∑ q : Fin 2048, k0_pay7 (F := Ideal) t7 w7 b7 (ix2 q h) := by
  rw [pay9_at, pay9_at, pay3_at, zero_add]

/-- The summary payload over column sums that are the two half sums of `z`'s columns: the summary of `z`. -/
private theorem summary_at (cs : FVec Ideal S8x512 .f32) (bp : FVec Ideal S1x512 .f32) (wp : FVec Ideal S512x512 .f32)
    (z : Mat 4096 512) (hcs : ∀ (r : Fin 8) (h : Fin 512), cs (ix2 r h) = colK z 0 h + colK z 1 h) (q : Fin 512) :
    k0_pay10 (F := Ideal) cs bp wp (ix2 (0 : Fin 1) q) = GK z wp bp (ix2 (0 : Fin 1) q) := by
  rw [pay10_at]
  show bp (ix2 (0 : Fin 1) q) + ∑ h : Fin 512, Ideal.logistic ((∑ r : Fin 8, cs (ix2 r h)) * c15) * wp (ix2 q h)
    = bp (ix2 (0 : Fin 1) q) + ∑ h : Fin 512, SK z h * wp (ix2 q h)
  refine congrArg (bp (ix2 (0 : Fin 1) q) + ·) (Finset.sum_congr rfl fun h _ => ?_)
  refine congrArg (· * wp (ix2 q h)) ?_
  show Ideal.logistic ((∑ r : Fin 8, cs (ix2 r h)) * c15) = Ideal.logistic ((∑ _r : Fin 8, (colK z 0 h + colK z 1 h)) * c15)
  rw [Finset.sum_congr rfl fun r _ => hcs r h]

/-! ## The column sums at the last point -/

/-- The column sums after the last point: zero, then the first band's update at point 3, then the second's at point 7. -/
private theorem CS_seven (c : Dev nD) :
    CS m c 7 = k0_pay9 (TS m c 7) (WB m c (ptOf 7)) (BB m c (ptOf 7))
      (k0_pay9 (TS m c 3) (WB m c (ptOf 3)) (BB m c (ptOf 3)) (k0_pay3 (F := Ideal))) := by
  have h7 : CS m c 7 = k0_pay9 (TS m c 7) (WB m c (ptOf 7)) (BB m c (ptOf 7)) (CS m c 6) := CS_last' m c 7 (by decide)
  have h6 : CS m c 6 = CS m c 5 := CS_keep m c 6 (by decide) (by decide)
  have h5 : CS m c 5 = CS m c 4 := CS_keep m c 5 (by decide) (by decide)
  have h4 : CS m c 4 = CS m c 3 := CS_keep m c 4 (by decide) (by decide)
  have h3 : CS m c 3 = k0_pay9 (TS m c 3) (WB m c (ptOf 3)) (BB m c (ptOf 3)) (CS m c 2) := CS_last' m c 3 (by decide)
  have h2 : CS m c 2 = CS m c 1 := CS_keep m c 2 (by decide) (by decide)
  have h1 : CS m c 1 = CS m c 0 := CS_keep m c 1 (by decide) (by decide)
  have h0 : CS m c 0 = k0_pay3 (F := Ideal) := CS_zero m c 0 rfl
  rw [h7, h6, h5, h4, h3, h2, h1, h0]

/-- The first band's encoded rows, as the first result window holds them after point 3. -/
private theorem band0 (c : Dev nD) (q : Fin 2048) (h : Fin 512) :
    k0_pay7 (TS m c 3) (WB m c (ptOf 3)) (BB m c (ptOf 3)) (ix2 q h)
      = (ZK (m ((c : Thread nD τ).loc main_arg0)) (m ((c : Thread nD τ).loc main_arg2)) (m ((c : Thread nD τ).loc main_arg3)) (m ((c : Thread nD τ).loc main_arg4))) (ix2 (rowR 0 q) h) :=
  congrFun (O7_val m c 0) (ix2 q h)

/-- The second band's, after point 7. -/
private theorem band1 (c : Dev nD) (q : Fin 2048) (h : Fin 512) :
    k0_pay7 (TS m c 7) (WB m c (ptOf 7)) (BB m c (ptOf 7)) (ix2 q h)
      = (ZK (m ((c : Thread nD τ).loc main_arg0)) (m ((c : Thread nD τ).loc main_arg2)) (m ((c : Thread nD τ).loc main_arg3)) (m ((c : Thread nD τ).loc main_arg4))) (ix2 (rowR 1 q) h) :=
  congrFun (O7_val m c 1) (ix2 q h)

/-! ## The summary window at the last point -/

/-- The third after the last point: the summary of the first. -/
theorem O9_val (c : Dev nD) :
    (O9 (F := Ideal) m c 7 : Mat 1 512) = GK (ZK (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) := by
  funext y
  obtain ⟨u, q, rfl⟩ : ∃ (u : Fin 1) (q : Fin 512), y = ix2 u q := ⟨y 0, y 1, eq_ix2 y⟩
  obtain rfl : u = 0 := Subsingleton.elim _ _
  have hcs : ∀ (r : Fin 8) (h : Fin 512), CS m c 7 (ix2 r h)
      = colK (ZK (m ((c : Thread nD τ).loc main_arg0)) (m ((c : Thread nD τ).loc main_arg2)) (m ((c : Thread nD τ).loc main_arg3)) (m ((c : Thread nD τ).loc main_arg4))) 0 h + colK (ZK (m ((c : Thread nD τ).loc main_arg0)) (m ((c : Thread nD τ).loc main_arg2)) (m ((c : Thread nD τ).loc main_arg3)) (m ((c : Thread nD τ).loc main_arg4))) 1 h := by
    intro r h
    refine (congrFun (CS_seven m c) (ix2 r h)).trans ?_
    refine (cs_two_bands (TS m c 3) (TS m c 7) (WB m c (ptOf 3)) (WB m c (ptOf 7)) (BB m c (ptOf 3)) (BB m c (ptOf 7)) r h).trans ?_
    exact congrArg₂ (· + ·) (Finset.sum_congr rfl fun q _ => band0 m c q h) (Finset.sum_congr rfl fun q _ => band1 m c q h)
  exact (summary_at (CS m c 7) (BPB m c (ptOf 7)) (WPB m c (ptOf 7)) _ hcs q).trans
    (congrFun (congrArg₂ (GK (ZK (m ((c : Thread nD τ).loc main_arg0)) (m ((c : Thread nD τ).loc main_arg2)) (m ((c : Thread nD τ).loc main_arg3)) (m ((c : Thread nD τ).loc main_arg4)))) (WPB_eq m c (ptOf 7)) (BPB_eq m c (ptOf 7))) (ix2 (0 : Fin 1) q))

end Cert.KernelIdeal.Body
end
-- ==== Proof.KArr.lean ====
import proofs.«126669_g2000106255353042_pallasbulk_995_17_alg».proof.Proof.KValG
import Idealize.ShloMosaic.Lib.Pipeline.Value

set_option maxRecDepth 16384

noncomputable section

namespace Cert.KernelIdeal.Body
open Cert.KernelIdeal Cert.KernelIdeal.Gen Cert.Spec
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- A band's block of a table of 4096 rows: row `j 0` of band `b` is row `2048 b + j 0` of the table, where the block's
    coordinate on an axis is the block index times the block's size plus the coordinate inside the block. -/
private theorem arr_band_block (Z : Mat 4096 512) (b i0 i1 : ℕ) (hb : b < 2) (h0 : i0 = b) (h1 : i1 = 0)
    (j : S2048x512.Idx) (k : S4096x512.Idx) (hk0 : (k 0).val = i0 * 2048 + 1 * (j 0).val) (hk1 : (k 1).val = i1 * 512 + 1 * (j 1).val) :
    Z (ix2 (⟨2048 * b + (j 0).val, by have h := idx2_lt0 j; omega⟩ : Fin 4096) (j 1)) = Z k := by
  refine congrArg Z (funext fun a => Fin.ext ?_)
  match a with
  | ⟨0, _⟩ => show 2048 * b + (j 0).val = (k 0).val; omega
  | ⟨1, _⟩ => show (j 1).val = (k 1).val; omega

/-- Window 7's block index over the eight points: the band on the rows, zero on the columns. -/
private theorem arr7_idx : ∀ t : Fin cfg0.N, win0_7.index t (0 : Fin 2) = t.val / 4 ∧ win0_7.index t (1 : Fin 2) = 0 :=
  (by decide +kernel : ∀ t : Fin grid0.N, _)

/-- The window's contents after point `n = 4 i + 3`, the last chunk of band `i`: the band's rows of `((a · x) · w) + b`. -/
private theorem arr7_band (c : Dev nD) (n : ℕ) (i : Fin 2) (hn : n = 4 * i.val + 3) :
    (O7 (F := Ideal) m c n : (⟨2, ![2048, 512]⟩ : Shape).Idx → EReal)
      = fun y => (ZK (m ((c : Thread nD τ).loc main_arg0)) (m ((c : Thread nD τ).loc main_arg2)) (m ((c : Thread nD τ).loc main_arg3)) (m ((c : Thread nD τ).loc main_arg4))) (ix2 (⟨2048 * i.val + (y 0).val, by have h0 := idx2_lt0 y; omega⟩ : Fin 4096) (y 1)) := by
  subst hn; exact O7_val m c i

/-- What a band's last point writes back through window 7 is the band's block of `((a · x) · w) + b`. -/
private theorem arr7_flushed_eq (c : Dev nD) (t : Fin cfg0.N) (ht : (cfg0.win 7).flush t = true) :
    (dats (F := Ideal) m 0 c).flushed 7 t = ((cfg0.win 7).blk t).view.read (Elt Ideal) (ZK (m ((c : Thread nD τ).loc main_arg0)) (m ((c : Thread nD τ).loc main_arg2)) (m ((c : Thread nD τ).loc main_arg3)) (m ((c : Thread nD τ).loc main_arg4))) := by
  have h3 : t.val % 4 = 3 := (flush0_7 t).mp ht
  have hlt : t.val < 8 := lt_of_lt_of_eq t.isLt (show cfg0.N = 8 from N_0)
  obtain ⟨e0, e1⟩ := arr7_idx t
  show (cfg0.win 7).cut (grid0.coords t) ((dats (F := Ideal) m 0 c).after 7 t) = _
  rw [after7, arr7_band m c t.val ⟨t.val / 4, by omega⟩ (by show t.val = 4 * (t.val / 4) + 3; omega)]
  funext j
  show (ZK (m ((c : Thread nD τ).loc main_arg0)) (m ((c : Thread nD τ).loc main_arg2)) (m ((c : Thread nD τ).loc main_arg3)) (m ((c : Thread nD τ).loc main_arg4))) (ix2 (⟨2048 * (t.val / 4) + (j 0).val, _⟩ : Fin 4096) (j 1)) = (ZK (m ((c : Thread nD τ).loc main_arg0)) (m ((c : Thread nD τ).loc main_arg2)) (m ((c : Thread nD τ).loc main_arg3)) (m ((c : Thread nD τ).loc main_arg4))) (((cfg0.win 7).blk t).view.emb j)
  refine arr_band_block (ZK (m ((c : Thread nD τ).loc main_arg0)) (m ((c : Thread nD τ).loc main_arg2)) (m ((c : Thread nD τ).loc main_arg3)) (m ((c : Thread nD τ).loc main_arg4))) (t.val / 4) (win0_7.index t (0 : Fin 2)) (win0_7.index t (1 : Fin 2)) (by omega) e0 e1 j _ ?_ ?_
  · show win0_7.index t (0 : Fin 2) * 2048 + 1 * (j 0).val = win0_7.index t (0 : Fin 2) * 2048 + 1 * (j 0).val; rfl
  · show win0_7.index t (1 : Fin 2) * 512 + 1 * (j 1).val = win0_7.index t (1 : Fin 2) * 512 + 1 * (j 1).val; rfl

/-- An index of the array is in point `t`'s block of window 7 iff each coordinate is in the block's range on its axis. -/
private theorem arr7_mem_blk (t : Fin cfg0.N) (i : S4096x512.Idx) :
    i ∈ ((cfg0.win 7).blk t).view.set ↔ ∀ a : Fin 2, win0_7.index t a * S2048x512.size a ≤ (i a).val ∧ (i a).val < win0_7.index t a * S2048x512.size a + S2048x512.size a := by
  show i ∈ ((View.whole main_v0_0).slice (win0_7.rect t)).set ↔ _
  rw [View.set_slice_whole, Rect.mem_set_unit]
  exact Iff.rfl

/-- Row `r` lies in the block written back at the last chunk of band `r / 2048`. -/
private theorem arr7_cover (i : S4096x512.Idx) :
    ∃ t : Fin cfg0.N, (cfg0.win 7).flush t = true ∧ i ∈ ((cfg0.win 7).blk t).view.set := by
  have hi0 : (i 0).val < 4096 := (i 0).isLt
  have hi1 : (i 1).val < 512 := (i 1).isLt
  have hN : cfg0.N = 8 := N_0
  have hb : 4 * ((i 0).val / 2048) + 3 < cfg0.N := by rw [hN]; omega
  obtain ⟨e0, e1⟩ := arr7_idx ⟨4 * ((i 0).val / 2048) + 3, hb⟩
  have e0' : win0_7.index ⟨4 * ((i 0).val / 2048) + 3, hb⟩ (0 : Fin 2) = (4 * ((i 0).val / 2048) + 3) / 4 := e0
  refine ⟨⟨4 * ((i 0).val / 2048) + 3, hb⟩, (flush0_7 _).mpr (by show (4 * ((i 0).val / 2048) + 3) % 4 = 3; omega), ?_⟩
  rw [arr7_mem_blk]
  intro a
  match a with
  | ⟨0, _⟩ => show win0_7.index ⟨4 * ((i 0).val / 2048) + 3, hb⟩ (0 : Fin 2) * 2048 ≤ (i 0).val ∧ (i 0).val < win0_7.index ⟨4 * ((i 0).val / 2048) + 3, hb⟩ (0 : Fin 2) * 2048 + 2048; omega
  | ⟨1, _⟩ => show win0_7.index ⟨4 * ((i 0).val / 2048) + 3, hb⟩ (1 : Fin 2) * 512 ≤ (i 1).val ∧ (i 1).val < win0_7.index ⟨4 * ((i 0).val / 2048) + 3, hb⟩ (1 : Fin 2) * 512 + 512; omega

/-- Window 8's block index over the eight points: the band on the rows, zero on the columns. -/
private theorem arr8_idx : ∀ t : Fin cfg0.N, win0_8.index t (0 : Fin 2) = t.val / 4 ∧ win0_8.index t (1 : Fin 2) = 0 :=
  (by decide +kernel : ∀ t : Fin grid0.N, _)

/-- The window's contents after point `n = 4 i + 3`, the last chunk of band `i`: the band's rows of the same of the corrupted features. -/
private theorem arr8_band (c : Dev nD) (n : ℕ) (i : Fin 2) (hn : n = 4 * i.val + 3) :
    (O8 (F := Ideal) m c n : (⟨2, ![2048, 512]⟩ : Shape).Idx → EReal)
      = fun y => (ZK (m ((c : Thread nD τ).loc main_arg1)) (m ((c : Thread nD τ).loc main_arg2)) (m ((c : Thread nD τ).loc main_arg3)) (m ((c : Thread nD τ).loc main_arg4))) (ix2 (⟨2048 * i.val + (y 0).val, by have h0 := idx2_lt0 y; omega⟩ : Fin 4096) (y 1)) := by
  subst hn; exact O8_val m c i

/-- What a band's last point writes back through window 8 is the band's block of the same of the corrupted features. -/
private theorem arr8_flushed_eq (c : Dev nD) (t : Fin cfg0.N) (ht : (cfg0.win 8).flush t = true) :
    (dats (F := Ideal) m 0 c).flushed 8 t = ((cfg0.win 8).blk t).view.read (Elt Ideal) (ZK (m ((c : Thread nD τ).loc main_arg1)) (m ((c : Thread nD τ).loc main_arg2)) (m ((c : Thread nD τ).loc main_arg3)) (m ((c : Thread nD τ).loc main_arg4))) := by
  have h3 : t.val % 4 = 3 := (flush0_8 t).mp ht
  have hlt : t.val < 8 := lt_of_lt_of_eq t.isLt (show cfg0.N = 8 from N_0)
  obtain ⟨e0, e1⟩ := arr8_idx t
  show (cfg0.win 8).cut (grid0.coords t) ((dats (F := Ideal) m 0 c).after 8 t) = _
  rw [after8, arr8_band m c t.val ⟨t.val / 4, by omega⟩ (by show t.val = 4 * (t.val / 4) + 3; omega)]
  funext j
  show (ZK (m ((c : Thread nD τ).loc main_arg1)) (m ((c : Thread nD τ).loc main_arg2)) (m ((c : Thread nD τ).loc main_arg3)) (m ((c : Thread nD τ).loc main_arg4))) (ix2 (⟨2048 * (t.val / 4) + (j 0).val, _⟩ : Fin 4096) (j 1)) = (ZK (m ((c : Thread nD τ).loc main_arg1)) (m ((c : Thread nD τ).loc main_arg2)) (m ((c : Thread nD τ).loc main_arg3)) (m ((c : Thread nD τ).loc main_arg4))) (((cfg0.win 8).blk t).view.emb j)
  refine arr_band_block (ZK (m ((c : Thread nD τ).loc main_arg1)) (m ((c : Thread nD τ).loc main_arg2)) (m ((c : Thread nD τ).loc main_arg3)) (m ((c : Thread nD τ).loc main_arg4))) (t.val / 4) (win0_8.index t (0 : Fin 2)) (win0_8.index t (1 : Fin 2)) (by omega) e0 e1 j _ ?_ ?_
  · show win0_8.index t (0 : Fin 2) * 2048 + 1 * (j 0).val = win0_8.index t (0 : Fin 2) * 2048 + 1 * (j 0).val; rfl
  · show win0_8.index t (1 : Fin 2) * 512 + 1 * (j 1).val = win0_8.index t (1 : Fin 2) * 512 + 1 * (j 1).val; rfl

/-- An index of the array is in point `t`'s block of window 8 iff each coordinate is in the block's range on its axis. -/
private theorem arr8_mem_blk (t : Fin cfg0.N) (i : S4096x512.Idx) :
    i ∈ ((cfg0.win 8).blk t).view.set ↔ ∀ a : Fin 2, win0_8.index t a * S2048x512.size a ≤ (i a).val ∧ (i a).val < win0_8.index t a * S2048x512.size a + S2048x512.size a := by
  show i ∈ ((View.whole main_v0_1).slice (win0_8.rect t)).set ↔ _
  rw [View.set_slice_whole, Rect.mem_set_unit]
  exact Iff.rfl

/-- Row `r` lies in the block written back at the last chunk of band `r / 2048`. -/
private theorem arr8_cover (i : S4096x512.Idx) :
    ∃ t : Fin cfg0.N, (cfg0.win 8).flush t = true ∧ i ∈ ((cfg0.win 8).blk t).view.set := by
  have hi0 : (i 0).val < 4096 := (i 0).isLt
  have hi1 : (i 1).val < 512 := (i 1).isLt
  have hN : cfg0.N = 8 := N_0
  have hb : 4 * ((i 0).val / 2048) + 3 < cfg0.N := by rw [hN]; omega
  obtain ⟨e0, e1⟩ := arr8_idx ⟨4 * ((i 0).val / 2048) + 3, hb⟩
  have e0' : win0_8.index ⟨4 * ((i 0).val / 2048) + 3, hb⟩ (0 : Fin 2) = (4 * ((i 0).val / 2048) + 3) / 4 := e0
  refine ⟨⟨4 * ((i 0).val / 2048) + 3, hb⟩, (flush0_8 _).mpr (by show (4 * ((i 0).val / 2048) + 3) % 4 = 3; omega), ?_⟩
  rw [arr8_mem_blk]
  intro a
  match a with
  | ⟨0, _⟩ => show win0_8.index ⟨4 * ((i 0).val / 2048) + 3, hb⟩ (0 : Fin 2) * 2048 ≤ (i 0).val ∧ (i 0).val < win0_8.index ⟨4 * ((i 0).val / 2048) + 3, hb⟩ (0 : Fin 2) * 2048 + 2048; omega
  | ⟨1, _⟩ => show win0_8.index ⟨4 * ((i 0).val / 2048) + 3, hb⟩ (1 : Fin 2) * 512 ≤ (i 1).val ∧ (i 1).val < win0_8.index ⟨4 * ((i 0).val / 2048) + 3, hb⟩ (1 : Fin 2) * 512 + 512; omega

/-- Window 9's block index over the eight points: zero on both axes. -/
private theorem arr9_idx : ∀ t : Fin cfg0.N, win0_9.index t (0 : Fin 2) = 0 ∧ win0_9.index t (1 : Fin 2) = 0 :=
  (by decide +kernel : ∀ t : Fin grid0.N, _)

/-- The one row read through a block at index zero on both axes is the row. -/
private theorem arr_row_block (G : Mat 1 512) (i0 i1 : ℕ) (h0 : i0 = 0) (h1 : i1 = 0)
    (j : S1x512.Idx) (k : S1x512.Idx) (hk0 : (k 0).val = i0 * 1 + 1 * (j 0).val) (hk1 : (k 1).val = i1 * 512 + 1 * (j 1).val) :
    G j = G k := by
  refine congrArg G (funext fun a => Fin.ext ?_)
  match a with
  | ⟨0, _⟩ => show (j 0).val = (k 0).val; omega
  | ⟨1, _⟩ => show (j 1).val = (k 1).val; omega

/-- What the last point writes back through window 9 is the summary. -/
private theorem arr9_flushed_eq (c : Dev nD) (t : Fin cfg0.N) (ht : (cfg0.win 9).flush t = true) :
    (dats (F := Ideal) m 0 c).flushed 9 t = ((cfg0.win 9).blk t).view.read (Elt Ideal) (GK (ZK (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6))) := by
  have h7 : t.val % 8 = 7 := (flush0_9 t).mp ht
  have hlt : t.val < 8 := lt_of_lt_of_eq t.isLt (show cfg0.N = 8 from N_0)
  have hv : t.val = 7 := by omega
  obtain ⟨e0, e1⟩ := arr9_idx t
  show (cfg0.win 9).cut (grid0.coords t) ((dats (F := Ideal) m 0 c).after 9 t) = _
  rw [after9, show O9 (F := Ideal) m c t.val = O9 (F := Ideal) m c 7 from congrArg (O9 (F := Ideal) m c) hv, O9_val]
  funext j
  show (GK (ZK (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6))) j = (GK (ZK (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6))) (((cfg0.win 9).blk t).view.emb j)
  refine arr_row_block (GK (ZK (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6))) (win0_9.index t (0 : Fin 2)) (win0_9.index t (1 : Fin 2)) e0 e1 j _ ?_ ?_
  · show win0_9.index t (0 : Fin 2) * 1 + 1 * (j 0).val = win0_9.index t (0 : Fin 2) * 1 + 1 * (j 0).val; rfl
  · show win0_9.index t (1 : Fin 2) * 512 + 1 * (j 1).val = win0_9.index t (1 : Fin 2) * 512 + 1 * (j 1).val; rfl

/-- An index of the row is in point `t`'s block of window 9 iff each coordinate is in the block's range on its axis. -/
private theorem arr9_mem_blk (t : Fin cfg0.N) (i : S1x512.Idx) :
    i ∈ ((cfg0.win 9).blk t).view.set ↔ ∀ a : Fin 2, win0_9.index t a * S1x512.size a ≤ (i a).val ∧ (i a).val < win0_9.index t a * S1x512.size a + S1x512.size a := by
  show i ∈ ((View.whole main_v0_2).slice (win0_9.rect t)).set ↔ _
  rw [View.set_slice_whole, Rect.mem_set_unit]
  exact Iff.rfl

/-- Every index of the row lies in the block the last point writes back. -/
private theorem arr9_cover (i : S1x512.Idx) :
    ∃ t : Fin cfg0.N, (cfg0.win 9).flush t = true ∧ i ∈ ((cfg0.win 9).blk t).view.set := by
  have hi0 : (i 0).val < 1 := (i 0).isLt
  have hi1 : (i 1).val < 512 := (i 1).isLt
  have hN : cfg0.N = 8 := N_0
  have hb : 7 < cfg0.N := by rw [hN]; omega
  obtain ⟨e0, e1⟩ := arr9_idx ⟨7, hb⟩
  refine ⟨⟨7, hb⟩, (flush0_9 _).mpr (by show 7 % 8 = 7; omega), ?_⟩
  rw [arr9_mem_blk]
  intro a
  match a with
  | ⟨0, _⟩ => show win0_9.index ⟨7, hb⟩ (0 : Fin 2) * 1 ≤ (i 0).val ∧ (i 0).val < win0_9.index ⟨7, hb⟩ (0 : Fin 2) * 1 + 1; omega
  | ⟨1, _⟩ => show win0_9.index ⟨7, hb⟩ (1 : Fin 2) * 512 ≤ (i 1).val ∧ (i 1).val < win0_9.index ⟨7, hb⟩ (1 : Fin 2) * 512 + 512; omega

/-! ## The three result arrays after the region -/

theorem arr7 (c : Dev nD) : ((dats (F := Ideal) m 0 c).arrAt 7 cfg0.N : Mat 4096 512) = ZK (m ((c : Thread nD τ).loc main_arg0)) (m ((c : Thread nD τ).loc main_arg2)) (m ((c : Thread nD τ).loc main_arg3)) (m ((c : Thread nD τ).loc main_arg4)) := by
  exact (dats (F := Ideal) m 0 c).arrAt_eq_of_cover 7 (ZK (m ((c : Thread nD τ).loc main_arg0)) (m ((c : Thread nD τ).loc main_arg2)) (m ((c : Thread nD τ).loc main_arg3)) (m ((c : Thread nD τ).loc main_arg4))) (fun t ht => arr7_flushed_eq m c t ht) arr7_cover
theorem arr8 (c : Dev nD) : ((dats (F := Ideal) m 0 c).arrAt 8 cfg0.N : Mat 4096 512) = ZK (m ((c : Thread nD τ).loc main_arg1)) (m ((c : Thread nD τ).loc main_arg2)) (m ((c : Thread nD τ).loc main_arg3)) (m ((c : Thread nD τ).loc main_arg4)) := by
  exact (dats (F := Ideal) m 0 c).arrAt_eq_of_cover 8 (ZK (m ((c : Thread nD τ).loc main_arg1)) (m ((c : Thread nD τ).loc main_arg2)) (m ((c : Thread nD τ).loc main_arg3)) (m ((c : Thread nD τ).loc main_arg4))) (fun t ht => arr8_flushed_eq m c t ht) arr8_cover
theorem arr9 (c : Dev nD) : ((dats (F := Ideal) m 0 c).arrAt 9 cfg0.N : Mat 1 512) = GK (ZK (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) := by
  exact (dats (F := Ideal) m 0 c).arrAt_eq_of_cover 9 (GK (ZK (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6))) (fun t ht => arr9_flushed_eq m c t ht) arr9_cover

end Cert.KernelIdeal.Body
end
-- ==== Proof.KFinal.lean ====
import proofs.«126669_g2000106255353042_pallasbulk_995_17_alg».proof.Proof.KArr

set_option maxRecDepth 16384

noncomputable section

namespace Cert.KernelIdeal.Body
open Cert.KernelIdeal Cert.KernelIdeal.Gen Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- Every weakly fair execution of the kernel's program terminates without a fault with its three results at the
    propagate-then-encode functions of its arguments, the arguments unchanged. -/
theorem run_values : θ_run (defs (F := Ideal)) (onTc (τ := τ) (main (F := Ideal))) ⟨m, fun _ => 0, ρ⟩ (fun r => ∀ c : Dev nD,
      r.2.mem ((c.tc : Thread nD τ).loc main_v0_0) = ZK (m ((c : Thread nD τ).loc main_arg0)) (m ((c : Thread nD τ).loc main_arg2)) (m ((c : Thread nD τ).loc main_arg3)) (m ((c : Thread nD τ).loc main_arg4))
      ∧ r.2.mem ((c.tc : Thread nD τ).loc main_v0_2) = GK (ZK (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6))
      ∧ r.2.mem ((c.tc : Thread nD τ).loc main_v0_1) = ZK (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).1 7).trans (arr7 m c), ((h c).1 9).trans (arr9 m c), ((h c).1 8).trans (arr8 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 4).trans (((dats m 0 c).arrAt_in 4 rfl _).trans ((A_eq m c 4).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main (F := Ideal) m ρ)

end Cert.KernelIdeal.Body
end
-- ==== Proof.RSpec.lean ====
/-
  The encode-then-propagate program region by region, each region's result as a function of whatever arrays it is
  handed, and how these compose to the whole program's results: the two feature tables stacked by rows and encoded
  into one table of twice the width; the adjacency applied to it over the doubled bias; the tile sums; the summary.
-/
import proofs.«126669_g2000106255353042_pallasbulk_995_17_alg».proof.Proof.Spec

noncomputable section

open scoped BigOperators

namespace Cert.RSpec

open Idealize.ShloMosaic Idealize.ShloMosaic.ValueIdx Cert.Spec

/-- `x` over `xc`: rows below 4096 from the first, the others from the second. -/
def Xall (x xc : Mat 4096 256) : Mat 8192 256 :=
  fun y => if h : (y 0).val < 4096 then x (ix2 (⟨(y 0).val, h⟩ : Fin 4096) (y 1))
    else xc (ix2 (⟨(y 0).val - 4096, by have := idx2_lt0 y; omega⟩ : Fin 4096) (y 1))
/-- The bias twice, side by side. -/
def Bcat (b : Mat 1 512) : Mat 1 1024 :=
  fun y => if h : (y 1).val < 512 then b (ix2 0 (⟨(y 1).val, h⟩ : Fin 512))
    else b (ix2 0 (⟨(y 1).val - 512, by have := idx2_lt1 y; omega⟩ : Fin 512))
/-- The transpose. -/
def Tr (wp : Mat 512 512) : Mat 512 512 := fun y => wp (ix2 (y 1) (y 0))

/-- A row below 4096 of the stacked table is that row of the first. -/
private theorem Xall_lo (x xc : Mat 4096 256) (n : Fin 4096) (d : Fin 256) (hn : n.val < 8192) :
    Xall x xc (ix2 (⟨n.val, hn⟩ : Fin 8192) d) = x (ix2 n d) :=
  dif_pos n.isLt
/-- Row 4096 + n of the stacked table is row n of the second. -/
private theorem Xall_hi (x xc : Mat 4096 256) (n : Fin 4096) (d : Fin 256) (hn : 4096 + n.val < 8192) :
    Xall x xc (ix2 (⟨4096 + n.val, hn⟩ : Fin 8192) d) = xc (ix2 n d) := by
  have e : (⟨4096 + n.val - 4096, by omega⟩ : Fin 4096) = n := Fin.ext (Nat.add_sub_cancel_left 4096 n.val)
  refine (dif_neg (show ¬ (4096 + n.val < 4096) by omega)).trans ?_
  exact congrArg (fun k => xc (ix2 k d)) e
/-- The doubled bias at a column below 512. -/
private theorem Bcat_lo (b : Mat 1 512) (j : Fin 1024) (h : j.val < 512) :
    Bcat b (ix2 0 j) = b (ix2 0 (⟨j.val, h⟩ : Fin 512)) :=
  dif_pos h
/-- The doubled bias at a column from 512 on. -/
private theorem Bcat_hi (b : Mat 1 512) (j : Fin 1024) (h : ¬ j.val < 512) (h' : j.val - 512 < 512) :
    Bcat b (ix2 0 j) = b (ix2 0 (⟨j.val - 512, h'⟩ : Fin 512)) :=
  dif_neg h
/-- The two encoded tables side by side, at a column below 512. -/
private theorem Hcat_lo (x xc : Mat 4096 256) (w : Mat 256 512) (p : Fin 4096) (j : Fin 1024) (h : j.val < 512) :
    Hcat x xc w (ix2 p j) = HR x w p ⟨j.val, h⟩ :=
  dif_pos h
/-- The two encoded tables side by side, at a column from 512 on. -/
private theorem Hcat_hi (x xc : Mat 4096 256) (w : Mat 256 512) (p : Fin 4096) (j : Fin 1024) (h : ¬ j.val < 512)
    (h' : j.val - 512 < 512) : Hcat x xc w (ix2 p j) = HR xc w p ⟨j.val - 512, h'⟩ :=
  dif_neg h

/-- The first region: rows of the stacked table times the weights, the lower half of the rows beside the upper half. -/
def HcatG (xall : Mat 8192 256) (w : Mat 256 512) : Mat 4096 1024 :=
  fun y => if h : (y 1).val < 512 then
      ∑ d : Fin 256, xall (ix2 (⟨(y 0).val, by have := idx2_lt0 y; omega⟩ : Fin 8192) d) * w (ix2 d (⟨(y 1).val, h⟩ : Fin 512))
    else ∑ d : Fin 256, xall (ix2 (⟨4096 + (y 0).val, by have := idx2_lt0 y; omega⟩ : Fin 8192) d)
      * w (ix2 d (⟨(y 1).val - 512, by have := idx2_lt1 y; omega⟩ : Fin 512))
theorem HcatG_eq (x xc : Mat 4096 256) (w : Mat 256 512) : HcatG (Xall x xc) w = Hcat x xc w := by
  funext y
  unfold HcatG Hcat HR
  by_cases h : (y 1).val < 512
  · rw [dif_pos h, dif_pos h]
    exact Finset.sum_congr rfl fun d _ => congrArg (· * w (ix2 d (⟨(y 1).val, h⟩ : Fin 512))) (Xall_lo x xc (y 0) d _)
  · rw [dif_neg h, dif_neg h]
    exact Finset.sum_congr rfl fun d _ => congrArg (· * w (ix2 d (⟨(y 1).val - 512, _⟩ : Fin 512))) (Xall_hi x xc (y 0) d _)

/-- The second region: the bias row, then the adjacency's two halves of columns against the table's two halves of rows. -/
def ZallG (a : Mat 4096 4096) (hc : Mat 4096 1024) (bc : Mat 1 1024) : Mat 4096 1024 :=
  fun y => (bc (ix2 0 (y 1)) + ∑ q : Fin 2048, a (ix2 (y 0) (rowR 0 q)) * hc (ix2 (rowR 0 q) (y 1)))
    + ∑ q : Fin 2048, a (ix2 (y 0) (rowR 1 q)) * hc (ix2 (rowR 1 q) (y 1))
/-- The second region at one place, once the bias and the table's column there are known. -/
private theorem ZallG_at (a : Mat 4096 4096) (hc : Mat 4096 1024) (bc : Mat 1 1024) (n : Fin 4096) (j : Fin 1024)
    (β : EReal) (H : Fin 4096 → EReal) (hβ : bc (ix2 0 j) = β) (hH : ∀ p, hc (ix2 p j) = H p) :
    ZallG a hc bc (ix2 n j) = (β + ∑ q : Fin 2048, a (ix2 n (rowR 0 q)) * H (rowR 0 q))
      + ∑ q : Fin 2048, a (ix2 n (rowR 1 q)) * H (rowR 1 q) := by
  show (bc (ix2 0 j) + ∑ q : Fin 2048, a (ix2 n (rowR 0 q)) * hc (ix2 (rowR 0 q) j))
      + ∑ q : Fin 2048, a (ix2 n (rowR 1 q)) * hc (ix2 (rowR 1 q) j) = _
  rw [hβ, Finset.sum_congr rfl fun q _ => congrArg (a (ix2 n (rowR 0 q)) * ·) (hH (rowR 0 q)),
    Finset.sum_congr rfl fun q _ => congrArg (a (ix2 n (rowR 1 q)) * ·) (hH (rowR 1 q))]
theorem ZallG_eq (x xc : Mat 4096 256) (a : Mat 4096 4096) (w : Mat 256 512) (b : Mat 1 512) :
    ZallG a (Hcat x xc w) (Bcat b) = Zall x xc a w b := by
  funext y
  obtain ⟨n, j, rfl⟩ : ∃ (n : Fin 4096) (j : Fin 1024), y = ix2 n j := ⟨y 0, y 1, eq_ix2 y⟩
  by_cases h : j.val < 512
  · have hz : Zall x xc a w b (ix2 n j) = ZR x a w b (ix2 n (⟨j.val, h⟩ : Fin 512)) := dif_pos h
    rw [hz, ZallG_at a _ _ n j _ _ (Bcat_lo b j h) (fun p => Hcat_lo x xc w p j h)]
    rfl
  · have h' : j.val - 512 < 512 := by omega
    have hz : Zall x xc a w b (ix2 n j) = ZR xc a w b (ix2 n (⟨j.val - 512, h'⟩ : Fin 512)) := dif_neg h
    rw [hz, ZallG_at a _ _ n j _ _ (Bcat_hi b j h h') (fun p => Hcat_hi x xc w p j h h')]
    rfl
/-- Its second result: the column sums of each tile of 512 rows over the left 512 columns, each on eight rows. -/
def PartG (zall : Mat 4096 1024) : Mat 64 512 :=
  fun y => ∑ q : Fin 512, zall (ix2 (rowT (⟨(y 0).val / 8, by have := idx2_lt0 y; omega⟩ : Fin 8) q)
    (⟨(y 1).val, by have := idx2_lt1 y; omega⟩ : Fin 1024))
theorem PartG_eq (x xc : Mat 4096 256) (a : Mat 4096 4096) (w : Mat 256 512) (b : Mat 1 512) :
    PartG (Zall x xc a w b) = Part (ZR x a w b) := by
  funext y
  unfold PartG Cert.Spec.Part colR
  exact Finset.sum_congr rfl fun q _ => dif_pos (idx2_lt1 y)

/-- The third region: the sigmoid of the scaled sum of the 64 rows, times the given matrix, plus the bias. -/
def GG (part : Mat 64 512) (wpT : Mat 512 512) (bp : Mat 1 512) : Mat 1 512 :=
  fun y => (∑ h : Fin 512, Ideal.logistic ((∑ r : Fin 64, part (ix2 r h)) * c15) * wpT (ix2 h (y 1))) + bp (ix2 0 (y 1))
/-- The transpose at a place. -/
private theorem Tr_apply (wp : Mat 512 512) (h j : Fin 512) : Tr wp (ix2 h j) = wp (ix2 j h) := rfl
theorem GG_eq (z : Mat 4096 512) (wp : Mat 512 512) (bp : Mat 1 512) : GG (Part z) (Tr wp) bp = GR z wp bp := by
  funext y
  have hS : ∀ h : Fin 512, Ideal.logistic ((∑ r : Fin 64, Part z (ix2 r h)) * c15) = SR z h := fun h => rfl
  show (∑ h : Fin 512, Ideal.logistic ((∑ r : Fin 64, Part z (ix2 r h)) * c15) * Tr wp (ix2 h (y 1))) + bp (ix2 0 (y 1))
    = (∑ h : Fin 512, SR z h * wp (ix2 (y 1) h)) + bp (ix2 0 (y 1))
  refine congrArg (· + bp (ix2 0 (y 1))) (Finset.sum_congr rfl fun h _ => ?_)
  rw [hS h, Tr_apply wp h (y 1)]

/-- The left and the right 512 columns. -/
def SliceL (zall : Mat 4096 1024) : Mat 4096 512 :=
  fun y => zall (ix2 (y 0) (⟨(y 1).val, by have := idx2_lt1 y; omega⟩ : Fin 1024))
def SliceR (zall : Mat 4096 1024) : Mat 4096 512 :=
  fun y => zall (ix2 (y 0) (⟨512 + (y 1).val, by have := idx2_lt1 y; omega⟩ : Fin 1024))
theorem SliceL_Zall (x xc : Mat 4096 256) (a : Mat 4096 4096) (w : Mat 256 512) (b : Mat 1 512) :
    SliceL (Zall x xc a w b) = ZR x a w b := by
  funext y
  obtain ⟨p, q, rfl⟩ : ∃ (p : Fin 4096) (q : Fin 512), y = ix2 p q := ⟨y 0, y 1, eq_ix2 y⟩
  exact dif_pos q.isLt
theorem SliceR_Zall (x xc : Mat 4096 256) (a : Mat 4096 4096) (w : Mat 256 512) (b : Mat 1 512) :
    SliceR (Zall x xc a w b) = ZR xc a w b := by
  funext y
  obtain ⟨p, q, rfl⟩ : ∃ (p : Fin 4096) (q : Fin 512), y = ix2 p q := ⟨y 0, y 1, eq_ix2 y⟩
  have e : (⟨512 + q.val - 512, by omega⟩ : Fin 512) = q := Fin.ext (Nat.add_sub_cancel_left 512 q.val)
  refine (dif_neg (show ¬ (512 + q.val < 512) by omega)).trans ?_
  exact congrArg (fun k => ZR xc a w b (ix2 p k)) e

end Cert.RSpec

end
-- ==== Proof.RHost.lean ====
import proofs.«126669_g2000106255353042_pallasbulk_995_17_alg».proof.Proof.Gen.ReferenceIdeal.Frame
import proofs.«126669_g2000106255353042_pallasbulk_995_17_alg».proof.Proof.RSpec
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

set_option maxRecDepth 16384

noncomputable section

namespace Cert.ReferenceIdeal.RVal
open Cert.ReferenceIdeal Cert.ReferenceIdeal.Gen Cert.Spec Cert.RSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! ## Layout operations of the host lines as whole-array equations -/

section HostLayout
open Idealize.ShloMosaic.ValueIdx
variable {α : Type}

/-- A pad by zero amounts on every side of a matrix is the matrix. -/
private theorem pad2_zero {r k : ℕ} {u : Shape} (x : (⟨2, ![r, k]⟩ : Shape).Idx → α) (v : u.Idx → α)
    (h : (⟨2, ![r, k]⟩ : Shape).Pads ![0, 0] ![0, 0] ![0, 0] ⟨2, ![r, k]⟩) (hu : 0 < u.numel) :
    pad ⟨2, ![r, k]⟩ ![0, 0] ![0, 0] ![0, 0] x v h hu = x := by
  funext j
  refine pad_apply_of_inside _ _ _ x v h hu j j fun a => ?_
  match a with
  | ⟨0, _⟩ => show (j 0).val = 0 + (j 0).val * (0 + 1); omega
  | ⟨1, _⟩ => show (j 1).val = 0 + (j 1).val * (0 + 1); omega

/-- Two tables of 4096 rows stacked by rows. -/
private theorem concat_rows (x₁ x₂ : Mat 4096 256) (h : Shape.Concatenates [S4096x256, S4096x256] S8192x256 0) :
    concatenate S8192x256 0 [⟨S4096x256, x₁⟩, ⟨S4096x256, x₂⟩] h = Xall x₁ x₂ := by
  funext y
  unfold Xall
  by_cases hy : (y 0).val < 4096
  · rw [dif_pos hy]
    exact concatenate_pair_apply_left 0 x₁ x₂ h y rfl _ (fun b => match b with | ⟨0, _⟩ => rfl | ⟨1, _⟩ => rfl)
  · rw [dif_neg hy]
    refine concatenate_pair_apply_right 0 x₁ x₂ h y rfl rfl _ (fun b hb => ?_) ?_
    · match b with
      | ⟨0, _⟩ => exact absurd rfl hb
      | ⟨1, _⟩ => rfl
    · show (y 0).val - 4096 + 4096 = (y 0).val
      omega

/-- A row of 512 entries beside itself. -/
private theorem concat_cols (b : Mat 1 512) (h : Shape.Concatenates [S1x512, S1x512] S1x1024 1) :
    concatenate S1x1024 1 [⟨S1x512, b⟩, ⟨S1x512, b⟩] h = Bcat b := by
  funext y
  unfold Bcat
  have h0 := idx2_lt0 y
  by_cases hy : (y 1).val < 512
  · rw [dif_pos hy]
    refine concatenate_pair_apply_left 1 b b h y rfl _ (fun a => ?_)
    match a with
    | ⟨0, _⟩ => show (0 : ℕ) = (y 0).val; omega
    | ⟨1, _⟩ => rfl
  · rw [dif_neg hy]
    refine concatenate_pair_apply_right 1 b b h y rfl rfl _ (fun a ha => ?_) ?_
    · match a with
      | ⟨0, _⟩ => show (0 : ℕ) = (y 0).val; omega
      | ⟨1, _⟩ => exact absurd rfl ha
    · show (y 1).val - 512 + 512 = (y 1).val
      omega

/-- The transpose of a square matrix. -/
private theorem transpose_eq_Tr (x : Mat 512 512) (h : S512x512.Transposes [1, 0] S512x512) :
    transpose S512x512 [1, 0] x h = Tr x := by
  funext y
  unfold Tr
  exact transpose_apply _ x h y _ fun c => match c with | ⟨0, _⟩ => rfl | ⟨1, _⟩ => rfl

/-- The slice at column offset 0 is the left 512 columns. -/
private theorem slice_left (z : Mat 4096 1024) (h : S4096x1024.Slices ![0, 0] S4096x512) :
    extractStridedSlice S4096x512 ![0, 0] z h = SliceL z := by
  funext y
  unfold SliceL
  refine extractStridedSlice_apply _ z h y _ fun a => ?_
  match a with
  | ⟨0, _⟩ => show (y 0).val = 0 + (y 0).val; omega
  | ⟨1, _⟩ => show (y 1).val = 0 + (y 1).val; omega

/-- The slice at column offset 512 is the right 512 columns. -/
private theorem slice_right (z : Mat 4096 1024) (h : S4096x1024.Slices ![0, 512] S4096x512) :
    extractStridedSlice S4096x512 ![0, 512] z h = SliceR z := by
  funext y
  unfold SliceR
  refine extractStridedSlice_apply _ z h y _ fun a => ?_
  match a with
  | ⟨0, _⟩ => show (y 0).val = 0 + (y 0).val; omega
  | ⟨1, _⟩ => rfl

end HostLayout

/-! ## The fold, stretch by stretch -/

private theorem W2_v0 (m : (ℓ : Loc nD τ sig) → Buf (Elt Ideal) ℓ) (ρ : Dev nD → PrngReg) (c : Dev nD) : (W2 m ρ c (Proc.devRef .tc main_v0) : Mat 4096 256) = (m ((c : Thread nD τ).loc main_arg0)) := by
  dsimp only [W2, W1, hostOps0, hostOps0_1]
  after_results
  exact pad2_zero _ _ pads_S4096x256_S4096x256_000_000 h_S_
private theorem W4_v1 (m : (ℓ : Loc nD τ sig) → Buf (Elt Ideal) ℓ) (ρ : Dev nD → PrngReg) (c : Dev nD) : (W4 m ρ c (Proc.devRef .tc main_v1) : Mat 4096 256) = (m ((c : Thread nD τ).loc main_arg0)) := by
  dsimp only [W4, W3, hostOps0_2, hostOps0_3]
  after_results
  exact W2_v0 m ρ c
private theorem W4_v2 (m : (ℓ : Loc nD τ sig) → Buf (Elt Ideal) ℓ) (ρ : Dev nD → PrngReg) (c : Dev nD) : (W4 m ρ c (Proc.devRef .tc main_v2) : Mat 4096 256) = (m ((c : Thread nD τ).loc main_arg1)) := by
  dsimp only [W4, W3, W2, W1, hostOps0, hostOps0_1, hostOps0_2, hostOps0_3]
  after_results
  exact pad2_zero _ _ pads_S4096x256_S4096x256_000_000 h_S_
private theorem W5_v4 (m : (ℓ : Loc nD τ sig) → Buf (Elt Ideal) ℓ) (ρ : Dev nD → PrngReg) (c : Dev nD) : (W5 m ρ c (Proc.devRef .tc main_v4) : Mat 8192 256) = Xall (m ((c : Thread nD τ).loc main_arg0)) (m ((c : Thread nD τ).loc main_arg1)) := by
  dsimp only [W5, hostOps0_4]
  after_results
  exact (congrArg₂ (fun (a b : Mat 4096 256) => concatenate S8192x256 0 [⟨S4096x256, a⟩, ⟨S4096x256, b⟩] concatenates_S4096x256_S4096x256_S8192x256_d0) (W4_v1 m ρ c) (W4_v2 m ρ c)).trans (concat_rows _ _ _)

private theorem W5_arg3 (m : (ℓ : Loc nD τ sig) → Buf (Elt Ideal) ℓ) (ρ : Dev nD → PrngReg) (c : Dev nD) : (W5 m ρ c (Proc.devRef .tc main_arg3) : Mat 256 512) = (m ((c : Thread nD τ).loc main_arg3)) := by
  dsimp only [W5, W4, W3, W2, W1, hostOps0, hostOps0_1, hostOps0_2, hostOps0_3, hostOps0_4]
  after_results
private theorem W7_v6 (m : (ℓ : Loc nD τ sig) → Buf (Elt Ideal) ℓ) (ρ : Dev nD → PrngReg) (c : Dev nD) : (W7 m ρ c (Proc.devRef .tc main_v6) : Mat 256 512) = (m ((c : Thread nD τ).loc main_arg3)) := by
  dsimp only [W7, W6, hostOps0_5, hostOps0_6]
  after_results
  exact (pad2_zero _ _ pads_S256x512_S256x512_000_000 h_S_).trans (W5_arg3 m ρ c)

private theorem W7_arg4 (m : (ℓ : Loc nD τ sig) → Buf (Elt Ideal) ℓ) (ρ : Dev nD → PrngReg) (c : Dev nD) : (W7 m ρ c (Proc.devRef .tc main_arg4) : Mat 1 512) = (m ((c : Thread nD τ).loc main_arg4)) := by
  dsimp only [W7, W6, W5, W4, W3, W2, W1, hostOps0, hostOps0_1, hostOps0_2, hostOps0_3, hostOps0_4, hostOps0_5, hostOps0_6]
  after_results
private theorem W8_v7 (m : (ℓ : Loc nD τ sig) → Buf (Elt Ideal) ℓ) (ρ : Dev nD → PrngReg) (c : Dev nD) : (W8 m ρ c (Proc.devRef .tc main_v7) : Mat 1 512) = (m ((c : Thread nD τ).loc main_arg4)) := by
  dsimp only [W8, hostOps0_7]
  after_results
  exact (pad2_zero _ _ pads_S1x512_S1x512_000_000 h_S_).trans (W7_arg4 m ρ c)
private theorem W9_v8 (m : (ℓ : Loc nD τ sig) → Buf (Elt Ideal) ℓ) (ρ : Dev nD → PrngReg) (c : Dev nD) : (W9 m ρ c (Proc.devRef .tc main_v8) : Mat 1 1024) = Bcat (m ((c : Thread nD τ).loc main_arg4)) := by
  dsimp only [W9, hostOps0_8]
  after_results
  exact (congrArg (fun (z : Mat 1 512) => concatenate S1x1024 1 [⟨S1x512, z⟩, ⟨S1x512, z⟩] concatenates_S1x512_S1x512_S1x1024_d1) (W8_v7 m ρ c)).trans (concat_cols _ _)

private theorem W8_arg5 (m : (ℓ : Loc nD τ sig) → Buf (Elt Ideal) ℓ) (ρ : Dev nD → PrngReg) (c : Dev nD) : (W8 m ρ c (Proc.devRef .tc main_arg5) : Mat 512 512) = (m ((c : Thread nD τ).loc main_arg5)) := by
  dsimp only [W8, W7, W6, W5, W4, W3, W2, W1, hostOps0, hostOps0_1, hostOps0_2, hostOps0_3, hostOps0_4, hostOps0_5, hostOps0_6, hostOps0_7]
  after_results
private theorem W9_v9 (m : (ℓ : Loc nD τ sig) → Buf (Elt Ideal) ℓ) (ρ : Dev nD → PrngReg) (c : Dev nD) : (W9 m ρ c (Proc.devRef .tc main_v9) : Mat 512 512) = Tr (m ((c : Thread nD τ).loc main_arg5)) := by
  dsimp only [W9, hostOps0_8]
  after_results
  exact (congrArg (fun (z : Mat 512 512) => transpose S512x512 [1, 0] z transposes_S512x512_S512x512_1_0) (W8_arg5 m ρ c)).trans (transpose_eq_Tr _ _)
private theorem W10_v10 (m : (ℓ : Loc nD τ sig) → Buf (Elt Ideal) ℓ) (ρ : Dev nD → PrngReg) (c : Dev nD) : (W10 m ρ c (Proc.devRef .tc main_v10) : Mat 512 512) = Tr (m ((c : Thread nD τ).loc main_arg5)) := by
  dsimp only [W10, hostOps0_9]
  after_results
  exact (pad2_zero _ _ pads_S512x512_S512x512_000_000 h_S_).trans (W9_v9 m ρ c)

private theorem W11_arg6 (m : (ℓ : Loc nD τ sig) → Buf (Elt Ideal) ℓ) (ρ : Dev nD → PrngReg) (c : Dev nD) : (W11 m ρ c (Proc.devRef .tc main_arg6) : Mat 1 512) = (m ((c : Thread nD τ).loc main_arg6)) := by
  dsimp only [W11, W10, W9, W8, W7, W6, W5, W4, W3, W2, W1, hostOps0, hostOps0_1, hostOps0_2, hostOps0_3, hostOps0_4, hostOps0_5, hostOps0_6, hostOps0_7, hostOps0_8, hostOps0_9, hostOps0_10]
  after_results

/-! ## The host lines before the first region: what each operand array of the three regions holds -/

theorem V12_v4 (m : (ℓ : Loc nD τ sig) → Buf (Elt Ideal) ℓ) (ρ : Dev nD → PrngReg) (c : Dev nD) : (V12 m ρ c main_v4 : Mat 8192 256) = Xall (m ((c : Thread nD τ).loc main_arg0)) (m ((c : Thread nD τ).loc main_arg1)) := by
  dsimp only [V12, W12, W11, W10, W9, W8, W7, W6, hostOps0_5, hostOps0_6, hostOps0_7, hostOps0_8, hostOps0_9, hostOps0_10, hostOps0_11]
  after_results
  exact W5_v4 m ρ c
theorem V12_v6 (m : (ℓ : Loc nD τ sig) → Buf (Elt Ideal) ℓ) (ρ : Dev nD → PrngReg) (c : Dev nD) : (V12 m ρ c main_v6 : Mat 256 512) = (m ((c : Thread nD τ).loc main_arg3)) := by
  dsimp only [V12, W12, W11, W10, W9, W8, hostOps0_7, hostOps0_8, hostOps0_9, hostOps0_10, hostOps0_11]
  after_results
  exact W7_v6 m ρ c
theorem V12_v8 (m : (ℓ : Loc nD τ sig) → Buf (Elt Ideal) ℓ) (ρ : Dev nD → PrngReg) (c : Dev nD) : (V12 m ρ c main_v8 : Mat 1 1024) = Bcat (m ((c : Thread nD τ).loc main_arg4)) := by
  dsimp only [V12, W12, W11, W10, hostOps0_9, hostOps0_10, hostOps0_11]
  after_results
  exact W9_v8 m ρ c
theorem V12_v10 (m : (ℓ : Loc nD τ sig) → Buf (Elt Ideal) ℓ) (ρ : Dev nD → PrngReg) (c : Dev nD) : (V12 m ρ c main_v10 : Mat 512 512) = Tr (m ((c : Thread nD τ).loc main_arg5)) := by
  dsimp only [V12, W12, W11, hostOps0_10, hostOps0_11]
  after_results
  exact W10_v10 m ρ c
theorem V12_v11 (m : (ℓ : Loc nD τ sig) → Buf (Elt Ideal) ℓ) (ρ : Dev nD → PrngReg) (c : Dev nD) : (V12 m ρ c main_v11 : Mat 1 512) = (m ((c : Thread nD τ).loc main_arg6)) := by
  dsimp only [V12, W12, hostOps0_11]
  after_results
  exact (pad2_zero _ _ pads_S1x512_S1x512_000_000 h_S_).trans (W11_arg6 m ρ c)
theorem V12_arg2 (m : (ℓ : Loc nD τ sig) → Buf (Elt Ideal) ℓ) (ρ : Dev nD → PrngReg) (c : Dev nD) : (V12 m ρ c main_arg2 : Mat 4096 4096) = (m ((c : Thread nD τ).loc main_arg2)) := by
  dsimp only [V12, W12, W11, W10, W9, W8, W7, W6, W5, W4, W3, W2, W1, hostOps0, hostOps0_1, hostOps0_2, hostOps0_3, hostOps0_4, hostOps0_5, hostOps0_6, hostOps0_7, hostOps0_8, hostOps0_9, hostOps0_10, hostOps0_11]
  after_results

/-! ## The host lines after the last region: the two halves of the columns, and the summary untouched -/

theorem W16_v15 (m : (ℓ : Loc nD τ sig) → Buf (Elt Ideal) ℓ) (ρ : Dev nD → PrngReg) (c : Dev nD) : (W16 m ρ c (Proc.devRef .tc main_v15) : Mat 4096 512) = SliceL (W15 m ρ c (Proc.devRef .tc main_v13_0)) := by
  dsimp only [W16, hostOps3]
  after_results
  exact slice_left _ _
theorem W16_v16 (m : (ℓ : Loc nD τ sig) → Buf (Elt Ideal) ℓ) (ρ : Dev nD → PrngReg) (c : Dev nD) : (W16 m ρ c (Proc.devRef .tc main_v16) : Mat 4096 512) = SliceR (W15 m ρ c (Proc.devRef .tc main_v13_0)) := by
  dsimp only [W16, hostOps3]
  after_results
  exact slice_right _ _
theorem W16_v14 (m : (ℓ : Loc nD τ sig) → Buf (Elt Ideal) ℓ) (ρ : Dev nD → PrngReg) (c : Dev nD) : (W16 m ρ c (Proc.devRef .tc main_v14) : Mat 1 512) = W15 m ρ c (Proc.devRef .tc main_v14) := by
  dsimp only [W16, hostOps3]
  after_results

end Cert.ReferenceIdeal.RVal
end
-- ==== Proof.RReg0.lean ====
import proofs.«126669_g2000106255353042_pallasbulk_995_17_alg».proof.Proof.Gen.ReferenceIdeal.Frame
import proofs.«126669_g2000106255353042_pallasbulk_995_17_alg».proof.Proof.RSpec
import Idealize.ShloMosaic.Lib.Pipeline.Value
import Idealize.ShloMosaic.Lib.ValueIdx
import Idealize.ShloMosaic.PureOps.Ideal.Laws

set_option maxRecDepth 16384

noncomputable section

namespace Cert.ReferenceIdeal.RVal
open Cert.ReferenceIdeal Cert.ReferenceIdeal.Gen Cert.Spec Cert.RSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

local notation "𝕄" => MT nD τ sig Unit (Elt Ideal) ℕ (UR sig nD τ) ℕ

/-- The zero offsets, however spelt. -/
private theorem reg0_hz : (![0, 0] : Fin 2 → Nat) = fun _ => 0 := funext fun a => by fin_cases a <;> rfl

/-- The product's left operand index, row coordinate: the result's row. -/
private theorem reg0_lhs_0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
/-- The left operand index, column coordinate: the contracted position. -/
private theorem reg0_lhs_1 (i : S1024x512.Idx) (q : dot_S1024x256_S256x512_S1024x512_1_0_0_1_n_n.contr.Idx) :
    (dot_S1024x256_S256x512_S1024x512_1_0_0_1_n_n.lhsIdx i q 1).val = (q ⟨0, by decide⟩).val :=
  dot_S1024x256_S256x512_S1024x512_1_0_0_1_n_n.lhsIdx_val_of_single rfl i q
/-- The right operand index, row coordinate: the contracted position. -/
private theorem reg0_rhs_0 (i : S1024x512.Idx) (q : dot_S1024x256_S256x512_S1024x512_1_0_0_1_n_n.contr.Idx) :
    (dot_S1024x256_S256x512_S1024x512_1_0_0_1_n_n.rhsIdx i q 0).val = (q ⟨0, by decide⟩).val :=
  dot_S1024x256_S256x512_S1024x512_1_0_0_1_n_n.rhsIdx_val_of_single rfl i q
/-- The right operand index, column coordinate: the result's column. -/
private theorem reg0_rhs_1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

/-- The body's stored value at row `p`, column `q` of the block: the sum over the 256 features of the feature block's
    row times the weights' column (the product into a zero accumulator is the plain sum; the narrowing is the identity). -/
private theorem reg0_pay_apply (x0 : FVec Ideal S1024x256 .bf16) (x1 : FVec Ideal S256x512 .bf16) (p : Fin 1024) (q : Fin 512) :
    k0_pay1 x0 x1 (ix2 p q) = ∑ d : Fin 256, x0 (ix2 p d) * x1 (ix2 d q) := by
  unfold k0_pay1
  simp only [shapeCast_self]
  rw [truncf_apply]
  refine (Ideal.matmul_constant_zero_apply dot_S1024x256_S256x512_S1024x512_1_0_0_1_n_n none x0 x1 (ix2 p q)).trans ?_
  rw [← Equiv.sum_comp (contrEquiv1 dot_S1024x256_S256x512_S1024x512_1_0_0_1_n_n 256 rfl rfl).symm]
  refine Finset.sum_congr rfl fun k _ => ?_
  have hk := contrEquiv1_symm_val dot_S1024x256_S256x512_S1024x512_1_0_0_1_n_n 256 rfl rfl k
  have el : dot_S1024x256_S256x512_S1024x512_1_0_0_1_n_n.lhsIdx (ix2 p q) ((contrEquiv1 dot_S1024x256_S256x512_S1024x512_1_0_0_1_n_n 256 rfl rfl).symm k) = ix2 p k := funext fun a => Fin.ext (by
    match a with
    | ⟨0, _⟩ => exact reg0_lhs_0 _ _
    | ⟨1, _⟩ => exact (reg0_lhs_1 _ _).trans hk)
  have er : dot_S1024x256_S256x512_S1024x512_1_0_0_1_n_n.rhsIdx (ix2 p q) ((contrEquiv1 dot_S1024x256_S256x512_S1024x512_1_0_0_1_n_n 256 rfl rfl).symm k) = ix2 k q := funext fun a => Fin.ext (by
    match a with
    | ⟨0, _⟩ => exact (reg0_rhs_0 _ _).trans hk
    | ⟨1, _⟩ => exact reg0_rhs_1 _ _)
  rw [el, er]

/-- One block of the result: with the feature block the rows `(4 i1 + i0) · 1024 …` of the stacked table and the weights whole,
    the stored value at `j` is the table of doubled width at row `i0 · 1024 + j 0`, column `i1 · 512 + j 1`. -/
private theorem reg0_block (xall : Mat 8192 256) (w : Mat 256 512)
    (x0 : FVec Ideal S1024x256 .bf16) (x1 : FVec Ideal S256x512 .bf16) (i0 i1 : ℕ) (h0 : i0 < 4) (h1 : i1 < 2)
    (hx0 : ∀ (y : S1024x256.Idx) (k : S8192x256.Idx), (k 0).val = (4 * i1 + i0) * 1024 + (y 0).val → (k 1).val = (y 1).val → x0 y = xall k)
    (hx1 : ∀ y : S256x512.Idx, x1 y = w y)
    (j : S1024x512.Idx) (k : S4096x1024.Idx) (hk0 : (k 0).val = i0 * 1024 + (j 0).val) (hk1 : (k 1).val = i1 * 512 + (j 1).val) :
    k0_pay1 (F := Ideal) x0 x1 j = HcatG xall w k := by
  obtain ⟨p, q, rfl⟩ : ∃ (p : Fin 1024) (q : Fin 512), j = ix2 p q := ⟨j 0, j 1, eq_ix2 j⟩
  rw [reg0_pay_apply]
  have hk0' : (k 0).val = i0 * 1024 + p.val := hk0
  have hk1' : (k 1).val = i1 * 512 + q.val := hk1
  have hq : q.val < 512 := q.isLt
  unfold HcatG
  by_cases hlt : (k 1).val < 512
  · rw [dif_pos hlt]
    refine Finset.sum_congr rfl fun d _ => ?_
    congr 1
    · exact hx0 _ _ (by show (k 0).val = (4 * i1 + i0) * 1024 + p.val; omega) rfl
    · exact (hx1 _).trans (congrArg w (congrArg (ix2 d) (Fin.ext (by show q.val = (k 1).val; omega))))
  · rw [dif_neg hlt]
    refine Finset.sum_congr rfl fun d _ => ?_
    congr 1
    · exact hx0 _ _ (by show 4096 + (k 0).val = (4 * i1 + i0) * 1024 + p.val; omega) rfl
    · exact (hx1 _).trans (congrArg w (congrArg (ix2 d) (Fin.ext (by show q.val = (k 1).val - 512; omega))))

/-- The printed index maps over the eight points: the feature window's block is number `4 · (output column block) + (output row
    block)` on the rows, the weights' window does not move, and the output's block indices stay in their ranges. -/
private theorem reg0_idx_facts : ∀ t : Fin cfg0.N,
    win0_0.index t (0 : Fin 2) = 4 * win0_2.index t (1 : Fin 2) + win0_2.index t (0 : Fin 2)
    ∧ win0_0.index t (1 : Fin 2) = 0
    ∧ win0_1.index t (0 : Fin 2) = 0
    ∧ win0_1.index t (1 : Fin 2) = 0
    ∧ win0_2.index t (0 : Fin 2) < 4
    ∧ win0_2.index t (1 : Fin 2) < 2 :=
  (by decide +kernel : ∀ t : Fin grid0.N, _)

/-- Every block of the result is some point's. -/
private theorem reg0_idx_onto : ∀ (q0 : Fin 4) (q1 : Fin 2), ∃ t : Fin cfg0.N, win0_2.index t = ![q0.val, q1.val] :=
  (by decide +kernel : ∀ (q0 : Fin 4) (q1 : Fin 2), ∃ t : Fin grid0.N, win0_2.index t = ![q0.val, q1.val])

/-- What point `t` writes back is block `t` of the table of doubled width. -/
private theorem reg0_flushed_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal) (HcatG (V c main_v4) (V c main_v6)) := by
  show (cfg0.win 2).cut (grid0.coords t) ((dat0 (F := Ideal) V c).after 2 t) = _
  rw [after0_2]
  unfold out0_2
  rw [View.canon_unit_zero reg0_hz]
  simp only [View.ld_unit_zero (S := S1024x256) reg0_hz, View.ld_unit_zero (S := S256x512) reg0_hz]
  obtain ⟨e0, e1, e2, e3, e4, e5⟩ := reg0_idx_facts t
  funext j
  show k0_pay1 (iblk0 V c 0 t) (iblk0 V c 1 t) j = HcatG (V c main_v4) (V c main_v6) (((cfg0.win 2).blk t).view.emb j)
  refine reg0_block (V c main_v4) (V c main_v6) _ _ (win0_2.index t (0 : Fin 2)) (win0_2.index t (1 : Fin 2)) e4 e5 ?_ ?_ j _ ?_ ?_
  · intro y k hk0 hk1
    show V c main_v4 (((cfg0.win 0).blk t).view.emb y) = V c main_v4 k
    have h : ((cfg0.win 0).blk t).view.emb y = k := by
      funext a; apply Fin.ext
      match a with
      | ⟨0, _⟩ => show win0_0.index t (0 : Fin 2) * 1024 + 1 * (y 0).val = (k 0).val; omega
      | ⟨1, _⟩ => show win0_0.index t (1 : Fin 2) * 256 + 1 * (y 1).val = (k 1).val; omega
    rw [h]
  · intro y
    show V c main_v6 (((cfg0.win 1).blk t).view.emb y) = V c main_v6 y
    have h : ((cfg0.win 1).blk t).view.emb y = y := by
      funext a; apply Fin.ext
      match a with
      | ⟨0, _⟩ => show win0_1.index t (0 : Fin 2) * 256 + 1 * (y 0).val = (y 0).val; omega
      | ⟨1, _⟩ => show win0_1.index t (1 : Fin 2) * 512 + 1 * (y 1).val = (y 1).val; omega
    rw [h]
  · show win0_2.index t (0 : Fin 2) * 1024 + 1 * (j 0).val = win0_2.index t (0 : Fin 2) * 1024 + (j 0).val; omega
  · show win0_2.index t (1 : Fin 2) * 512 + 1 * (j 1).val = win0_2.index t (1 : Fin 2) * 512 + (j 1).val; omega

/-- An index of the result is in point `t`'s block iff each coordinate is in the block's range on its axis. -/
private theorem reg0_mem_blk (t : Fin cfg0.N) (i : S4096x1024.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v12).slice (win0_2.rect t)).set ↔ _
  rw [View.set_slice_whole, Rect.mem_set_unit]
  exact Iff.rfl

/-- Row `r`, column `j` of the result lie in the block of the point whose row block is `r / 1024` and column block `j / 512`. -/
private theorem reg0_cover (i : S4096x1024.Idx) :
    ∃ t : Fin cfg0.N, (cfg0.win 2).flush t = true ∧ i ∈ ((cfg0.win 2).blk t).view.set := by
  have hi0 : (i 0).val < 4096 := (i 0).isLt
  have hi1 : (i 1).val < 1024 := (i 1).isLt
  obtain ⟨t, ht⟩ := reg0_idx_onto ⟨(i 0).val / 1024, by omega⟩ ⟨(i 1).val / 512, by omega⟩
  have q0 : win0_2.index t (0 : Fin 2) = (i 0).val / 1024 := congrFun ht 0
  have q1 : win0_2.index t (1 : Fin 2) = (i 1).val / 512 := congrFun ht 1
  refine ⟨t, flush0_2 t, ?_⟩
  rw [reg0_mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

/-- The first region's result array after its eight points: every block of 1024 × 512 of the table of doubled width is
    its point's block of the stacked features times the weights. -/
theorem reg0 (V : (c : Dev nD) → (b : Ref sig .tc) → Buf (Elt Ideal) ((c : Thread nD τ).loc b)) (c : Dev nD) :
    ((dat0 (F := Ideal) V c).arrAt 2 cfg0.N : Mat 4096 1024) = HcatG (V c main_v4) (V c main_v6) := by
  exact (dat0 (F := Ideal) V c).arrAt_eq_of_cover 2 (HcatG (V c main_v4) (V c main_v6)) (fun t _ => reg0_flushed_eq V c t) reg0_cover

end Cert.ReferenceIdeal.RVal
end
-- ==== Proof.RReg1Blk.lean ====
import proofs.«126669_g2000106255353042_pallasbulk_995_17_alg».proof.Proof.Gen.ReferenceIdeal.Frame
import proofs.«126669_g2000106255353042_pallasbulk_995_17_alg».proof.Proof.RSpec
import Idealize.ShloMosaic.Lib.Pipeline.Value
import Idealize.ShloMosaic.Lib.ValueIdx
import Idealize.ShloMosaic.PureOps.Ideal.Laws
import Idealize.ShloMosaic.Lib.ValueLayout
import Idealize.ShloMosaic.Lib.StableHlo.Predicate

set_option maxRecDepth 16384

noncomputable section

namespace Cert.ReferenceIdeal.RVal
open Cert.ReferenceIdeal Cert.ReferenceIdeal.Gen Cert.Spec Cert.RSpec
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

section Pieces
variable {F : FTy → Type} [FloatOps F]

/-- The zero offsets of a whole-buffer rectangle. -/
private theorem hz2 : (![0, 0] : Fin 2 → Nat) = fun _ => 0 := funext fun a => by fin_cases a <;> rfl

/-- First chunk, first result: the bias-or-zero block stored, read back, and the block product added. -/
private theorem pieceA3 (c : Dev nD) (i : grid1.Coords) (arg2 : Memref sig .tc .vmem S512x2048 .bf16) (harg2 : arg2.IsWhole) (arg3 : Memref sig .tc .vmem S2048x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S8x512 .f32) (harg6 : arg6.IsWhole) (hc0 : cond1_0 i) (hc1 : ¬cond1_1 i)
    (x0 : Vec F S512x2048 .bf16) (x1 : Vec F S2048x1024 .bf16) (x2 : Vec F S1x1024 .f32) :
    out1_A_3 c i arg2 harg2 arg3 harg3 arg4 harg4 arg5 harg5 arg6 harg6 hc0 hc1 x0 x1 x2 = k1_pay2 (k1_pay1 i x2) x0 x1 := by
  unfold out1_A_3
  rw [View.read_writes_eq_canon _ _ _ (cover1_A_3 c i arg2 harg2 arg3 harg3 arg4 harg4 arg5 harg5 arg6 harg6 hc0 hc1 x0 x1 x2)]
  unfold kernelRun1_A
  dsimp only
  sl_unfold_words
  rw [View.canon_cons_unit_zero (S := S512x1024) hz2, View.readCov_unit_zero (S := S512x1024) _ hz2]
  simp only [View.readAt_eq_ld, harg2.read_unread, harg3.read_unread, harg4.read_unread,
    View.ld_unit_zero (S := S512x2048) hz2, View.ld_unit_zero (S := S2048x1024) hz2, View.ld_unit_zero (S := S1x1024) hz2]

/-- Second chunk, first result: the block product added to what the first chunk left. -/
private theorem pieceB3 (c : Dev nD) (i : grid1.Coords) (arg2 : Memref sig .tc .vmem S512x2048 .bf16) (harg2 : arg2.IsWhole) (arg3 : Memref sig .tc .vmem S2048x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S8x512 .f32) (harg6 : arg6.IsWhole) (hc0 : ¬cond1_0 i) (hc1 : cond1_1 i)
    (x0 : Vec F S512x2048 .bf16) (x1 : Vec F S2048x1024 .bf16) (x2 : Vec F S1x1024 .f32) (xo3 : Vec F S512x1024 .f32) :
    out1_B_3 c i arg2 harg2 arg3 harg3 arg4 harg4 arg5 harg5 arg6 harg6 hc0 hc1 x0 x1 x2 xo3 = k1_pay2 xo3 x0 x1 := by
  unfold out1_B_3
  rw [View.read_writes_eq_canon _ _ _ (cover1_B_3 c i arg2 harg2 arg3 harg3 arg4 harg4 arg5 harg5 arg6 harg6 hc0 hc1 x0 x1 x2 xo3)]
  unfold kernelRun1_B
  dsimp only
  sl_unfold_words
  rw [View.canon_unit_zero (S := S512x1024) hz2]
  simp only [View.readAt_eq_ld, harg2.read_unread, harg3.read_unread, harg5.read_unread,
    View.ld_unit_zero (S := S512x2048) hz2, View.ld_unit_zero (S := S2048x1024) hz2, View.ld_unit_zero (S := S512x1024) hz2]

/-- Second chunk, second result: the column sums of what the second chunk leaves in the first result. -/
private theorem pieceB4 (c : Dev nD) (i : grid1.Coords) (arg2 : Memref sig .tc .vmem S512x2048 .bf16) (harg2 : arg2.IsWhole) (arg3 : Memref sig .tc .vmem S2048x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S8x512 .f32) (harg6 : arg6.IsWhole) (hc0 : ¬cond1_0 i) (hc1 : cond1_1 i)
    (x0 : Vec F S512x2048 .bf16) (x1 : Vec F S2048x1024 .bf16) (x2 : Vec F S1x1024 .f32) (xo3 : Vec F S512x1024 .f32) :
    out1_B_4 c i arg2 harg2 arg3 harg3 arg4 harg4 arg5 harg5 arg6 harg6 hc0 hc1 x0 x1 x2 xo3 = k1_pay3 (k1_pay2 xo3 x0 x1) := by
  unfold out1_B_4
  rw [View.read_writes_eq_canon _ _ _ (cover1_B_4 c i arg2 harg2 arg3 harg3 arg4 harg4 arg5 harg5 arg6 harg6 hc0 hc1 x0 x1 x2 xo3)]
  unfold kernelRun1_B
  dsimp only
  sl_unfold_words
  rw [View.canon_unit_zero (S := S8x512) hz2]
  simp only [View.readCov_unit_zero (S := S512x1024) _ hz2, View.readAt_eq_ld, harg2.read_unread, harg3.read_unread, harg5.read_unread,
    View.ld_unit_zero (S := S512x2048) hz2, View.ld_unit_zero (S := S2048x1024) hz2, View.ld_unit_zero (S := S512x1024) hz2]

end Pieces

section Payloads

/-- The block product's dimension numbers: rows by the contracted columns, times the contracted rows by columns. -/
private abbrev D1 : DotDims S512x2048 S2048x1024 S512x1024 := dot_S512x2048_S2048x1024_S512x1024_1_0_0_1_n_n

private theorem lhs_D1_0 (j : S512x1024.Idx) (k : dot_S512x2048_S2048x1024_S512x1024_1_0_0_1_n_n.contr.Idx) :
    (dot_S512x2048_S2048x1024_S512x1024_1_0_0_1_n_n.lhsIdx j k 0).val = (j 0).val := rfl
private theorem lhs_D1_1 (j : S512x1024.Idx) (k : dot_S512x2048_S2048x1024_S512x1024_1_0_0_1_n_n.contr.Idx) :
    (dot_S512x2048_S2048x1024_S512x1024_1_0_0_1_n_n.lhsIdx j k 1).val = (k ⟨0, by decide⟩).val := rfl
private theorem rhs_D1_0 (j : S512x1024.Idx) (k : dot_S512x2048_S2048x1024_S512x1024_1_0_0_1_n_n.contr.Idx) :
    (dot_S512x2048_S2048x1024_S512x1024_1_0_0_1_n_n.rhsIdx j k 0).val = (k ⟨0, by decide⟩).val := rfl
private theorem rhs_D1_1 (j : S512x1024.Idx) (k : dot_S512x2048_S2048x1024_S512x1024_1_0_0_1_n_n.contr.Idx) :
    (dot_S512x2048_S2048x1024_S512x1024_1_0_0_1_n_n.rhsIdx j k 1).val = (j 1).val := rfl

/-- The row test of the first chunk's store: row `512 · tile + r` of at most eight tiles is below 4096 as signed words. -/
private theorem row_lt (a r : Nat) (ha : a < 8) (hr : r < 512) :
    IntOp.cmpi .slt (IntOp.addi (Scalar.muli (BitVec.ofNat 32 a) 512#32) (BitVec.ofNat 32 r)) 4096#32 = 1#1 := by
  have hv : (IntOp.addi (Scalar.muli (BitVec.ofNat 32 a) 512#32) (BitVec.ofNat 32 r)).toNat = 512 * a + r := by
    simp only [IntOp.addi, Scalar.muli, IntOp.muli, BitVec.toNat_add, BitVec.toNat_mul, BitVec.toNat_ofNat]
    omega
  refine (StableHlo.Predicate.slt_iff_toNat ?_ ?_).mpr ?_
  · rw [hv]; omega
  · decide
  · rw [hv]; show 512 * a + r < 4096; omega

/-- What the first chunk stores first, at an element: the bias row's entry of the column. -/
private theorem pay1_apply (i : grid1.Coords) (v20 : Mat 1 1024) (r : Fin 512) (j : Fin 1024) :
    k1_pay1 (F := Ideal) i v20 (ix2 r j) = v20 (ix2 (0 : Fin 1) j) := by
  unfold k1_pay1
  dsimp only
  refine (select_apply _ _ _ (ix2 r j)).trans ?_
  have hc : cmpi .slt (addi (broadcast S512x1024 (Scalar.muli (BitVec.ofNat 32 (i 0).val) 512#32)) (iota .tc S512x1024 32 [0] iota_S512x1024_d0_w32))
      (broadcast S512x1024 4096#32) (ix2 r j) = 1#1 := by
    show IntOp.cmpi .slt (IntOp.addi (Scalar.muli (BitVec.ofNat 32 (i 0).val) 512#32) (iota .tc S512x1024 32 [0] iota_S512x1024_d0_w32 (ix2 r j))) 4096#32 = 1#1
    rw [iota_single_apply]
    exact row_lt (i 0).val r.val (i 0).isLt r.isLt
  refine (congrArg (fun b => Scalar.select b _ _) hc).trans ?_
  refine (select_one _ _).trans ?_
  refine (broadcastTo_1b_ab_apply _ _ r j).trans ?_
  refine (congrFun (shapeCast_self _ _) _).trans ?_
  exact congrFun (shapeCast_self _ _) _

end Payloads

section Payloads2

/-- What either chunk stores into the first result, at an element: the running entry plus the row of the adjacency
    block against the column of the table block. -/
private theorem pay2_apply (v3 : Mat 512 1024) (v5 : Mat 512 2048) (v6 : Mat 2048 1024) (r : Fin 512) (j : Fin 1024) :
    k1_pay2 (F := Ideal) v3 v5 v6 (ix2 r j) = v3 (ix2 r j) + ∑ q : Fin 2048, v5 (ix2 r q) * v6 (ix2 q j) := by
  unfold k1_pay2
  refine (addf_apply _ _ (ix2 r j)).trans ?_
  refine congrArg₂ (· + ·) (congrFun (shapeCast_self v3 _) (ix2 r j)) ?_
  refine (Ideal.matmul_constant_zero_apply D1 none v5 _ (ix2 r j)).trans ?_
  refine (Equiv.sum_comp (contrEquiv1 D1 2048 rfl rfl).symm _).symm.trans ?_
  refine Finset.sum_congr rfl fun q _ => ?_
  have hq : (((contrEquiv1 D1 2048 rfl rfl).symm q) ⟨0, by decide⟩ : ℕ) = q.val := contrEquiv1_symm_val D1 2048 rfl rfl q
  refine congrArg₂ (· * ·) (congrArg v5 ?_) ((congrFun (shapeCast_self v6 _) _).trans (congrArg v6 ?_))
  · funext a; apply Fin.ext
    match a with
    | ⟨0, _⟩ => exact lhs_D1_0 _ _
    | ⟨1, _⟩ => exact (lhs_D1_1 _ _).trans hq
  · funext a; apply Fin.ext
    match a with
    | ⟨0, _⟩ => exact (rhs_D1_0 _ _).trans hq
    | ⟨1, _⟩ => exact rhs_D1_1 _ _

/-- What the second chunk stores into the second result, at an element: the column's sum over the block's 512 rows,
    the column among the left 512. -/
private theorem pay3_apply (v14 : Mat 512 1024) (b : Fin 8) (j : Fin 512) :
    k1_pay3 (F := Ideal) v14 (ix2 b j) = ∑ r : Fin 512, v14 (ix2 r (⟨j.val, by omega⟩ : Fin 1024)) := by
  unfold k1_pay3
  refine (broadcastTo_1b_ab_apply _ _ b j).trans ?_
  refine (congrFun (shapeCast_self _ _) _).trans ?_
  refine (shapeCast_a_1a_apply _ _ (0 : Fin 1) j).trans ?_
  refine (Ideal.multiReduction_add_single _ _ _ _ _ (ix1 j)).trans ?_
  refine Finset.sum_congr rfl fun r _ => ?_
  refine (extractStridedSlice_apply _ _ _ _ (ix2 (⟨r.val, r.isLt⟩ : Fin 512) (⟨j.val, by omega⟩ : Fin 1024)) fun a => ?_).trans ?_
  · match a with
    | ⟨0, _⟩ => exact (Nat.zero_add _).symm
    | ⟨1, _⟩ => exact (Nat.zero_add _).symm
  · exact congrFun (shapeCast_self v14 _) _

end Payloads2

section Blocks
variable (V : (c : Dev nD) → (b : Ref sig .tc) → Buf (Elt Ideal) ((c : Thread nD τ).loc b)) (c : Dev nD)

/-- The adjacency block, the table's rows chunk and the bias row at a point, and the three arrays they are cut from. -/
private abbrev ablk (t : Fin cfg1.N) : Mat 512 2048 := iblk1 (F := Ideal) V c 0 t
private abbrev hblk (t : Fin cfg1.N) : Mat 2048 1024 := iblk1 (F := Ideal) V c 1 t
private abbrev bblk (t : Fin cfg1.N) : Mat 1 1024 := iblk1 (F := Ideal) V c 2 t
private abbrev aarr : Mat 4096 4096 := V c main_arg2
private abbrev harr : Mat 4096 1024 := V c main_v12
private abbrev barr : Mat 1 1024 := V c main_v8

/-- The input windows' block indices at a point: the adjacency's (tile, chunk), the table's (chunk, 0), the bias's (0, 0). -/
private theorem idx_in : ∀ t : Fin cfg1.N,
    win1_0.index t (0 : Fin 2) = t.val / 2 ∧ win1_0.index t (1 : Fin 2) = t.val % 2
    ∧ win1_1.index t (0 : Fin 2) = t.val % 2 ∧ win1_1.index t (1 : Fin 2) = 0
    ∧ win1_2.index t (0 : Fin 2) = 0 ∧ win1_2.index t (1 : Fin 2) = 0 :=
  (by decide +kernel : ∀ t : Fin grid1.N, _)

/-- The adjacency block at a point reads the adjacency at the tile's row and the chunk's column. -/
private theorem ablk_apply (t : Fin cfg1.N) (r : Fin 512) (q : Fin 2048) (n p : Fin 4096)
    (hn : n.val = 512 * (t.val / 2) + r.val) (hp : p.val = 2048 * (t.val % 2) + q.val) :
    ablk V c t (ix2 r q) = aarr V c (ix2 n p) := by
  obtain ⟨e0, e1, -⟩ := idx_in t
  show iblk1 V c 0 t (ix2 r q) = _
  unfold iblk1
  rw [View.read_apply]
  show V c main_arg2 _ = V c main_arg2 _
  refine congrArg _ ?_
  funext a; apply Fin.ext
  match a with
  | ⟨0, _⟩ => show win1_0.index t (0 : Fin 2) * 512 + 1 * r.val = n.val; rw [e0, hn]; omega
  | ⟨1, _⟩ => show win1_0.index t (1 : Fin 2) * 2048 + 1 * q.val = p.val; rw [e1, hp]; omega

/-- The table block at a point reads the table at the chunk's row. -/
private theorem hblk_apply (t : Fin cfg1.N) (q : Fin 2048) (j : Fin 1024) (p : Fin 4096)
    (hp : p.val = 2048 * (t.val % 2) + q.val) :
    hblk V c t (ix2 q j) = harr V c (ix2 p j) := by
  obtain ⟨-, -, e0, e1, -⟩ := idx_in t
  show iblk1 V c 1 t (ix2 q j) = _
  unfold iblk1
  rw [View.read_apply]
  show V c main_v12 _ = V c main_v12 _
  refine congrArg _ ?_
  funext a; apply Fin.ext
  match a with
  | ⟨0, _⟩ => show win1_1.index t (0 : Fin 2) * 2048 + 1 * q.val = p.val; rw [e0, hp]; omega
  | ⟨1, _⟩ => show win1_1.index t (1 : Fin 2) * 1024 + 1 * j.val = j.val; rw [e1]; omega

/-- The bias block at a point is the bias row. -/
private theorem bblk_apply (t : Fin cfg1.N) (j : Fin 1024) :
    bblk V c t (ix2 (0 : Fin 1) j) = barr V c (ix2 (0 : Fin 1) j) := by
  obtain ⟨-, -, -, -, e0, e1⟩ := idx_in t
  show iblk1 V c 2 t (ix2 (0 : Fin 1) j) = _
  unfold iblk1
  rw [View.read_apply]
  show V c main_v8 _ = V c main_v8 _
  refine congrArg _ ?_
  funext a; apply Fin.ext
  match a with
  | ⟨0, _⟩ => show win1_2.index t (0 : Fin 2) * 1 + 1 * 0 = 0; rw [e0]
  | ⟨1, _⟩ => show win1_2.index t (1 : Fin 2) * 1024 + 1 * j.val = j.val; rw [e1]; omega

/-- After the first chunk of a tile the first result holds, at an element, the bias entry plus the first block product. -/
private theorem first_chunk (t : Fin cfg1.N) (h0 : t.val % 2 = 0) (h1 : ¬t.val % 2 = 1) (r : Fin 512) (j : Fin 1024) :
    ((outsAt1 (F := Ideal) V c t.val t.isLt).1 : Mat 512 1024) (ix2 r j)
      = bblk V c t (ix2 (0 : Fin 1) j) + ∑ q : Fin 2048, ablk V c t (ix2 r q) * hblk V c t (ix2 q j) := by
  rw [outsAt1_A V c t h0 h1]
  dsimp only
  refine (congrFun (pieceA3 (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (fun h => h1 ((hcond1_1 t).mp h)) (iblk1 V c 0 t) (iblk1 V c 1 t) (iblk1 V c 2 t)) (ix2 r j)).trans ?_
  refine (pay2_apply _ _ _ r j).trans ?_
  exact congrArg (· + _) (pay1_apply _ _ r j)

/-- After the second chunk it holds that plus the second block product. -/
private theorem second_chunk (t : Fin cfg1.N) (ht : t.val % 2 = 1) (r : Fin 512) (j : Fin 1024) :
    ((outsAt1 (F := Ideal) V c t.val t.isLt).1 : Mat 512 1024) (ix2 r j)
      = (bblk V c ⟨t.val - 1, Nat.lt_of_le_of_lt (Nat.sub_le _ _) t.isLt⟩ (ix2 (0 : Fin 1) j)
          + ∑ q : Fin 2048, ablk V c ⟨t.val - 1, Nat.lt_of_le_of_lt (Nat.sub_le _ _) t.isLt⟩ (ix2 r q)
              * hblk V c ⟨t.val - 1, Nat.lt_of_le_of_lt (Nat.sub_le _ _) t.isLt⟩ (ix2 q j))
        + ∑ q : Fin 2048, ablk V c t (ix2 r q) * hblk V c t (ix2 q j) := by
  have h0 : ¬t.val % 2 = 0 := by omega
  rw [outsAt1_B V c t h0 ht]
  dsimp only
  refine (congrFun (pieceB3 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) ((hcond1_1 t).mpr ht) (iblk1 V c 0 t) (iblk1 V c 1 t) (iblk1 V c 2 t) (outsAt1 V c (t.val - 1) (Nat.lt_of_le_of_lt (Nat.sub_le _ _) t.isLt)).1) (ix2 r j)).trans ?_
  refine (pay2_apply _ _ _ r j).trans ?_
  exact congrArg (· + _) (first_chunk V c ⟨t.val - 1, Nat.lt_of_le_of_lt (Nat.sub_le _ _) t.isLt⟩ (by show (t.val - 1) % 2 = 0; omega) (by show ¬(t.val - 1) % 2 = 1; omega) r j)

/-- After the second chunk the second result holds, on each of its rows, the column sums of the first over its 512 rows. -/
private theorem second_result (t : Fin cfg1.N) (ht : t.val % 2 = 1) (b : Fin 8) (j : Fin 512) :
    ((outsAt1 (F := Ideal) V c t.val t.isLt).2 : Mat 8 512) (ix2 b j)
      = ∑ r : Fin 512, ((outsAt1 (F := Ideal) V c t.val t.isLt).1 : Mat 512 1024) (ix2 r (⟨j.val, by omega⟩ : Fin 1024)) := by
  have h0 : ¬t.val % 2 = 0 := by omega
  rw [outsAt1_B V c t h0 ht]
  dsimp only
  refine (congrFun (pieceB4 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) ((hcond1_1 t).mpr ht) (iblk1 V c 0 t) (iblk1 V c 1 t) (iblk1 V c 2 t) (outsAt1 V c (t.val - 1) (Nat.lt_of_le_of_lt (Nat.sub_le _ _) t.isLt)).1) (ix2 b j)).trans ?_
  refine (pay3_apply _ b j).trans ?_
  refine Finset.sum_congr rfl fun r _ => ?_
  exact (congrFun (pieceB3 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) ((hcond1_1 t).mpr ht) (iblk1 V c 0 t) (iblk1 V c 1 t) (iblk1 V c 2 t) (outsAt1 V c (t.val - 1) (Nat.lt_of_le_of_lt (Nat.sub_le _ _) t.isLt)).1) (ix2 r (⟨j.val, by omega⟩ : Fin 1024))).symm

end Blocks

/-- After the second (last) chunk of row tile `t.val / 2`, the second region's first result window holds the tile's 512 rows of
    the bias row plus the adjacency's two halves of columns against the table's two halves of rows. -/
theorem outs1_fst (V : (c : Dev nD) → (b : Ref sig .tc) → Buf (Elt Ideal) ((c : Thread nD τ).loc b)) (c : Dev nD) (t : Fin cfg1.N) (ht : t.val % 2 = 1) :
    ((outsAt1 (F := Ideal) V c t.val t.isLt).1 : (⟨2, ![512, 1024]⟩ : Shape).Idx → EReal)
      = fun y => ZallG (V c main_arg2) (V c main_v12) (V c main_v8)
          (ix2 (⟨512 * (t.val / 2) + (y 0).val, by have := t.isLt; have hN : cfg1.N = 16 := N_1; have h0 := idx2_lt0 y; omega⟩ : Fin 4096) (y 1)) := by
  have hN : cfg1.N = 16 := N_1
  have htl := t.isLt
  funext y
  obtain ⟨r, j, rfl⟩ : ∃ (r : Fin 512) (j : Fin 1024), y = ix2 r j := ⟨y 0, y 1, eq_ix2 y⟩
  refine (second_chunk V c t ht r j).trans ?_
  show _ = ZallG (V c main_arg2) (V c main_v12) (V c main_v8) (ix2 (⟨512 * (t.val / 2) + r.val, by omega⟩ : Fin 4096) j)
  unfold ZallG
  refine congrArg₂ (· + ·) (congrArg₂ (· + ·) (bblk_apply V c _ j) (Finset.sum_congr rfl fun q _ => ?_)) (Finset.sum_congr rfl fun q _ => ?_)
  · exact congrArg₂ (· * ·)
      (ablk_apply V c _ r q _ (rowR 0 q) (by show 512 * (t.val / 2) + r.val = 512 * ((t.val - 1) / 2) + r.val; omega)
        (by show 2048 * 0 + q.val = 2048 * ((t.val - 1) % 2) + q.val; omega))
      (hblk_apply V c _ q j (rowR 0 q) (by show 2048 * 0 + q.val = 2048 * ((t.val - 1) % 2) + q.val; omega))
  · exact congrArg₂ (· * ·)
      (ablk_apply V c t r q _ (rowR 1 q) (by show 512 * (t.val / 2) + r.val = 512 * (t.val / 2) + r.val; rfl)
        (by show 2048 * 1 + q.val = 2048 * (t.val % 2) + q.val; omega))
      (hblk_apply V c t q j (rowR 1 q) (by show 2048 * 1 + q.val = 2048 * (t.val % 2) + q.val; omega))

/-- and its second result window the tile's column sums over the left 512 columns, on each of its eight rows. -/
theorem outs1_snd (V : (c : Dev nD) → (b : Ref sig .tc) → Buf (Elt Ideal) ((c : Thread nD τ).loc b)) (c : Dev nD) (t : Fin cfg1.N) (ht : t.val % 2 = 1) :
    ((outsAt1 (F := Ideal) V c t.val t.isLt).2 : (⟨2, ![8, 512]⟩ : Shape).Idx → EReal)
      = fun y => PartG (ZallG (V c main_arg2) (V c main_v12) (V c main_v8))
          (ix2 (⟨8 * (t.val / 2) + (y 0).val, by have := t.isLt; have hN : cfg1.N = 16 := N_1; have h0 := idx2_lt0 y; omega⟩ : Fin 64) (y 1)) := by
  have hN : cfg1.N = 16 := N_1
  have htl := t.isLt
  funext y
  obtain ⟨b, j, rfl⟩ : ∃ (b : Fin 8) (j : Fin 512), y = ix2 b j := ⟨y 0, y 1, eq_ix2 y⟩
  refine (second_result V c t ht b j).trans ?_
  show _ = PartG (ZallG (V c main_arg2) (V c main_v12) (V c main_v8)) (ix2 (⟨8 * (t.val / 2) + b.val, by omega⟩ : Fin 64) j)
  unfold PartG
  refine Finset.sum_congr rfl fun q _ => ?_
  refine (congrFun (outs1_fst V c t ht) (ix2 q (⟨j.val, by omega⟩ : Fin 1024))).trans ?_
  refine congrArg (ZallG (V c main_arg2) (V c main_v12) (V c main_v8)) ?_
  refine congrArg₂ (fun (a : Fin 4096) (b : Fin 1024) => ix2 a b) (Fin.ext ?_) rfl
  show 512 * (t.val / 2) + q.val = 512 * ((8 * (t.val / 2) + b.val) / 8) + q.val
  omega

end Cert.ReferenceIdeal.RVal
end
-- ==== Proof.RReg1.lean ====
import proofs.«126669_g2000106255353042_pallasbulk_995_17_alg».proof.Proof.Gen.ReferenceIdeal.Frame
import proofs.«126669_g2000106255353042_pallasbulk_995_17_alg».proof.Proof.RReg1Blk
import proofs.«126669_g2000106255353042_pallasbulk_995_17_alg».proof.Proof.RSpec
import Idealize.ShloMosaic.Lib.Pipeline.Value
import Idealize.ShloMosaic.Lib.ValueIdx
import Idealize.ShloMosaic.PureOps.Ideal.Laws

set_option maxRecDepth 16384

noncomputable section

namespace Cert.ReferenceIdeal.RVal
open Cert.ReferenceIdeal Cert.ReferenceIdeal.Gen Cert.Spec Cert.RSpec
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The block index of the first result window at a point: the point's row tile, and column block 0. -/
private theorem idx_z : ∀ t : Fin cfg1.N, win1_3.index t (0 : Fin 2) = t.val / 2 ∧ win1_3.index t (1 : Fin 2) = 0 :=
  (by decide +kernel : ∀ t : Fin grid1.N, _)

/-- The block index of the second result window at a point: the point's row tile, and column block 0. -/
private theorem idx_p : ∀ t : Fin cfg1.N, win1_4.index t (0 : Fin 2) = t.val / 2 ∧ win1_4.index t (1 : Fin 2) = 0 :=
  (by decide +kernel : ∀ t : Fin grid1.N, _)

/-- What an odd point writes back of the first result is its block of the whole-array function. -/
private theorem flushed_z (V : (c : Dev nD) → (b : Ref sig .tc) → Buf (Elt Ideal) ((c : Thread nD τ).loc b)) (c : Dev nD)
    (t : Fin cfg1.N) (ht : t.val % 2 = 1) :
    (dat1 (F := Ideal) V c).flushed 3 t
      = ((cfg1.win 3).blk t).view.read (Elt Ideal) (ZallG (V c main_arg2) (V c main_v12) (V c main_v8)) := by
  show (cfg1.win 3).cut (grid1.coords t) ((dat1 V c).after 3 t) = _
  rw [after1_3, outs1_fst V c t ht]
  obtain ⟨e0, e1⟩ := idx_z t
  funext j
  show ZallG (V c main_arg2) (V c main_v12) (V c main_v8) _ = ZallG (V c main_arg2) (V c main_v12) (V c main_v8) (((cfg1.win 3).blk t).view.emb j)
  refine congrArg _ ?_
  funext a; apply Fin.ext
  match a with
  | ⟨0, _⟩ => show 512 * (t.val / 2) + (j 0).val = win1_3.index t (0 : Fin 2) * 512 + 1 * (j 0).val; omega
  | ⟨1, _⟩ => show (j 1).val = win1_3.index t (1 : Fin 2) * 1024 + 1 * (j 1).val; omega

/-- What an odd point writes back of the second result is its block of the whole-array function. -/
private theorem flushed_p (V : (c : Dev nD) → (b : Ref sig .tc) → Buf (Elt Ideal) ((c : Thread nD τ).loc b)) (c : Dev nD)
    (t : Fin cfg1.N) (ht : t.val % 2 = 1) :
    (dat1 (F := Ideal) V c).flushed 4 t
      = ((cfg1.win 4).blk t).view.read (Elt Ideal) (PartG (ZallG (V c main_arg2) (V c main_v12) (V c main_v8))) := by
  show (cfg1.win 4).cut (grid1.coords t) ((dat1 V c).after 4 t) = _
  rw [after1_4, outs1_snd V c t ht]
  obtain ⟨e0, e1⟩ := idx_p t
  funext j
  show PartG (ZallG (V c main_arg2) (V c main_v12) (V c main_v8)) _
    = PartG (ZallG (V c main_arg2) (V c main_v12) (V c main_v8)) (((cfg1.win 4).blk t).view.emb j)
  refine congrArg _ ?_
  funext a; apply Fin.ext
  match a with
  | ⟨0, _⟩ => show 8 * (t.val / 2) + (j 0).val = win1_4.index t (0 : Fin 2) * 8 + 1 * (j 0).val; omega
  | ⟨1, _⟩ => show (j 1).val = win1_4.index t (1 : Fin 2) * 512 + 1 * (j 1).val; omega

/-- An index of the first result is in a point's block iff each coordinate is in the block's range on its axis. -/
private theorem mem_blk_z (t : Fin cfg1.N) (i : S4096x1024.Idx) :
    i ∈ ((cfg1.win 3).blk t).view.set ↔ ∀ a : Fin 2, win1_3.index t a * S512x1024.size a ≤ (i a).val
      ∧ (i a).val < win1_3.index t a * S512x1024.size a + S512x1024.size a := by
  show i ∈ ((View.whole main_v13_0).slice (win1_3.rect t)).set ↔ _
  rw [View.set_slice_whole, Rect.mem_set_unit]
  exact Iff.rfl

/-- An index of the second result is in a point's block iff each coordinate is in the block's range on its axis. -/
private theorem mem_blk_p (t : Fin cfg1.N) (i : S64x512.Idx) :
    i ∈ ((cfg1.win 4).blk t).view.set ↔ ∀ a : Fin 2, win1_4.index t a * S8x512.size a ≤ (i a).val
      ∧ (i a).val < win1_4.index t a * S8x512.size a + S8x512.size a := by
  show i ∈ ((View.whole main_v13_1).slice (win1_4.rect t)).set ↔ _
  rw [View.set_slice_whole, Rect.mem_set_unit]
  exact Iff.rfl

/-- Row `r` of the first result is in the block written back at the last chunk of its tile `r / 512`. -/
private theorem cover_z (i : S4096x1024.Idx) :
    ∃ t : Fin cfg1.N, (cfg1.win 3).flush t = true ∧ i ∈ ((cfg1.win 3).blk t).view.set := by
  have hi0 : (i 0).val < 4096 := (i 0).isLt
  have hi1 : (i 1).val < 1024 := (i 1).isLt
  have hN : cfg1.N = 16 := N_1
  obtain ⟨t, ht⟩ : ∃ t : Fin cfg1.N, t.val = 2 * ((i 0).val / 512) + 1 := ⟨⟨2 * ((i 0).val / 512) + 1, by omega⟩, rfl⟩
  refine ⟨t, (flush1_3 t).mpr (by omega), ?_⟩
  rw [mem_blk_z]
  obtain ⟨e0, e1⟩ := idx_z t
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1024 ≤ (i 1).val ∧ (i 1).val < win1_3.index t (1 : Fin 2) * 1024 + 1024; omega

/-- Row `r` of the second result is in the block written back at the last chunk of its tile `r / 8`. -/
private theorem cover_p (i : S64x512.Idx) :
    ∃ t : Fin cfg1.N, (cfg1.win 4).flush t = true ∧ i ∈ ((cfg1.win 4).blk t).view.set := by
  have hi0 : (i 0).val < 64 := (i 0).isLt
  have hi1 : (i 1).val < 512 := (i 1).isLt
  have hN : cfg1.N = 16 := N_1
  obtain ⟨t, ht⟩ : ∃ t : Fin cfg1.N, t.val = 2 * ((i 0).val / 8) + 1 := ⟨⟨2 * ((i 0).val / 8) + 1, by omega⟩, rfl⟩
  refine ⟨t, (flush1_4 t).mpr (by omega), ?_⟩
  rw [mem_blk_p]
  obtain ⟨e0, e1⟩ := idx_p t
  intro a
  match a with
  | ⟨0, _⟩ => show win1_4.index t (0 : Fin 2) * 8 ≤ (i 0).val ∧ (i 0).val < win1_4.index t (0 : Fin 2) * 8 + 8; omega
  | ⟨1, _⟩ => show win1_4.index t (1 : Fin 2) * 512 ≤ (i 1).val ∧ (i 1).val < win1_4.index t (1 : Fin 2) * 512 + 512; omega

/-- The second region's first result after its sixteen points: each tile of 512 rows starts at the bias row and gains
    the adjacency's two halves of columns against the table's two halves of rows. -/
theorem reg1_z (V : (c : Dev nD) → (b : Ref sig .tc) → Buf (Elt Ideal) ((c : Thread nD τ).loc b)) (c : Dev nD) :
    ((dat1 (F := Ideal) V c).arrAt 3 cfg1.N : Mat 4096 1024) = ZallG (V c main_arg2) (V c main_v12) (V c main_v8) :=
  (dat1 (F := Ideal) V c).arrAt_eq_of_cover 3 (ZallG (V c main_arg2) (V c main_v12) (V c main_v8))
    (fun t hf => flushed_z V c t ((flush1_3 t).mp hf)) cover_z

/-- Its second result: each tile's column sums over the left 512 columns, on eight rows. -/
theorem reg1_p (V : (c : Dev nD) → (b : Ref sig .tc) → Buf (Elt Ideal) ((c : Thread nD τ).loc b)) (c : Dev nD) :
    ((dat1 (F := Ideal) V c).arrAt 4 cfg1.N : Mat 64 512) = PartG (ZallG (V c main_arg2) (V c main_v12) (V c main_v8)) :=
  (dat1 (F := Ideal) V c).arrAt_eq_of_cover 4 (PartG (ZallG (V c main_arg2) (V c main_v12) (V c main_v8)))
    (fun t hf => flushed_p V c t ((flush1_4 t).mp hf)) cover_p

end Cert.ReferenceIdeal.RVal
end
-- ==== Proof.RReg2.lean ====
import proofs.«126669_g2000106255353042_pallasbulk_995_17_alg».proof.Proof.Gen.ReferenceIdeal.Frame
import proofs.«126669_g2000106255353042_pallasbulk_995_17_alg».proof.Proof.RSpec
import Idealize.ShloMosaic.Lib.Pipeline.Value
import Idealize.ShloMosaic.Lib.ValueIdx
import Idealize.ShloMosaic.PureOps.Ideal.Laws

set_option maxRecDepth 16384

noncomputable section

namespace Cert.ReferenceIdeal.RVal
open Cert.ReferenceIdeal Cert.ReferenceIdeal.Gen Cert.Spec Cert.RSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

local notation "𝕄" => MT nD τ sig Unit (Elt Ideal) ℕ (UR sig nD τ) ℕ

/-! ## The product's operand indices, axis by axis -/

private theorem lhs_dot2_0 (j : S1x512.Idx) (k : dot_S1x512_S512x512_S1x512_1_0_0_1_n_n.contr.Idx) :
    (dot_S1x512_S512x512_S1x512_1_0_0_1_n_n.lhsIdx j k 0).val = (j 0).val := rfl
private theorem lhs_dot2_1 (j : S1x512.Idx) (k : dot_S1x512_S512x512_S1x512_1_0_0_1_n_n.contr.Idx) :
    (dot_S1x512_S512x512_S1x512_1_0_0_1_n_n.lhsIdx j k 1).val = (k ⟨0, by decide⟩).val :=
  dot_S1x512_S512x512_S1x512_1_0_0_1_n_n.lhsIdx_val_of_single rfl j k
private theorem rhs_dot2_0 (j : S1x512.Idx) (k : dot_S1x512_S512x512_S1x512_1_0_0_1_n_n.contr.Idx) :
    (dot_S1x512_S512x512_S1x512_1_0_0_1_n_n.rhsIdx j k 0).val = (k ⟨0, by decide⟩).val :=
  dot_S1x512_S512x512_S1x512_1_0_0_1_n_n.rhsIdx_val_of_single rfl j k
private theorem rhs_dot2_1 (j : S1x512.Idx) (k : dot_S1x512_S512x512_S1x512_1_0_0_1_n_n.contr.Idx) :
    (dot_S1x512_S512x512_S1x512_1_0_0_1_n_n.rhsIdx j k 1).val = (j 1).val := rfl

/-! ## The body's operations at an index -/

/-- The sum over the 64 rows, lane by lane. -/
private theorem lane_sum (x : FVec Ideal S64x512 .f32) (h : Fin 512) :
    multiReduction (F := Ideal) .add [0] S512 x 0x00000000#32 reduces_S64x512_S512 (.inl rfl) rfl (ix1 h)
      = ∑ r : Fin 64, x (ix2 r h) := by
  refine (Ideal.multiReduction_add_single x 0x00000000#32 reduces_S64x512_S512 (.inl rfl) rfl (ix1 h)).trans ?_
  show ∑ r : Fin 64, x (reduces_S64x512_S512.lift (ix1 h) r) = ∑ r : Fin 64, x (ix2 r h)
  refine Finset.sum_congr rfl fun r _ => congrArg x ?_
  funext a
  apply Fin.ext
  match a with
  | ⟨0, _⟩ => rfl
  | ⟨1, _⟩ => rfl

/-- A lane vector read as one row. -/
private theorem row_of_lanes (v : FVec Ideal S512 .f32) (h : Fin 512) :
    shapeCast S1x512 v shapeCasts_S512_S1x512 (ix2 (0 : Fin 1) h) = v (ix1 h) := by
  refine (shapeCast_addUnit_apply ![512] v shapeCasts_S512_S1x512 (ix2 (0 : Fin 1) h)).trans (congrArg v ?_)
  funext a
  match a with
  | ⟨0, _⟩ => rfl

/-- The product into a zero accumulator, at a column. -/
private theorem matmul_at (l : FVec Ideal S1x512 .f32) (r : FVec Ideal S512x512 .f32) (q : Fin 512) :
    matmul dot_S1x512_S512x512_S1x512_1_0_0_1_n_n none l r (constant (F := Ideal) S1x512 .f32 0x00000000#32) (ix2 (0 : Fin 1) q)
      = ∑ h : Fin 512, l (ix2 (0 : Fin 1) h) * r (ix2 h q) := by
  simp only [matmul]
  rw [Ideal.matmul_constant_zero_apply]
  rw [← Equiv.sum_comp (contrEquiv1 dot_S1x512_S512x512_S1x512_1_0_0_1_n_n 512 rfl rfl).symm]
  refine Finset.sum_congr rfl fun h _ => ?_
  have hk : (((contrEquiv1 dot_S1x512_S512x512_S1x512_1_0_0_1_n_n 512 rfl rfl).symm h) ⟨0, by decide⟩ : ℕ) = h.val :=
    contrEquiv1_symm_val dot_S1x512_S512x512_S1x512_1_0_0_1_n_n 512 rfl rfl h
  have el : dot_S1x512_S512x512_S1x512_1_0_0_1_n_n.lhsIdx (ix2 (0 : Fin 1) q)
      ((contrEquiv1 dot_S1x512_S512x512_S1x512_1_0_0_1_n_n 512 rfl rfl).symm h) = ix2 (0 : Fin 1) h := by
    funext a
    apply Fin.ext
    match a with
    | ⟨0, _⟩ => exact lhs_dot2_0 _ _
    | ⟨1, _⟩ => exact (lhs_dot2_1 _ _).trans hk
  have er : dot_S1x512_S512x512_S1x512_1_0_0_1_n_n.rhsIdx (ix2 (0 : Fin 1) q)
      ((contrEquiv1 dot_S1x512_S512x512_S1x512_1_0_0_1_n_n 512 rfl rfl).symm h) = ix2 h q := by
    funext a
    apply Fin.ext
    match a with
    | ⟨0, _⟩ => exact (rhs_dot2_0 _ _).trans hk
    | ⟨1, _⟩ => exact rhs_dot2_1 _ _
  rw [el, er]

/-- The body's stored value at a column: the sigmoid of the scaled row sums times the matrix, plus the bias. -/
private theorem pay_at (x0 : FVec Ideal S64x512 .f32) (x1 : FVec Ideal S512x512 .f32) (x2 : FVec Ideal S1x512 .f32) (q : Fin 512) :
    k2_pay1 (F := Ideal) x0 x1 x2 (ix2 (0 : Fin 1) q)
      = (∑ h : Fin 512, Ideal.logistic ((∑ r : Fin 64, x0 (ix2 r h)) * c15) * x1 (ix2 h q)) + x2 (ix2 (0 : Fin 1) q) := by
  have e : k2_pay1 (F := Ideal) x0 x1 x2 (ix2 (0 : Fin 1) q)
      = matmul dot_S1x512_S512x512_S1x512_1_0_0_1_n_n none
          (logistic (F := Ideal) (mulf (F := Ideal)
            (shapeCast S1x512 (multiReduction (F := Ideal) .add [0] S512 x0 0x00000000#32 reduces_S64x512_S512 (.inl rfl) rfl) shapeCasts_S512_S1x512)
            (broadcast S1x512 (Ideal.ofBits .f32 0x38000000#32))))
          x1 (constant (F := Ideal) S1x512 .f32 0x00000000#32) (ix2 (0 : Fin 1) q) + x2 (ix2 (0 : Fin 1) q) := by
    unfold k2_pay1
    simp only [shapeCast_self]
    rfl
  rw [e, matmul_at]
  refine congrArg (· + x2 (ix2 (0 : Fin 1) q)) (Finset.sum_congr rfl fun h _ => ?_)
  refine congrArg (· * x1 (ix2 h q)) ?_
  show Ideal.logistic (shapeCast S1x512 (multiReduction (F := Ideal) .add [0] S512 x0 0x00000000#32 reduces_S64x512_S512 (.inl rfl) rfl) shapeCasts_S512_S1x512 (ix2 (0 : Fin 1) h) * c15) = _
  rw [row_of_lanes, lane_sum]

/-! ## From the one block to the array -/

private theorem hz2 : (![0, 0] : Fin 2 → Nat) = fun _ => 0 := funext fun a => by
  match a with
  | ⟨0, _⟩ => rfl
  | ⟨1, _⟩ => rfl

/-- What the body leaves in the output buffer is the region's function of the three input buffers. -/
private theorem out2_3_eq (x0 : FVec Ideal S64x512 .f32) (x1 : FVec Ideal S512x512 .f32) (x2 : FVec Ideal S1x512 .f32) :
    out2_3 (F := Ideal) x0 x1 x2 = GG x0 x1 x2 := by
  unfold out2_3
  rw [View.canon_unit_zero hz2]
  simp only [View.ld_unit_zero (S := S64x512) hz2, View.ld_unit_zero (S := S512x512) hz2, View.ld_unit_zero (S := S1x512) hz2]
  funext j
  obtain ⟨p, q, rfl⟩ : ∃ (p : Fin 1) (q : Fin 512), j = ix2 p q := ⟨j 0, j 1, eq_ix2 j⟩
  obtain rfl : p = 0 := Subsingleton.elim _ _
  rw [pay_at]
  rfl

/-- Every window's block index is zero at the one point. -/
private theorem idx2_zero : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

section
variable (V : (c : Dev nD) → (b : Ref sig .tc) → Buf (Elt Ideal) ((c : Thread nD τ).loc b))

/-- Each input window's block is its whole array. -/
private theorem iblk2_0_whole (c : Dev nD) (t : Fin cfg2.N) :
    (iblk2 (F := Ideal) V c 0 t : FVec Ideal S64x512 .f32) = V c main_v13_1 := by
  obtain ⟨e0, e1, -⟩ := idx2_zero t
  funext j
  show V c main_v13_1 (((cfg2.win 0).blk t).view.emb j) = V c main_v13_1 j
  refine congrArg (V c main_v13_1) ?_
  funext a
  apply Fin.ext
  match a with
  | ⟨0, _⟩ => show win2_0.index t (0 : Fin 2) * 64 + 1 * (j 0).val = (j 0).val; omega
  | ⟨1, _⟩ => show win2_0.index t (1 : Fin 2) * 512 + 1 * (j 1).val = (j 1).val; omega
private theorem iblk2_1_whole (c : Dev nD) (t : Fin cfg2.N) :
    (iblk2 (F := Ideal) V c 1 t : FVec Ideal S512x512 .f32) = V c main_v10 := by
  obtain ⟨-, -, e0, e1, -⟩ := idx2_zero t
  funext j
  show V c main_v10 (((cfg2.win 1).blk t).view.emb j) = V c main_v10 j
  refine congrArg (V c main_v10) ?_
  funext a
  apply Fin.ext
  match a with
  | ⟨0, _⟩ => show win2_1.index t (0 : Fin 2) * 512 + 1 * (j 0).val = (j 0).val; omega
  | ⟨1, _⟩ => show win2_1.index t (1 : Fin 2) * 512 + 1 * (j 1).val = (j 1).val; omega
private theorem iblk2_2_whole (c : Dev nD) (t : Fin cfg2.N) :
    (iblk2 (F := Ideal) V c 2 t : FVec Ideal S1x512 .f32) = V c main_v11 := by
  obtain ⟨-, -, -, -, e0, e1, -⟩ := idx2_zero t
  funext j
  show V c main_v11 (((cfg2.win 2).blk t).view.emb j) = V c main_v11 j
  refine congrArg (V c main_v11) ?_
  funext a
  apply Fin.ext
  match a with
  | ⟨0, _⟩ => show win2_2.index t (0 : Fin 2) * 1 + 1 * (j 0).val = (j 0).val; omega
  | ⟨1, _⟩ => show win2_2.index t (1 : Fin 2) * 512 + 1 * (j 1).val = (j 1).val; omega

/-- What the one point writes back is its block of the region's function of the three arrays. -/
private theorem flushed2_eq (c : Dev nD) (t : Fin cfg2.N) :
    (dat2 (F := Ideal) V c).flushed 3 t
      = ((cfg2.win 3).blk t).view.read (Elt Ideal) (GG (V c main_v13_1) (V c main_v10) (V c main_v11)) := by
  show (cfg2.win 3).cut (grid2.coords t) ((dat2 (F := Ideal) V c).after 3 t) = _
  rw [after2_3, iblk2_0_whole, iblk2_1_whole, iblk2_2_whole, out2_3_eq]
  obtain ⟨-, -, -, -, -, -, e0, e1⟩ := idx2_zero t
  funext j
  show GG (V c main_v13_1) (V c main_v10) (V c main_v11) _
    = GG (V c main_v13_1) (V c main_v10) (V c main_v11) (((cfg2.win 3).blk t).view.emb j)
  refine congrArg (GG (V c main_v13_1) (V c main_v10) (V c main_v11)) ?_
  funext a
  apply Fin.ext
  match a with
  | ⟨0, _⟩ => show (j 0).val = win2_3.index t (0 : Fin 2) * 1 + 1 * (j 0).val; omega
  | ⟨1, _⟩ => show (j 1).val = win2_3.index t (1 : Fin 2) * 512 + 1 * (j 1).val; omega

end

/-- An index of the output array is in the point's block iff each coordinate is in the block's range on its axis. -/
private theorem mem_blk2_3 (t : Fin cfg2.N) (i : S1x512.Idx) :
    i ∈ ((cfg2.win 3).blk t).view.set
      ↔ ∀ a : Fin 2, win2_3.index t a * S1x512.size a ≤ (i a).val ∧ (i a).val < win2_3.index t a * S1x512.size a + S1x512.size a := by
  show i ∈ ((View.whole main_v14).slice (win2_3.rect t)).set ↔ _
  rw [View.set_slice_whole, Rect.mem_set_unit]
  exact Iff.rfl

/-- The one block covers the output array. -/
private theorem cover2_out (i : S1x512.Idx) :
    ∃ t : Fin cfg2.N, (cfg2.win 3).flush t = true ∧ i ∈ ((cfg2.win 3).blk t).view.set := by
  refine ⟨t2_0, flush2_3 t2_0, ?_⟩
  rw [mem_blk2_3]
  obtain ⟨-, -, -, -, -, -, e0, e1⟩ := idx2_zero t2_0
  have hi0 : (i 0).val < 1 := idx2_lt0 i
  have hi1 : (i 1).val < 512 := idx2_lt1 i
  intro a
  match a with
  | ⟨0, _⟩ => show win2_3.index t2_0 (0 : Fin 2) * 1 ≤ (i 0).val ∧ (i 0).val < win2_3.index t2_0 (0 : Fin 2) * 1 + 1; omega
  | ⟨1, _⟩ => show win2_3.index t2_0 (1 : Fin 2) * 512 ≤ (i 1).val ∧ (i 1).val < win2_3.index t2_0 (1 : Fin 2) * 512 + 512; omega

/-- The third region's result after its one point. -/
theorem reg2 (V : (c : Dev nD) → (b : Ref sig .tc) → Buf (Elt Ideal) ((c : Thread nD τ).loc b)) (c : Dev nD) :
    ((dat2 (F := Ideal) V c).arrAt 3 cfg2.N : Mat 1 512) = GG (V c main_v13_1) (V c main_v10) (V c main_v11) :=
  (dat2 (F := Ideal) V c).arrAt_eq_of_cover 3 (GG (V c main_v13_1) (V c main_v10) (V c main_v11))
    (fun t _ => flushed2_eq V c t) cover2_out

end Cert.ReferenceIdeal.RVal
end
-- ==== Proof.RValue.lean ====
import proofs.«126669_g2000106255353042_pallasbulk_995_17_alg».proof.Proof.RRun
import proofs.«126669_g2000106255353042_pallasbulk_995_17_alg».proof.Proof.RHost
import proofs.«126669_g2000106255353042_pallasbulk_995_17_alg».proof.Proof.RReg0
import proofs.«126669_g2000106255353042_pallasbulk_995_17_alg».proof.Proof.RReg1
import proofs.«126669_g2000106255353042_pallasbulk_995_17_alg».proof.Proof.RReg2

set_option maxRecDepth 16384

noncomputable section

namespace Cert.ReferenceIdeal.RVal
open Cert.ReferenceIdeal Cert.ReferenceIdeal.Gen Cert.Spec Cert.RSpec
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-!
  The reference's three results as functions of its arguments: the boundary contents followed back through the three
  regions and the host lines — the table of encoded features out of the first region, the adjacency applied to it over
  the doubled bias and its tile sums out of the second, the summary out of the third, and the two halves of the columns.
-/
variable (m : (ℓ : Loc nD τ sig) → Buf (Elt Ideal) ℓ) (ρ : Dev nD → PrngReg)

/-- The table the second region reads: the two feature tables encoded, side by side. -/
theorem V13_v12 (c : Dev nD) : (V13 m ρ c main_v12 : Mat 4096 1024) = Hcat (m ((c : Thread nD τ).loc main_arg0)) (m ((c : Thread nD τ).loc main_arg1)) (m ((c : Thread nD τ).loc main_arg3)) := by
  refine (W13_arr m ρ c 2).trans ((reg0 (V12 m ρ) c).trans ?_)
  rw [V12_v4 m ρ c, V12_v6 m ρ c]
  exact HcatG_eq _ _ _

theorem V13_arg2 (c : Dev nD) : (V13 m ρ c main_arg2 : Mat 4096 4096) = (m ((c : Thread nD τ).loc main_arg2)) :=
  (W13_of_ne m ρ c main_arg2 (by decide)).trans (V12_arg2 m ρ c)
theorem V13_v8 (c : Dev nD) : (V13 m ρ c main_v8 : Mat 1 1024) = Bcat (m ((c : Thread nD τ).loc main_arg4)) :=
  (W13_of_ne m ρ c main_v8 (by decide)).trans (V12_v8 m ρ c)

/-- The second region's first result: both results side by side. -/
theorem V14_v13_0 (c : Dev nD) : (V14 m ρ c main_v13_0 : Mat 4096 1024)
    = Zall (m ((c : Thread nD τ).loc main_arg0)) (m ((c : Thread nD τ).loc main_arg1)) (m ((c : Thread nD τ).loc main_arg2)) (m ((c : Thread nD τ).loc main_arg3)) (m ((c : Thread nD τ).loc main_arg4)) := by
  refine (W14_arr m ρ c 3).trans ((reg1_z (V13 m ρ) c).trans ?_)
  rw [V13_arg2 m ρ c, V13_v12 m ρ c, V13_v8 m ρ c]
  exact ZallG_eq _ _ _ _ _
/-- Its second result: the tile sums of the clean result. -/
theorem V14_v13_1 (c : Dev nD) : (V14 m ρ c main_v13_1 : Mat 64 512) = Part (ZR (m ((c : Thread nD τ).loc main_arg0)) (m ((c : Thread nD τ).loc main_arg2)) (m ((c : Thread nD τ).loc main_arg3)) (m ((c : Thread nD τ).loc main_arg4))) := by
  refine (W14_arr m ρ c 4).trans ((reg1_p (V13 m ρ) c).trans ?_)
  rw [V13_arg2 m ρ c, V13_v12 m ρ c, V13_v8 m ρ c, ZallG_eq]
  exact PartG_eq _ _ _ _ _
theorem V14_v10 (c : Dev nD) : (V14 m ρ c main_v10 : Mat 512 512) = Tr (m ((c : Thread nD τ).loc main_arg5)) :=
  (W14_of_ne m ρ c main_v10 (by decide)).trans ((W13_of_ne m ρ c main_v10 (by decide)).trans (V12_v10 m ρ c))
theorem V14_v11 (c : Dev nD) : (V14 m ρ c main_v11 : Mat 1 512) = (m ((c : Thread nD τ).loc main_arg6)) :=
  (W14_of_ne m ρ c main_v11 (by decide)).trans ((W13_of_ne m ρ c main_v11 (by decide)).trans (V12_v11 m ρ c))

theorem W16_z (c : Dev nD) : (W16 m ρ c (Proc.devRef .tc main_v15) : Mat 4096 512) = ZR (m ((c : Thread nD τ).loc main_arg0)) (m ((c : Thread nD τ).loc main_arg2)) (m ((c : Thread nD τ).loc main_arg3)) (m ((c : Thread nD τ).loc main_arg4)) := by
  rw [W16_v15 m ρ c, show W15 m ρ c (Proc.devRef .tc main_v13_0) = W14 m ρ c (Proc.devRef .tc main_v13_0) from W15_of_ne m ρ c main_v13_0 (by decide)]
  rw [show (W14 m ρ c (Proc.devRef .tc main_v13_0) : Mat 4096 1024) = _ from V14_v13_0 m ρ c]
  exact SliceL_Zall _ _ _ _ _
theorem W16_zn (c : Dev nD) : (W16 m ρ c (Proc.devRef .tc main_v16) : Mat 4096 512) = ZR (m ((c : Thread nD τ).loc main_arg1)) (m ((c : Thread nD τ).loc main_arg2)) (m ((c : Thread nD τ).loc main_arg3)) (m ((c : Thread nD τ).loc main_arg4)) := by
  rw [W16_v16 m ρ c, show W15 m ρ c (Proc.devRef .tc main_v13_0) = W14 m ρ c (Proc.devRef .tc main_v13_0) from W15_of_ne m ρ c main_v13_0 (by decide)]
  rw [show (W14 m ρ c (Proc.devRef .tc main_v13_0) : Mat 4096 1024) = _ from V14_v13_0 m ρ c]
  exact SliceR_Zall _ _ _ _ _
theorem W16_g (c : Dev nD) : (W16 m ρ c (Proc.devRef .tc main_v14) : Mat 1 512) = GR (ZR (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) := by
  rw [W16_v14 m ρ c]
  refine (W15_arr m ρ c 3).trans ((reg2 (V14 m ρ) c).trans ?_)
  rw [V14_v13_1 m ρ c, V14_v10 m ρ c, V14_v11 m ρ c]
  exact GG_eq _ _ _

/-- Every weakly fair execution of the reference terminates without a fault with its three results at the
    encode-then-propagate functions of its arguments, the arguments unchanged. -/
theorem run_values : θ_run (defs (F := Ideal)) (onTc (τ := τ) (main (F := Ideal))) ⟨m, fun _ => 0, ρ⟩ (fun r => ∀ c : Dev nD,
      r.2.mem ((c.tc : Thread nD τ).loc main_v15) = ZR (m ((c : Thread nD τ).loc main_arg0)) (m ((c : Thread nD τ).loc main_arg2)) (m ((c : Thread nD τ).loc main_arg3)) (m ((c : Thread nD τ).loc main_arg4))
      ∧ r.2.mem ((c.tc : Thread nD τ).loc main_v14) = GR (ZR (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6))
      ∧ r.2.mem ((c.tc : Thread nD τ).loc main_v16) = ZR (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun s h c =>
    ⟨(h c _ (mem_uc main_v15 (by decide))).trans (W16_z m ρ c),
     (h c _ (mem_uc main_v14 (by decide))).trans (W16_g m ρ c),
     (h c _ (mem_uc main_v16 (by decide))).trans (W16_zn m ρ c),
     (h c _ (mem_uc main_arg0 (by decide))).trans (W16_main_arg0 m ρ c),
     (h c _ (mem_uc main_arg1 (by decide))).trans (W16_main_arg1 m ρ c),
     (h c _ (mem_uc main_arg2 (by decide))).trans (W16_main_arg2 m ρ c),
     (h c _ (mem_uc main_arg3 (by decide))).trans (W16_main_arg3 m ρ c),
     (h c _ (mem_uc main_arg4 (by decide))).trans (W16_main_arg4 m ρ c),
     (h c _ (mem_uc main_arg5 (by decide))).trans (W16_main_arg5 m ρ c),
     (h c _ (mem_uc main_arg6 (by decide))).trans (W16_main_arg6 m ρ c)⟩) (run_all m ρ)

end Cert.ReferenceIdeal.RVal
end
-- ==== Proof.Finite.lean ====
/-
  The precondition read: the printed predicate is the conjunction, over the seven argument arrays, of "every entry's
  absolute value is below +∞". Where it is all ones, every entry of the two feature tables, of the adjacency and of the
  encoder's weights is a real number (neither infinity).
-/
import proofs.«126669_g2000106255353042_pallasbulk_995_17_alg».proof.Pre_finite_inputs
import proofs.«126669_g2000106255353042_pallasbulk_995_17_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Idealize.ShloMosaic.ValueIdx

/-- An extended real whose absolute value `max x (-x)` is below `+∞` is neither infinity: it is a real. -/
private theorem real_of_abs_lt_top (x : EReal) (h : max x (-x) < ⊤) : ∃ r : ℝ, x = (r : EReal) := by
  induction x using EReal.rec with
  | bot => simp at h
  | coe r => exact ⟨r, rfl⟩
  | top => simp at h

/-- The bound the printed test compares against, the `f32` pattern `0x7F800000`, is `+∞`. -/
private theorem bound_eq_top : Ideal.ofBits .f32 0x7F800000#32 = (⊤ : EReal) := by
  simp [Ideal.ofBits, Ideal.ieee]

/-- A truth value whose one-bit word is 1 is true. -/
private theorem ofBool_eq_one {c : Bool} (h : BitVec.ofBool c = 1#1) : c = true := by
  cases c
  · exact absurd h (by decide)
  · rfl

/-- The `and` of two one-bit arrays is 1 at an index only where both are. -/
private theorem andi_apply_eq_one {s : Shape} {p q : IVec s 1} {i : s.Idx} (h : andi p q i = 1#1) :
    p i = 1#1 ∧ q i = 1#1 :=
  IntOp.andi_eq_one.1 (show IntOp.andi (p i) (q i) = 1#1 from h)

/-- The scalar shape has one index. -/
private instance subsingleton_scalar_idx : Subsingleton (⟨0, ![]⟩ : Shape).Idx :=
  ⟨fun a b => funext fun d => d.elim0⟩

/-- One conjunct of the printed predicate, at any shape: where the `and` over all entries of
    "`|v| < +∞`" is one, every entry of `v` is a real. -/
private theorem real_of_all {s : Shape} {axes : List (Fin s.rank)} (v : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (init : IVec (⟨0, ![]⟩ : Shape) 1)
    (e : Host.reduce IntOp.andi
          (cmpf .olt (Host.absf v) (broadcastInDim s ![] hb (constant (⟨0, ![]⟩ : Shape) .f32 0x7F800000#32)))
          init hr hu ix0 = 1#1) :
    ∀ y, ∃ r : ℝ, v y = (r : EReal) := by
  intro y
  have hy := Host.reduce_andi_all _ init hr hu ix0 e y
  have hy' : Ideal.cmp .olt (max (v y) (-(v y))) (Ideal.ofBits .f32 0x7F800000#32) = 1#1 := hy
  rw [bound_eq_top] at hy'
  exact real_of_abs_lt_top (v y) (of_decide_eq_true (ofBool_eq_one hy'))

/-- Where the precondition's predicate holds, the entries of `x`, `xc`, `a` and `w` are reals. -/
theorem real_of_fn [hP : Cert.Pre_finite_inputs.Facts]
    (x xc : FVec Ideal (⟨2, ![4096, 256]⟩ : Shape) .f32) (a : FVec Ideal (⟨2, ![4096, 4096]⟩ : Shape) .bf16)
    (w : FVec Ideal (⟨2, ![256, 512]⟩ : Shape) .f32) (b : FVec Ideal (⟨2, ![1, 512]⟩ : Shape) .f32)
    (wp : FVec Ideal (⟨2, ![512, 512]⟩ : Shape) .f32) (bp : FVec Ideal (⟨2, ![1, 512]⟩ : Shape) .f32)
    (h : Cert.Pre_finite_inputs.fn (F := Ideal) x xc a w b wp bp = fun _ => 1#1) :
    (∀ y, ∃ r : ℝ, x y = (r : EReal)) ∧ (∀ y, ∃ r : ℝ, xc y = (r : EReal))
      ∧ (∀ y, ∃ r : ℝ, a y = (r : EReal)) ∧ (∀ y, ∃ r : ℝ, w y = (r : EReal)) := by
  have h0 := congrFun h ValueIdx.ix0
  dsimp only [Cert.Pre_finite_inputs.fn, Cert.Pre_finite_inputs.fn_part1, Cert.Pre_finite_inputs.fn_part2] at h0
  -- the seven conjuncts, the last joined first
  obtain ⟨h0, e6⟩ := andi_apply_eq_one h0
  obtain ⟨h0, e5⟩ := andi_apply_eq_one h0
  obtain ⟨h0, e4⟩ := andi_apply_eq_one h0
  obtain ⟨h0, e3⟩ := andi_apply_eq_one h0
  obtain ⟨h0, e2⟩ := andi_apply_eq_one h0
  obtain ⟨e0, e1⟩ := andi_apply_eq_one h0
  -- the adjacency is widened first; at the extended reals the widening is the identity
  have ha : ∀ y, ∃ r : ℝ, a y = (r : EReal) := fun y => real_of_all _ _ _ _ _ e2 y
  exact ⟨real_of_all x _ _ _ _ e0, real_of_all xc _ _ _ _ e1, ha, real_of_all w _ _ _ _ e3⟩

end Cert.Finite

end
-- ==== Proof.lean ====
/-
  A graph-infomax forward pass on 4096 nodes, written two ways. The kernel propagates the features through the dense
  adjacency first and encodes second — one pallas_call over (2 row bands) × (4 column chunks) that stages the bf16
  feature table as it walks the first band, accumulates `a · [x | xc]` per band, applies the encoder at a band's last
  chunk and finishes the summary (a sigmoid of column means, projected) at the last point. The reference encodes first
  and propagates second, in three pallas_calls (features; adjacency product over the bias with tile sums; summary).
  Over the extended reals with finite inputs both compute `z = a · x · w + b` for the clean and the corrupted features
  — one matrix by associativity of the product of real matrices — and the same summary of the clean `z`: sums of the
  same column entries grouped by halves or by tiles. The three frames: each kernel body runs at every grid point without
  a fault (the two programs of the kernel share one body text; the reference's frame is the generated one).
-/
import proofs.«126669_g2000106255353042_pallasbulk_995_17_alg».proof.Defs
import proofs.«126669_g2000106255353042_pallasbulk_995_17_alg».proof.Proof.Gen.Kernel
import proofs.«126669_g2000106255353042_pallasbulk_995_17_alg».proof.Proof.Gen.KernelIdeal
import proofs.«126669_g2000106255353042_pallasbulk_995_17_alg».proof.Proof.Gen.ReferenceIdeal
import proofs.«126669_g2000106255353042_pallasbulk_995_17_alg».proof.Proof.Gen.ReferenceIdeal.Frame
import proofs.«126669_g2000106255353042_pallasbulk_995_17_alg».proof.Proof.Gen.Pre_finite_inputs
import proofs.«126669_g2000106255353042_pallasbulk_995_17_alg».proof.Proof.KbData
import proofs.«126669_g2000106255353042_pallasbulk_995_17_alg».proof.Proof.KFinal
import proofs.«126669_g2000106255353042_pallasbulk_995_17_alg».proof.Proof.RValue
import proofs.«126669_g2000106255353042_pallasbulk_995_17_alg».proof.Proof.Finite
import Idealize.ShloMosaic.Adequacy
import Idealize.ShloMosaic.Init

noncomputable section

namespace Cert.Proof

open Idealize.ShloMosaic Idealize.SL.Sem Cert.Spec

/-- The word-level kernel runs at every point and leaves its arguments as launched. -/
theorem frame_k : Cert.frame_Kernel := fun m ρ _ => Cert.Kernel.Body.frame (F := Bits) m ρ
/-- So does the idealized kernel. -/
theorem frame_ki : Cert.frame_KernelIdeal := fun m ρ _ => Cert.KernelIdeal.Body.frame (F := Ideal) m ρ
/-- So does the idealized reference. -/
theorem frame_ri : Cert.frame_ReferenceIdeal := fun m ρ _ => Cert.ReferenceIdeal.Gen.frame m ρ

/-- The ideal pass rewrote nothing: the idealization is the program's own text read at the ideal instance. -/
theorem preserves : Cert.preserves_Kernel_KernelIdeal := trivial

/-- From memories agreeing on the arguments both programs end with `z`, its summary and the corrupted `z`: the kernel in
    the propagate-first order, the reference in the encode-first order, equal because the precondition makes every entry
    of the features, the adjacency and the weights a real number. -/
theorem algebraic : Cert.algebraic_KernelIdeal_ReferenceIdeal := by
  intro m ρ m' ρ' hpre hagree
  refine ⟨fun c => ZK (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => GK (ZK (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => ZK (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Body.run_values m ρ, ?_⟩
  refine (θ_run Cert.ReferenceIdeal.defs _ _).mono (fun r h c => ?_) (Cert.ReferenceIdeal.RVal.run_values m' ρ')
  obtain ⟨hx, hxc, ha, hw⟩ := Cert.Finite.real_of_fn _ _ _ _ _ _ _ (hpre c)
  obtain ⟨e0, e1, e2, e3, e4, e5, e6⟩ := hagree c
  obtain ⟨r15, r14, r16, rest⟩ := h c
  refine ⟨r15.trans ?_, r14.trans ?_, r16.trans ?_, rest⟩
  · rw [e0, e2, e3, e4]; exact (ZK_eq_ZR _ _ _ _ hx ha hw).symm
  · rw [e0, e2, e3, e4, e5, e6, ← ZK_eq_ZR _ _ _ _ hx ha hw]; exact (GK_eq_GR _ _ _).symm
  · rw [e1, e2, e3, e4]; exact (ZK_eq_ZR _ _ _ _ hxc ha hw).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
